-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x792x2 : Shape := ⟨3, ![4, 792, 2]⟩
abbrev S4x1000000x2 : Shape := ⟨3, ![4, 1000000, 2]⟩
abbrev S4x8000000x2 : Shape := ⟨3, ![4, 8000000, 2]⟩
abbrev S4x1000000 : Shape := ⟨2, ![4, 1000000]⟩
abbrev S4x8x1000000 : Shape := ⟨3, ![4, 8, 1000000]⟩
abbrev S_ : Shape := ⟨0, ![]⟩

class Facts : Prop where
  bcast_S_S4x1000000 : S_.BroadcastsInDim S4x1000000 (![] : Fin 0 → Fin S4x1000000.rank)
  reducesTo_S4x1000000_S_d0_1 : S4x1000000.ReducesTo [0, 1] S_
  h_S_ : 0 < S_.numel
  bcast_S_S4x792x2 : S_.BroadcastsInDim S4x792x2 (![] : Fin 0 → Fin S4x792x2.rank)
  reducesTo_S4x792x2_S_d0_1_2 : S4x792x2.ReducesTo [0, 1, 2] S_
  bcast_S_S4x1000000x2 : S_.BroadcastsInDim S4x1000000x2 (![] : Fin 0 → Fin S4x1000000x2.rank)
  reducesTo_S4x1000000x2_S_d0_1_2 : S4x1000000x2.ReducesTo [0, 1, 2] S_
  bcast_S_S4x8000000x2 : S_.BroadcastsInDim S4x8000000x2 (![] : Fin 0 → Fin S4x8000000x2.rank)
  reducesTo_S4x8000000x2_S_d0_1_2 : S4x8000000x2.ReducesTo [0, 1, 2] S_
  bcast_S_S4x8x1000000 : S_.BroadcastsInDim S4x8x1000000 (![] : Fin 0 → Fin S4x8x1000000.rank)
  reducesTo_S4x8x1000000_S_d0_1_2 : S4x8x1000000.ReducesTo [0, 1, 2] S_

variable [Facts]

def fn_part2 {F : FTy → Type} [FloatOps F] (main_v5 : IVec S4x1000000 32) (main_v31 : IVec S_ 1) (main_c_13 : IVec S_ 32) : IVec S_ 1 :=
  let main_v32 : IVec S4x1000000 32 := broadcastInDim S4x1000000 ![] bcast_S_S4x1000000 main_c_13
  let main_v33 : IVec S4x1000000 1 := cmpi .sle main_v5 main_v32
  let main_c_14 : IVec S_ 1 := constantI S_ 1 1#1
  let main_v34 : IVec S_ 1 := (fun x v => Host.reduce IntOp.andi x v reducesTo_S4x1000000_S_d0_1 h_S_) main_v33 main_c_14
  let main_v35 : IVec S_ 1 := andi main_v31 main_v34
  main_v35

def fn_part1 {F : FTy → Type} [FloatOps F] (main_arg4 : IVec S4x8x1000000 32) (main_v5 : IVec S4x1000000 32) (main_v14 : IVec S_ 1) (main_v15 : FVec F S4x8000000x2 .f32) (main_cst_5 : FVec F S_ .f32) : IVec S_ 1 :=
  let main_v16 : FVec F S4x8000000x2 .f32 := broadcastInDim S4x8000000x2 ![] bcast_S_S4x8000000x2 main_cst_5
  let main_v17 : IVec S4x8000000x2 1 := cmpf .olt main_v15 main_v16
  let main_c_6 : IVec S_ 1 := constantI S_ 1 1#1
  let main_v18 : IVec S_ 1 := (fun x v => Host.reduce IntOp.andi x v reducesTo_S4x8000000x2_S_d0_1_2 h_S_) main_v17 main_c_6
  let main_v19 : IVec S_ 1 := andi main_v14 main_v18
  let main_c_7 : IVec S_ 32 := constantI S_ 32 4294967295#32
  let main_v20 : IVec S4x8x1000000 32 := broadcastInDim S4x8x1000000 ![] bcast_S_S4x8x1000000 main_c_7
  let main_v21 : IVec S4x8x1000000 1 := cmpi .sge main_arg4 main_v20
  let main_c_8 : IVec S_ 1 := constantI S_ 1 1#1
  let main_v22 : IVec S_ 1 := (fun x v => Host.reduce IntOp.andi x v reducesTo_S4x8x1000000_S_d0_1_2 h_S_) main_v21 main_c_8
  let main_v23 : IVec S_ 1 := andi main_v19 main_v22
  let main_c_9 : IVec S_ 32 := constantI S_ 32 791#32
  let main_v24 : IVec S4x8x1000000 32 := broadcastInDim S4x8x1000000 ![] bcast_S_S4x8x1000000 main_c_9
  let main_v25 : IVec S4x8x1000000 1 := cmpi .sle main_arg4 main_v24
  let main_c_10 : IVec S_ 1 := constantI S_ 1 1#1
  let main_v26 : IVec S_ 1 := (fun x v => Host.reduce IntOp.andi x v reducesTo_S4x8x1000000_S_d0_1_2 h_S_) main_v25 main_c_10
  let main_v27 : IVec S_ 1 := andi main_v23 main_v26
  let main_c_11 : IVec S_ 32 := constantI S_ 32 0#32
  let main_v28 : IVec S4x1000000 32 := broadcastInDim S4x1000000 ![] bcast_S_S4x1000000 main_c_11
  let main_v29 : IVec S4x1000000 1 := cmpi .sge main_v5 main_v28
  let main_c_12 : IVec S_ 1 := constantI S_ 1 1#1
  let main_v30 : IVec S_ 1 := (fun x v => Host.reduce IntOp.andi x v reducesTo_S4x1000000_S_d0_1 h_S_) main_v29 main_c_12
  let main_v31 : IVec S_ 1 := andi main_v27 main_v30
  let main_c_13 : IVec S_ 32 := constantI S_ 32 791#32
  fn_part2 (F := F) main_v5 main_v31 main_c_13

def fn {F : FTy → Type} [FloatOps F] (main_arg0 : FVec F S4x792x2 .f32) (main_arg1 : FVec F S4x1000000x2 .f32) (main_arg2 : FVec F S4x8000000x2 .f32) (main_arg3 : IVec S4x1000000 32) (main_arg4 : IVec S4x8x1000000 32) : IVec S_ 1 :=
  let main_c : IVec S_ 32 := constantI S_ 32 4294967295#32
  let main_v0 : IVec S4x1000000 32 := broadcastInDim S4x1000000 ![] bcast_S_S4x1000000 main_c
  let main_v1 : IVec S4x1000000 1 := cmpi .eq main_arg3 main_v0
  let main_c_0 : IVec S_ 32 := constantI S_ 32 2147483648#32
  let main_v2 : IVec S_ 32 := (fun x v => Host.reduce IntOp.maxsi x v reducesTo_S4x1000000_S_d0_1 h_S_) main_arg3 main_c_0
  let main_c_1 : IVec S_ 32 := constantI S_ 32 1#32
  let main_v3 : IVec S_ 32 := addi main_v2 main_c_1
  let main_v4 : IVec S4x1000000 32 := broadcastInDim S4x1000000 ![] bcast_S_S4x1000000 main_v3
  let main_v5 : IVec S4x1000000 32 := select main_v1 main_v4 main_arg3
  let main_v6 : FVec F S4x792x2 .f32 := Host.absf main_arg0
  let main_cst : FVec F S_ .f32 := constant S_ .f32 0x7F800000#32
  let main_v7 : FVec F S4x792x2 .f32 := broadcastInDim S4x792x2 ![] bcast_S_S4x792x2 main_cst
  let main_v8 : IVec S4x792x2 1 := cmpf .olt main_v6 main_v7
  let main_c_2 : IVec S_ 1 := constantI S_ 1 1#1
  let main_v9 : IVec S_ 1 := (fun x v => Host.reduce IntOp.andi x v reducesTo_S4x792x2_S_d0_1_2 h_S_) main_v8 main_c_2
  let main_v10 : FVec F S4x1000000x2 .f32 := Host.absf main_arg1
  let main_cst_3 : FVec F S_ .f32 := constant S_ .f32 0x7F800000#32
  let main_v11 : FVec F S4x1000000x2 .f32 := broadcastInDim S4x1000000x2 ![] bcast_S_S4x1000000x2 main_cst_3
  let main_v12 : IVec S4x1000000x2 1 := cmpf .olt main_v10 main_v11
  let main_c_4 : IVec S_ 1 := constantI S_ 1 1#1
  let main_v13 : IVec S_ 1 := (fun x v => Host.reduce IntOp.andi x v reducesTo_S4x1000000x2_S_d0_1_2 h_S_) main_v12 main_c_4
  let main_v14 : IVec S_ 1 := andi main_v9 main_v13
  let main_v15 : FVec F S4x8000000x2 .f32 := Host.absf main_arg2
  let main_cst_5 : FVec F S_ .f32 := constant S_ .f32 0x7F800000#32
  fn_part1 (F := F) main_arg4 main_v5 main_v14 main_v15 main_cst_5
-- ==== Kernel.lean ====
abbrev S4x792x2 : Shape := ⟨3, ![4, 792, 2]⟩
abbrev S4x1000000x2 : Shape := ⟨3, ![4, 1000000, 2]⟩
abbrev S4x8000000x2 : Shape := ⟨3, ![4, 8000000, 2]⟩
abbrev S4x1000000 : Shape := ⟨2, ![4, 1000000]⟩
abbrev S4x8x1000000 : Shape := ⟨3, ![4, 8, 1000000]⟩
abbrev S_ : Shape := ⟨0, ![]⟩
abbrev S4x8000000 : Shape := ⟨2, ![4, 8000000]⟩
abbrev S4x8x1000000x2 : Shape := ⟨4, ![4, 8, 1000000, 2]⟩
abbrev S4x8x1000000x1 : Shape := ⟨4, ![4, 8, 1000000, 1]⟩
abbrev S4x1000000x1 : Shape := ⟨3, ![4, 1000000, 1]⟩
abbrev S4x1x1000000 : Shape := ⟨3, ![4, 1, 1000000]⟩
abbrev S4x2x792 : Shape := ⟨3, ![4, 2, 792]⟩
abbrev S4x1x8000000 : Shape := ⟨3, ![4, 1, 8000000]⟩
abbrev S4x2x8000000 : Shape := ⟨3, ![4, 2, 8000000]⟩
abbrev S4x2x8000000x1 : Shape := ⟨4, ![4, 2, 8000000, 1]⟩
abbrev S1 : Shape := ⟨1, ![1]⟩
abbrev S1x1x1x1 : Shape := ⟨4, ![1, 1, 1, 1]⟩
abbrev S4x2x8x1000000 : Shape := ⟨4, ![4, 2, 8, 1000000]⟩
abbrev S4x2x1000000 : Shape := ⟨3, ![4, 2, 1000000]⟩
abbrev S4x2x1000000x1 : Shape := ⟨4, ![4, 2, 1000000, 1]⟩
abbrev S8x1000000 : Shape := ⟨2, ![8, 1000000]⟩
abbrev S4x2x8x32768 : Shape := ⟨4, ![4, 2, 8, 32768]⟩
abbrev S4x8x32768 : Shape := ⟨3, ![4, 8, 32768]⟩
abbrev S4x2x32768 : Shape := ⟨3, ![4, 2, 32768]⟩
abbrev S8x32768 : Shape := ⟨2, ![8, 32768]⟩
abbrev S1x8x32768 : Shape := ⟨3, ![1, 8, 32768]⟩
abbrev S1x1x8x32768 : Shape := ⟨4, ![1, 1, 8, 32768]⟩
abbrev S32768 : Shape := ⟨1, ![32768]⟩
abbrev S1x1x32768 : Shape := ⟨3, ![1, 1, 32768]⟩
abbrev S1x32768 : Shape := ⟨2, ![1, 32768]⟩
abbrev S1000000x8 : Shape := ⟨2, ![1000000, 8]⟩

abbrev nBuf : Space → Nat
  | .hbm => 126
  | .vmem => 8
  | .smem => 0
  | _ => 0

abbrev bufTy : (tb : Table) → Fin (tcTables nBuf tb) → BufTy
  | .hbm, ⟨0, _⟩ => ⟨S4x792x2, .f32⟩
  | .hbm, ⟨1, _⟩ => ⟨S4x1000000x2, .f32⟩
  | .hbm, ⟨2, _⟩ => ⟨S4x8000000x2, .f32⟩
  | .hbm, ⟨3, _⟩ => ⟨S4x1000000, .i32⟩
  | .hbm, ⟨4, _⟩ => ⟨S4x8x1000000, .i32⟩
  | .hbm, ⟨5, _⟩ => ⟨S_, .i32⟩
  | .hbm, ⟨6, _⟩ => ⟨S4x8x1000000, .i32⟩
  | .hbm, ⟨7, _⟩ => ⟨S4x8x1000000, .i1⟩
  | .hbm, ⟨8, _⟩ => ⟨S4x8000000, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x8x1000000, .i32⟩
  | .hbm, ⟨14, _⟩ => ⟨S4x8x1000000, .i32⟩
  | .hbm, ⟨15, _⟩ => ⟨S4x8x1000000, .i1⟩
  | .hbm, ⟨16, _⟩ => ⟨S4x8x1000000, .f32⟩
  | .hbm, ⟨17, _⟩ => ⟨S_, .i32⟩
  | .hbm, ⟨18, _⟩ => ⟨S4x1000000, .i32⟩
  | .hbm, ⟨19, _⟩ => ⟨S4x1000000, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S4x1000000, .i32⟩
  | .hbm, ⟨25, _⟩ => ⟨S4x1000000, .i32⟩
  | .hbm, ⟨26, _⟩ => ⟨S4x8x1000000x2, .f32⟩
  | .hbm, ⟨27, _⟩ => ⟨S4x8x1000000x1, .f32⟩
  | .hbm, ⟨28, _⟩ => ⟨S4x8x1000000, .f32⟩
  | .hbm, ⟨29, _⟩ => ⟨S4x1000000x1, .f32⟩
  | .hbm, ⟨30, _⟩ => ⟨S4x1000000, .f32⟩
  | .hbm, ⟨31, _⟩ => ⟨S4x1x1000000, .f32⟩
  | .hbm, ⟨32, _⟩ => ⟨S4x8x1000000, .f32⟩
  | .hbm, ⟨33, _⟩ => ⟨S4x8x1000000, .f32⟩
  | .hbm, ⟨34, _⟩ => ⟨S4x8x1000000x1, .f32⟩
  | .hbm, ⟨35, _⟩ => ⟨S4x8x1000000, .f32⟩
  | .hbm, ⟨36, _⟩ => ⟨S4x1000000x1, .f32⟩
  | .hbm, ⟨37, _⟩ => ⟨S4x1000000, .f32⟩
  | .hbm, ⟨38, _⟩ => ⟨S4x1x1000000, .f32⟩
  | .hbm, ⟨39, _⟩ => ⟨S4x8x1000000, .f32⟩
  | .hbm, ⟨40, _⟩ => ⟨S4x8x1000000, .f32⟩
  | .hbm, ⟨41, _⟩ => ⟨S4x8x1000000, .f32⟩
  | .hbm, ⟨42, _⟩ => ⟨S4x8x1000000, .f32⟩
  | .hbm, ⟨43, _⟩ => ⟨S4x8x1000000, .f32⟩
  | .hbm, ⟨44, _⟩ => ⟨S4x8x1000000, .f32⟩
  | .hbm, ⟨45, _⟩ => ⟨S4x8x1000000, .f32⟩
  | .hbm, ⟨46, _⟩ => ⟨S_, .f32⟩
  | .hbm, ⟨47, _⟩ => ⟨S4x8x1000000, .f32⟩
  | .hbm, ⟨48, _⟩ => ⟨S4x8x1000000, .i1⟩
  | .hbm, ⟨49, _⟩ => ⟨S_, .f32⟩
  | .hbm, ⟨50, _⟩ => ⟨S_, .f32⟩
  | .hbm, ⟨51, _⟩ => ⟨S4x8x1000000, .f32⟩
  | .hbm, ⟨52, _⟩ => ⟨S4x8x1000000, .f32⟩
  | .hbm, ⟨53, _⟩ => ⟨S_, .f32⟩
  | .hbm, ⟨54, _⟩ => ⟨S4x8x1000000, .f32⟩
  | .hbm, ⟨55, _⟩ => ⟨S4x8x1000000, .f32⟩
  | .hbm, ⟨56, _⟩ => ⟨S4x8x1000000, .f32⟩
  | .hbm, ⟨57, _⟩ => ⟨S4x2x792, .f32⟩
  | .hbm, ⟨58, _⟩ => ⟨S4x8000000, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S4x8000000, .i32⟩
  | .hbm, ⟨63, _⟩ => ⟨S4x8000000, .i32⟩
  | .hbm, ⟨64, _⟩ => ⟨S_, .i32⟩
  | .hbm, ⟨65, _⟩ => ⟨S4x8000000, .i32⟩
  | .hbm, ⟨66, _⟩ => ⟨S4x8000000, .i32⟩
  | .hbm, ⟨67, _⟩ => ⟨S4x1x8000000, .i32⟩
  | .hbm, ⟨68, _⟩ => ⟨S4x2x8000000, .i32⟩
  | .hbm, ⟨69, _⟩ => ⟨S_, .i32⟩
  | .hbm, ⟨70, _⟩ => ⟨S4x2x8000000, .i32⟩
  | .hbm, ⟨71, _⟩ => ⟨S4x2x8000000, .i1⟩
  | .hbm, ⟨72, _⟩ => ⟨S_, .i32⟩
  | .hbm, ⟨73, _⟩ => ⟨S4x2x8000000, .i32⟩
  | .hbm, ⟨74, _⟩ => ⟨S4x2x8000000, .i32⟩
  | .hbm, ⟨75, _⟩ => ⟨S4x2x8000000, .i32⟩
  | .hbm, ⟨76, _⟩ => ⟨S4x2x8000000x1, .i32⟩
  | .hbm, ⟨77, _⟩ => ⟨S1, .i32⟩
  | .hbm, ⟨78, _⟩ => ⟨S_, .i32⟩
  | .hbm, ⟨79, _⟩ => ⟨S4x2x8000000x1, .i32⟩
  | .hbm, ⟨80, _⟩ => ⟨S4x2x8000000x1, .i1⟩
  | .hbm, ⟨81, _⟩ => ⟨S1x1x1x1, .i32⟩
  | .hbm, ⟨82, _⟩ => ⟨S4x2x8000000x1, .i32⟩
  | .hbm, ⟨83, _⟩ => ⟨S4x2x8000000x1, .i1⟩
  | .hbm, ⟨84, _⟩ => ⟨S4x2x8000000x1, .i1⟩
  | .hbm, ⟨85, _⟩ => ⟨S_, .i1⟩
  | .hbm, ⟨86, _⟩ => ⟨S4x2x8000000, .i1⟩
  | .hbm, ⟨87, _⟩ => ⟨S4x2x8000000, .f32⟩
  | .hbm, ⟨88, _⟩ => ⟨S_, .f32⟩
  | .hbm, ⟨89, _⟩ => ⟨S4x2x8000000, .f32⟩
  | .hbm, ⟨90, _⟩ => ⟨S4x2x8000000, .f32⟩
  | .hbm, ⟨91, _⟩ => ⟨S4x2x8x1000000, .f32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S4x1000000, .i32⟩
  | .hbm, ⟨96, _⟩ => ⟨S4x1000000, .i32⟩
  | .hbm, ⟨97, _⟩ => ⟨S_, .i32⟩
  | .hbm, ⟨98, _⟩ => ⟨S4x1000000, .i32⟩
  | .hbm, ⟨99, _⟩ => ⟨S4x1000000, .i32⟩
  | .hbm, ⟨100, _⟩ => ⟨S4x1x1000000, .i32⟩
  | .hbm, ⟨101, _⟩ => ⟨S4x2x1000000, .i32⟩
  | .hbm, ⟨102, _⟩ => ⟨S_, .i32⟩
  | .hbm, ⟨103, _⟩ => ⟨S4x2x1000000, .i32⟩
  | .hbm, ⟨104, _⟩ => ⟨S4x2x1000000, .i1⟩
  | .hbm, ⟨105, _⟩ => ⟨S_, .i32⟩
  | .hbm, ⟨106, _⟩ => ⟨S4x2x1000000, .i32⟩
  | .hbm, ⟨107, _⟩ => ⟨S4x2x1000000, .i32⟩
  | .hbm, ⟨108, _⟩ => ⟨S4x2x1000000, .i32⟩
  | .hbm, ⟨109, _⟩ => ⟨S4x2x1000000x1, .i32⟩
  | .hbm, ⟨110, _⟩ => ⟨S1, .i32⟩
  | .hbm, ⟨111, _⟩ => ⟨S_, .i32⟩
  | .hbm, ⟨112, _⟩ => ⟨S4x2x1000000x1, .i32⟩
  | .hbm, ⟨113, _⟩ => ⟨S4x2x1000000x1, .i1⟩
  | .hbm, ⟨114, _⟩ => ⟨S1x1x1x1, .i32⟩
  | .hbm, ⟨115, _⟩ => ⟨S4x2x1000000x1, .i32⟩
  | .hbm, ⟨116, _⟩ => ⟨S4x2x1000000x1, .i1⟩
  | .hbm, ⟨117, _⟩ => ⟨S4x2x1000000x1, .i1⟩
  | .hbm, ⟨118, _⟩ => ⟨S_, .i1⟩
  | .hbm, ⟨119, _⟩ => ⟨S4x2x1000000, .i1⟩
  | .hbm, ⟨120, _⟩ => ⟨S4x2x1000000, .f32⟩
  | .hbm, ⟨121, _⟩ => ⟨S_, .f32⟩
  | .hbm, ⟨122, _⟩ => ⟨S4x2x1000000, .f32⟩
  | .hbm, ⟨123, _⟩ => ⟨S4x2x1000000, .f32⟩
  | .hbm, ⟨124, _⟩ => ⟨S8x1000000, .f32⟩
  | .hbm, ⟨125, _⟩ => ⟨S1000000x8, .f32⟩
  | .local _ .vmem, ⟨0, _⟩ => ⟨S4x2x8x32768, .f32⟩
  | .local _ .vmem, ⟨1, _⟩ => ⟨S4x2x8x32768, .f32⟩
  | .local _ .vmem, ⟨2, _⟩ => ⟨S4x8x32768, .f32⟩
  | .local _ .vmem, ⟨3, _⟩ => ⟨S4x8x32768, .f32⟩
  | .local _ .vmem, ⟨4, _⟩ => ⟨S4x2x32768, .f32⟩
  | .local _ .vmem, ⟨5, _⟩ => ⟨S4x2x32768, .f32⟩
  | .local _ .vmem, ⟨6, _⟩ => ⟨S8x32768, .f32⟩
  | .local _ .vmem, ⟨7, _⟩ => ⟨S8x32768, .f32⟩
  | _, _ => ⟨S4x792x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call2_v0 : Ref sig .tc := ⟨.hbm, 45, rfl⟩
abbrev main_call2_cst : Ref sig .tc := ⟨.hbm, 46, rfl⟩
abbrev main_call2_v1 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_call3_v0 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_c_7 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call5_c : Ref sig .tc := ⟨.hbm, 69, rfl⟩
abbrev main_call5_v0 : Ref sig .tc := ⟨.hbm, 70, rfl⟩
abbrev main_call5_v1 : Ref sig .tc := ⟨.hbm, 71, rfl⟩
abbrev main_call5_c_0 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_c_1 : Ref sig .tc := ⟨.hbm, 77, rfl⟩
abbrev main_call5_c_2 : Ref sig .tc := ⟨.hbm, 78, rfl⟩
abbrev main_call5_v6 : Ref sig .tc := ⟨.hbm, 79, rfl⟩
abbrev main_call5_v7 : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_v11 : Ref sig .tc := ⟨.hbm, 84, rfl⟩
abbrev main_call5_c_3 : Ref sig .tc := ⟨.hbm, 85, rfl⟩
abbrev main_call5_v12 : Ref sig .tc := ⟨.hbm, 86, rfl⟩
abbrev main_call5_v13 : Ref sig .tc := ⟨.hbm, 87, rfl⟩
abbrev main_call5_cst : Ref sig .tc := ⟨.hbm, 88, rfl⟩
abbrev main_call5_v14 : Ref sig .tc := ⟨.hbm, 89, rfl⟩
abbrev main_v43 : Ref sig .tc := ⟨.hbm, 90, rfl⟩
abbrev main_v44 : Ref sig .tc := ⟨.hbm, 91, rfl⟩
abbrev main_c_8 : Ref sig .tc := ⟨.hbm, 92, rfl⟩
abbrev main_c_9 : Ref sig .tc := ⟨.hbm, 93, rfl⟩
abbrev main_call6_v0 : Ref sig .tc := ⟨.hbm, 94, rfl⟩
abbrev main_call6_v1 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_call7_c : Ref sig .tc := ⟨.hbm, 102, rfl⟩
abbrev main_call7_v0 : Ref sig .tc := ⟨.hbm, 103, rfl⟩
abbrev main_call7_v1 : Ref sig .tc := ⟨.hbm, 104, rfl⟩
abbrev main_call7_c_0 : Ref sig .tc := ⟨.hbm, 105, rfl⟩
abbrev main_call7_v2 : Ref sig .tc := ⟨.hbm, 106, rfl⟩
abbrev main_call7_v3 : Ref sig .tc := ⟨.hbm, 107, rfl⟩
abbrev main_call7_v4 : Ref sig .tc := ⟨.hbm, 108, rfl⟩
abbrev main_call7_v5 : Ref sig .tc := ⟨.hbm, 109, rfl⟩
abbrev main_call7_c_1 : Ref sig .tc := ⟨.hbm, 110, rfl⟩
abbrev main_call7_c_2 : Ref sig .tc := ⟨.hbm, 111, rfl⟩
abbrev main_call7_v6 : Ref sig .tc := ⟨.hbm, 112, rfl⟩
abbrev main_call7_v7 : Ref sig .tc := ⟨.hbm, 113, rfl⟩
abbrev main_call7_v8 : Ref sig .tc := ⟨.hbm, 114, rfl⟩
abbrev main_call7_v9 : Ref sig .tc := ⟨.hbm, 115, rfl⟩
abbrev main_call7_v10 : Ref sig .tc := ⟨.hbm, 116, rfl⟩
abbrev main_call7_v11 : Ref sig .tc := ⟨.hbm, 117, rfl⟩
abbrev main_call7_c_3 : Ref sig .tc := ⟨.hbm, 118, rfl⟩
abbrev main_call7_v12 : Ref sig .tc := ⟨.hbm, 119, rfl⟩
abbrev main_call7_v13 : Ref sig .tc := ⟨.hbm, 120, rfl⟩
abbrev main_call7_cst : Ref sig .tc := ⟨.hbm, 121, rfl⟩
abbrev main_call7_v14 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![31], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x2x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4x8x1000000 : S_.BroadcastsInDim S4x8x1000000 (![] : Fin 0 → Fin S4x8x1000000.rank)
  shapeCasts_S4x8x1000000_S4x8000000 : S4x8x1000000.ShapeCasts S4x8000000
  reducesTo_S4x8000000_S_d0_1 : S4x8000000.ReducesTo [0, 1] S_
  h_S_ : 0 < S_.numel
  bcast_S_S4x1000000 : S_.BroadcastsInDim S4x1000000 (![] : Fin 0 → Fin S4x1000000.rank)
  reducesTo_S4x1000000_S_d0_1 : S4x1000000.ReducesTo [0, 1] S_
  shapeCasts_S4x8000000x2_S4x8x1000000x2 : S4x8000000x2.ShapeCasts S4x8x1000000x2
  slices_S4x8x1000000x2_S4x8x1000000x1_0_0_0_0 : S4x8x1000000x2.Slices ![0, 0, 0, 0] S4x8x1000000x1
  shapeCasts_S4x8x1000000x1_S4x8x1000000 : S4x8x1000000x1.ShapeCasts S4x8x1000000
  slices_S4x1000000x2_S4x1000000x1_0_0_0 : S4x1000000x2.Slices ![0, 0, 0] S4x1000000x1
  shapeCasts_S4x1000000x1_S4x1000000 : S4x1000000x1.ShapeCasts S4x1000000
  bcast_S4x1000000_S4x1x1000000_0_2 : S4x1000000.BroadcastsInDim S4x1x1000000 (![0, 2] : Fin 2 → Fin S4x1x1000000.rank)
  bcast_S4x1x1000000_S4x8x1000000_0_1_2 : S4x1x1000000.BroadcastsInDim S4x8x1000000 (![0, 1, 2] : Fin 3 → Fin S4x8x1000000.rank)
  slices_S4x8x1000000x2_S4x8x1000000x1_0_0_0_1 : S4x8x1000000x2.Slices ![0, 0, 0, 1] S4x8x1000000x1
  slices_S4x1000000x2_S4x1000000x1_0_0_1 : S4x1000000x2.Slices ![0, 0, 1] S4x1000000x1
  reducesTo_S4x8x1000000_S_d0_1_2 : S4x8x1000000.ReducesTo [0, 1, 2] S_
  transposes_S4x792x2_S4x2x792_0_2_1 : S4x792x2.Transposes [0, 2, 1] S4x2x792
  bcast_S_S4x8000000 : S_.BroadcastsInDim S4x8000000 (![] : Fin 0 → Fin S4x8000000.rank)
  bcast_S4x8000000_S4x1x8000000_0_2 : S4x8000000.BroadcastsInDim S4x1x8000000 (![0, 2] : Fin 2 → Fin S4x1x8000000.rank)
  bcast_S4x1x8000000_S4x2x8000000_0_1_2 : S4x1x8000000.BroadcastsInDim S4x2x8000000 (![0, 1, 2] : Fin 3 → Fin S4x2x8000000.rank)
  bcast_S_S4x2x8000000 : S_.BroadcastsInDim S4x2x8000000 (![] : Fin 0 → Fin S4x2x8000000.rank)
  shapeCasts_S4x2x8000000_S4x2x8000000x1 : S4x2x8000000.ShapeCasts S4x2x8000000x1
  bcast_S_S4x2x8000000x1 : S_.BroadcastsInDim S4x2x8000000x1 (![] : Fin 0 → Fin S4x2x8000000x1.rank)
  bcast_S1_S1x1x1x1_3 : S1.BroadcastsInDim S1x1x1x1 (![3] : Fin 1 → Fin S1x1x1x1.rank)
  bcast_S1x1x1x1_S4x2x8000000x1_0_1_2_3 : S1x1x1x1.BroadcastsInDim S4x2x8000000x1 (![0, 1, 2, 3] : Fin 4 → Fin S4x2x8000000x1.rank)
  reducesTo_S4x2x8000000x1_S4x2x8000000_d3 : S4x2x8000000x1.ReducesTo [3] S4x2x8000000
  shapeCasts_S4x2x8000000_S4x2x8x1000000 : S4x2x8000000.ShapeCasts S4x2x8x1000000
  bcast_S4x1x1000000_S4x2x1000000_0_1_2 : S4x1x1000000.BroadcastsInDim S4x2x1000000 (![0, 1, 2] : Fin 3 → Fin S4x2x1000000.rank)
  bcast_S_S4x2x1000000 : S_.BroadcastsInDim S4x2x1000000 (![] : Fin 0 → Fin S4x2x1000000.rank)
  shapeCasts_S4x2x1000000_S4x2x1000000x1 : S4x2x1000000.ShapeCasts S4x2x1000000x1
  bcast_S_S4x2x1000000x1 : S_.BroadcastsInDim S4x2x1000000x1 (![] : Fin 0 → Fin S4x2x1000000x1.rank)
  bcast_S1x1x1x1_S4x2x1000000x1_0_1_2_3 : S1x1x1x1.BroadcastsInDim S4x2x1000000x1 (![0, 1, 2, 3] : Fin 4 → Fin S4x2x1000000x1.rank)
  reducesTo_S4x2x1000000x1_S4x2x1000000_d3 : S4x2x1000000x1.ReducesTo [3] S4x2x1000000
  inb_S4x8x32768_S1x8x32768_0_0_0 : ∀ a, (![0, 0, 0] : Fin 3 → Nat) a + S1x8x32768.size a ≤ S4x8x32768.size a
  h_S1x8x32768 : 0 < S1x8x32768.numel
  shapeCasts_S1x8x32768_S8x32768 : S1x8x32768.ShapeCasts S8x32768
  inb_S4x2x8x32768_S1x1x8x32768_0_0_0_0 : ∀ a, (![0, 0, 0, 0] : Fin 4 → Nat) a + S1x1x8x32768.size a ≤ S4x2x8x32768.size a
  h_S1x1x8x32768 : 0 < S1x1x8x32768.numel
  shapeCasts_S1x1x8x32768_S8x32768 : S1x1x8x32768.ShapeCasts S8x32768
  reduces_S8x32768_S32768 : S8x32768.Reduces [0] S32768
  inb_S4x2x32768_S1x1x32768_0_0_0 : ∀ a, (![0, 0, 0] : Fin 3 → Nat) a + S1x1x32768.size a ≤ S4x2x32768.size a
  h_S1x1x32768 : 0 < S1x1x32768.numel
  shapeCasts_S1x1x32768_S32768 : S1x1x32768.ShapeCasts S32768
  inb_S8x32768_S1x32768_0_0 : ∀ a, (![0, 0] : Fin 2 → Nat) a + S1x32768.size a ≤ S8x32768.size a
  h_S1x32768 : 0 < S1x32768.numel
  shapeCasts_S1x32768_S32768 : S1x32768.ShapeCasts S32768
  shapeCasts_S32768_S1x32768 : S32768.ShapeCasts S1x32768
  inb_S4x2x8x32768_S1x1x8x32768_0_1_0_0 : ∀ a, (![0, 1, 0, 0] : Fin 4 → Nat) a + S1x1x8x32768.size a ≤ S4x2x8x32768.size a
  inb_S4x2x32768_S1x1x32768_0_1_0 : ∀ a, (![0, 1, 0] : Fin 3 → Nat) a + S1x1x32768.size a ≤ S4x2x32768.size a
  inb_S8x32768_S1x32768_4_0 : ∀ a, (![4, 0] : Fin 2 → Nat) a + S1x32768.size a ≤ S8x32768.size a
  inb_S4x8x32768_S1x8x32768_1_0_0 : ∀ a, (![1, 0, 0] : Fin 3 → Nat) a + S1x8x32768.size a ≤ S4x8x32768.size a
  inb_S4x2x8x32768_S1x1x8x32768_1_0_0_0 : ∀ a, (![1, 0, 0, 0] : Fin 4 → Nat) a + S1x1x8x32768.size a ≤ S4x2x8x32768.size a
  inb_S4x2x32768_S1x1x32768_1_0_0 : ∀ a, (![1, 0, 0] : Fin 3 → Nat) a + S1x1x32768.size a ≤ S4x2x32768.size a
  inb_S8x32768_S1x32768_1_0 : ∀ a, (![1, 0] : Fin 2 → Nat) a + S1x32768.size a ≤ S8x32768.size a
  inb_S4x2x8x32768_S1x1x8x32768_1_1_0_0 : ∀ a, (![1, 1, 0, 0] : Fin 4 → Nat) a + S1x1x8x32768.size a ≤ S4x2x8x32768.size a
  inb_S4x2x32768_S1x1x32768_1_1_0 : ∀ a, (![1, 1, 0] : Fin 3 → Nat) a + S1x1x32768.size a ≤ S4x2x32768.size a
  inb_S8x32768_S1x32768_5_0 : ∀ a, (![5, 0] : Fin 2 → Nat) a + S1x32768.size a ≤ S8x32768.size a
  inb_S4x8x32768_S1x8x32768_2_0_0 : ∀ a, (![2, 0, 0] : Fin 3 → Nat) a + S1x8x32768.size a ≤ S4x8x32768.size a
  inb_S4x2x8x32768_S1x1x8x32768_2_0_0_0 : ∀ a, (![2, 0, 0, 0] : Fin 4 → Nat) a + S1x1x8x32768.size a ≤ S4x2x8x32768.size a
  inb_S4x2x32768_S1x1x32768_2_0_0 : ∀ a, (![2, 0, 0] : Fin 3 → Nat) a + S1x1x32768.size a ≤ S4x2x32768.size a
  inb_S8x32768_S1x32768_2_0 : ∀ a, (![2, 0] : Fin 2 → Nat) a + S1x32768.size a ≤ S8x32768.size a
  inb_S4x2x8x32768_S1x1x8x32768_2_1_0_0 : ∀ a, (![2, 1, 0, 0] : Fin 4 → Nat) a + S1x1x8x32768.size a ≤ S4x2x8x32768.size a
  inb_S4x2x32768_S1x1x32768_2_1_0 : ∀ a, (![2, 1, 0] : Fin 3 → Nat) a + S1x1x32768.size a ≤ S4x2x32768.size a
  inb_S8x32768_S1x32768_6_0 : ∀ a, (![6, 0] : Fin 2 → Nat) a + S1x32768.size a ≤ S8x32768.size a
  inb_S4x8x32768_S1x8x32768_3_0_0 : ∀ a, (![3, 0, 0] : Fin 3 → Nat) a + S1x8x32768.size a ≤ S4x8x32768.size a
  inb_S4x2x8x32768_S1x1x8x32768_3_0_0_0 : ∀ a, (![3, 0, 0, 0] : Fin 4 → Nat) a + S1x1x8x32768.size a ≤ S4x2x8x32768.size a
  inb_S4x2x32768_S1x1x32768_3_0_0 : ∀ a, (![3, 0, 0] : Fin 3 → Nat) a + S1x1x32768.size a ≤ S4x2x32768.size a
  inb_S8x32768_S1x32768_3_0 : ∀ a, (![3, 0] : Fin 2 → Nat) a + S1x32768.size a ≤ S8x32768.size a
  inb_S4x2x8x32768_S1x1x8x32768_3_1_0_0 : ∀ a, (![3, 1, 0, 0] : Fin 4 → Nat) a + S1x1x8x32768.size a ≤ S4x2x8x32768.size a
  inb_S4x2x32768_S1x1x32768_3_1_0 : ∀ a, (![3, 1, 0] : Fin 3 → Nat) a + S1x1x32768.size a ≤ S4x2x32768.size a
  inb_S8x32768_S1x32768_7_0 : ∀ a, (![7, 0] : Fin 2 → Nat) a + S1x32768.size a ≤ S8x32768.size a
  transposes_S8x1000000_S1000000x8_1_0 : S8x1000000.Transposes [1, 0] S1000000x8
  gather_S4x2x792_S4x2x8000000x1_S4x2x8000000_n_2_01_01_2_3_111_wf : GatherDims.WF S4x2x792 S4x2x8000000x1 S4x2x8000000 [] [2] [0, 1] [2] [0, 1] 3 ![1, 1, 1]
  gather_S4x2x792_S4x2x1000000x1_S4x2x1000000_n_2_01_01_2_3_111_wf : GatherDims.WF S4x2x792 S4x2x1000000x1 S4x2x1000000 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x2x8x32768.size a < S4x2x8x1000000.size a
  hwx0_0 : ∀ i : grid0.Coords, EltTy.bits .f32 = 32 ∨ (Rect.unit (s := S4x2x8x1000000) (fun a => cc0_transform_0 i a * S4x2x8x32768.size a) (fun a => (Pipeline.Clip.of (cc0_transform_0 i a) (S4x2x8x32768.size a) (S4x2x8x1000000.size a)).extent (S4x2x8x32768.size a)) fun a => Pipeline.Clip.inb (Pipeline.Clip.ok_of (hstart0_0 i a))).WholeWords (EltTy.packing .f32)
  hwxs0_0 : ∀ i : grid0.Coords, EltTy.bits .f32 = 32 ∨ (Rect.unit (s := S4x2x8x32768) (fun _ => 0) (fun a => (Pipeline.Clip.of (cc0_transform_0 i a) (S4x2x8x32768.size a) (S4x2x8x1000000.size a)).extent (S4x2x8x32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4x8x32768.size a < S4x8x1000000.size a
  hwx0_1 : ∀ i : grid0.Coords, EltTy.bits .f32 = 32 ∨ (Rect.unit (s := S4x8x1000000) (fun a => cc0_transform_1 i a * S4x8x32768.size a) (fun a => (Pipeline.Clip.of (cc0_transform_1 i a) (S4x8x32768.size a) (S4x8x1000000.size a)).extent (S4x8x32768.size a)) fun a => Pipeline.Clip.inb (Pipeline.Clip.ok_of (hstart0_1 i a))).WholeWords (EltTy.packing .f32)
  hwxs0_1 : ∀ i : grid0.Coords, EltTy.bits .f32 = 32 ∨ (Rect.unit (s := S4x8x32768) (fun _ => 0) (fun a => (Pipeline.Clip.of (cc0_transform_1 i a) (S4x8x32768.size a) (S4x8x1000000.size a)).extent (S4x8x32768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4x2x32768.size a < S4x2x1000000.size a
  hwx0_2 : ∀ i : grid0.Coords, EltTy.bits .f32 = 32 ∨ (Rect.unit (s := S4x2x1000000) (fun a => cc0_transform_2 i a * S4x2x32768.size a) (fun a => (Pipeline.Clip.of (cc0_transform_2 i a) (S4x2x32768.size a) (S4x2x1000000.size a)).extent (S4x2x32768.size a)) fun a => Pipeline.Clip.inb (Pipeline.Clip.ok_of (hstart0_2 i a))).WholeWords (EltTy.packing .f32)
  hwxs0_2 : ∀ i : grid0.Coords, EltTy.bits .f32 = 32 ∨ (Rect.unit (s := S4x2x32768) (fun _ => 0) (fun a => (Pipeline.Clip.of (cc0_transform_2 i a) (S4x2x32768.size a) (S4x2x1000000.size a)).extent (S4x2x32768.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8x32768.size a < S8x1000000.size a
  hwx0_3 : ∀ i : grid0.Coords, EltTy.bits .f32 = 32 ∨ (Rect.unit (s := S8x1000000) (fun a => cc0_transform_3 i a * S8x32768.size a) (fun a => (Pipeline.Clip.of (cc0_transform_3 i a) (S8x32768.size a) (S8x1000000.size a)).extent (S8x32768.size a)) fun a => Pipeline.Clip.inb (Pipeline.Clip.ok_of (hstart0_3 i a))).WholeWords (EltTy.packing .f32)
  hwxs0_3 : ∀ i : grid0.Coords, EltTy.bits .f32 = 32 ∨ (Rect.unit (s := S8x32768) (fun _ => 0) (fun a => (Pipeline.Clip.of (cc0_transform_3 i a) (S8x32768.size a) (S8x1000000.size a)).extent (S8x32768.size a)) fun a => (Nat.zero_add _).trans_le (Pipeline.Clip.extent_le (Pipeline.Clip.ok_of (hstart0_3 i a)))).WholeWords (EltTy.packing .f32)

variable [Facts₀]

def gather_S4x2x792_S4x2x8000000x1_S4x2x8000000_n_2_01_01_2_3_111 : GatherDims S4x2x792 S4x2x8000000x1 S4x2x8000000 where
  offsetDims := []
  collapsedSliceDims := [2]
  operandBatchingDims := [0, 1]
  startIndicesBatchingDims := [0, 1]
  startIndexMap := [2]
  indexVectorDim := 3
  sliceSizes := ![1, 1, 1]
  wf := gather_S4x2x792_S4x2x8000000x1_S4x2x8000000_n_2_01_01_2_3_111_wf
def gather_S4x2x792_S4x2x1000000x1_S4x2x1000000_n_2_01_01_2_3_111 : GatherDims S4x2x792 S4x2x1000000x1 S4x2x1000000 where
  offsetDims := []
  collapsedSliceDims := [2]
  operandBatchingDims := [0, 1]
  startIndicesBatchingDims := [0, 1]
  startIndexMap := [2]
  indexVectorDim := 3
  sliceSizes := ![1, 1, 1]
  wf := gather_S4x2x792_S4x2x1000000x1_S4x2x1000000_n_2_01_01_2_3_111_wf

abbrev win0_0 : Pipeline.Window sig grid0 :=
  Pipeline.Window.ofSpecClip (Memref.whole main_v44) S4x2x8x32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v37) S4x8x32768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v48) S4x2x32768.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v49) S8x32768.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x792x2 : Shape := ⟨3, ![4, 792, 2]⟩
abbrev S4x1000000x2 : Shape := ⟨3, ![4, 1000000, 2]⟩
abbrev S4x8000000x2 : Shape := ⟨3, ![4, 8000000, 2]⟩
abbrev S4x1000000 : Shape := ⟨2, ![4, 1000000]⟩
abbrev S4x8x1000000 : Shape := ⟨3, ![4, 8, 1000000]⟩
abbrev S4x8000000 : Shape := ⟨2, ![4, 8000000]⟩
abbrev S_ : Shape := ⟨0, ![]⟩
abbrev S4x8000000x1 : Shape := ⟨3, ![4, 8000000, 1]⟩
abbrev S1 : Shape := ⟨1, ![1]⟩
abbrev S1x1x1 : Shape := ⟨3, ![1, 1, 1]⟩
abbrev S4x1000000x1 : Shape := ⟨3, ![4, 1000000, 1]⟩
abbrev S4x1x1000000x2 : Shape := ⟨4, ![4, 1, 1000000, 2]⟩
abbrev S4x8x1000000x2 : Shape := ⟨4, ![4, 8, 1000000, 2]⟩
abbrev S4x8x1000000x1 : Shape := ⟨4, ![4, 8, 1000000, 1]⟩
abbrev S4x2000000 : Shape := ⟨2, ![4, 2000000]⟩
abbrev S2000000x4 : Shape := ⟨2, ![2000000, 4]⟩
abbrev S1000000x8 : Shape := ⟨2, ![1000000, 8]⟩

abbrev nBuf : Space → Nat
  | .hbm => 114
  | .vmem => 0
  | .smem => 0
  | _ => 0

abbrev bufTy : (tb : Table) → Fin (tcTables nBuf tb) → BufTy
  | .hbm, ⟨0, _⟩ => ⟨S4x792x2, .f32⟩
  | .hbm, ⟨1, _⟩ => ⟨S4x1000000x2, .f32⟩
  | .hbm, ⟨2, _⟩ => ⟨S4x8000000x2, .f32⟩
  | .hbm, ⟨3, _⟩ => ⟨S4x1000000, .i32⟩
  | .hbm, ⟨4, _⟩ => ⟨S4x8x1000000, .i32⟩
  | .hbm, ⟨5, _⟩ => ⟨S4x8000000, .i32⟩
  | .hbm, ⟨6, _⟩ => ⟨S_, .i32⟩
  | .hbm, ⟨7, _⟩ => ⟨S4x8000000, .i32⟩
  | .hbm, ⟨8, _⟩ => ⟨S4x8000000, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x8000000, .i32⟩
  | .hbm, ⟨14, _⟩ => ⟨S4x8000000, .i32⟩
  | .hbm, ⟨15, _⟩ => ⟨S4x8000000, .i1⟩
  | .hbm, ⟨16, _⟩ => ⟨S4x8000000, .f32⟩
  | .hbm, ⟨17, _⟩ => ⟨S_, .i32⟩
  | .hbm, ⟨18, _⟩ => ⟨S4x1000000, .i32⟩
  | .hbm, ⟨19, _⟩ => ⟨S4x1000000, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S4x1000000, .i32⟩
  | .hbm, ⟨25, _⟩ => ⟨S4x1000000, .i32⟩
  | .hbm, ⟨26, _⟩ => ⟨S4x8000000x1, .i32⟩
  | .hbm, ⟨27, _⟩ => ⟨S_, .i32⟩
  | .hbm, ⟨28, _⟩ => ⟨S4x8000000x1, .i32⟩
  | .hbm, ⟨29, _⟩ => ⟨S4x8000000x1, .i1⟩
  | .hbm, ⟨30, _⟩ => ⟨S_, .i32⟩
  | .hbm, ⟨31, _⟩ => ⟨S4x8000000x1, .i32⟩
  | .hbm, ⟨32, _⟩ => ⟨S4x8000000x1, .i32⟩
  | .hbm, ⟨33, _⟩ => ⟨S4x8000000x1, .i32⟩
  | .hbm, ⟨34, _⟩ => ⟨S1, .i32⟩
  | .hbm, ⟨35, _⟩ => ⟨S_, .i32⟩
  | .hbm, ⟨36, _⟩ => ⟨S4x8000000x1, .i32⟩
  | .hbm, ⟨37, _⟩ => ⟨S4x8000000x1, .i1⟩
  | .hbm, ⟨38, _⟩ => ⟨S1x1x1, .i32⟩
  | .hbm, ⟨39, _⟩ => ⟨S4x8000000x1, .i32⟩
  | .hbm, ⟨40, _⟩ => ⟨S4x8000000x1, .i1⟩
  | .hbm, ⟨41, _⟩ => ⟨S4x8000000x1, .i1⟩
  | .hbm, ⟨42, _⟩ => ⟨S_, .i1⟩
  | .hbm, ⟨43, _⟩ => ⟨S4x8000000, .i1⟩
  | .hbm, ⟨44, _⟩ => ⟨S4x8000000x2, .f32⟩
  | .hbm, ⟨45, _⟩ => ⟨S4x8000000x2, .i1⟩
  | .hbm, ⟨46, _⟩ => ⟨S_, .f32⟩
  | .hbm, ⟨47, _⟩ => ⟨S4x8000000x2, .f32⟩
  | .hbm, ⟨48, _⟩ => ⟨S4x8000000x2, .f32⟩
  | .hbm, ⟨49, _⟩ => ⟨S4x1000000x1, .i32⟩
  | .hbm, ⟨50, _⟩ => ⟨S_, .i32⟩
  | .hbm, ⟨51, _⟩ => ⟨S4x1000000x1, .i32⟩
  | .hbm, ⟨52, _⟩ => ⟨S4x1000000x1, .i1⟩
  | .hbm, ⟨53, _⟩ => ⟨S_, .i32⟩
  | .hbm, ⟨54, _⟩ => ⟨S4x1000000x1, .i32⟩
  | .hbm, ⟨55, _⟩ => ⟨S4x1000000x1, .i32⟩
  | .hbm, ⟨56, _⟩ => ⟨S4x1000000x1, .i32⟩
  | .hbm, ⟨57, _⟩ => ⟨S1, .i32⟩
  | .hbm, ⟨58, _⟩ => ⟨S_, .i32⟩
  | .hbm, ⟨59, _⟩ => ⟨S4x1000000x1, .i32⟩
  | .hbm, ⟨60, _⟩ => ⟨S4x1000000x1, .i1⟩
  | .hbm, ⟨61, _⟩ => ⟨S1x1x1, .i32⟩
  | .hbm, ⟨62, _⟩ => ⟨S4x1000000x1, .i32⟩
  | .hbm, ⟨63, _⟩ => ⟨S4x1000000x1, .i1⟩
  | .hbm, ⟨64, _⟩ => ⟨S4x1000000x1, .i1⟩
  | .hbm, ⟨65, _⟩ => ⟨S_, .i1⟩
  | .hbm, ⟨66, _⟩ => ⟨S4x1000000, .i1⟩
  | .hbm, ⟨67, _⟩ => ⟨S4x1000000x2, .f32⟩
  | .hbm, ⟨68, _⟩ => ⟨S4x1000000x2, .i1⟩
  | .hbm, ⟨69, _⟩ => ⟨S_, .f32⟩
  | .hbm, ⟨70, _⟩ => ⟨S4x1000000x2, .f32⟩
  | .hbm, ⟨71, _⟩ => ⟨S4x1000000x2, .f32⟩
  | .hbm, ⟨72, _⟩ => ⟨S4x1x1000000x2, .f32⟩
  | .hbm, ⟨73, _⟩ => ⟨S4x8x1000000x2, .f32⟩
  | .hbm, ⟨74, _⟩ => ⟨S4x8000000x2, .f32⟩
  | .hbm, ⟨75, _⟩ => ⟨S4x8000000x1, .f32⟩
  | .hbm, ⟨76, _⟩ => ⟨S4x8000000, .f32⟩
  | .hbm, ⟨77, _⟩ => ⟨S4x8000000x1, .f32⟩
  | .hbm, ⟨78, _⟩ => ⟨S4x8000000, .f32⟩
  | .hbm, ⟨79, _⟩ => ⟨S4x8000000, .f32⟩
  | .hbm, ⟨80, _⟩ => ⟨S4x8000000, .f32⟩
  | .hbm, ⟨81, _⟩ => ⟨S4x8000000x1, .f32⟩
  | .hbm, ⟨82, _⟩ => ⟨S4x8000000, .f32⟩
  | .hbm, ⟨83, _⟩ => ⟨S4x8000000x1, .f32⟩
  | .hbm, ⟨84, _⟩ => ⟨S4x8000000, .f32⟩
  | .hbm, ⟨85, _⟩ => ⟨S4x8000000, .f32⟩
  | .hbm, ⟨86, _⟩ => ⟨S4x8000000, .f32⟩
  | .hbm, ⟨87, _⟩ => ⟨S4x8000000, .f32⟩
  | .hbm, ⟨88, _⟩ => ⟨S4x8000000, .f32⟩
  | .hbm, ⟨89, _⟩ => ⟨S4x8000000, .f32⟩
  | .hbm, ⟨90, _⟩ => ⟨S_, .f32⟩
  | .hbm, ⟨91, _⟩ => ⟨S4x8000000, .f32⟩
  | .hbm, ⟨92, _⟩ => ⟨S4x8000000, .i1⟩
  | .hbm, ⟨93, _⟩ => ⟨S_, .f32⟩
  | .hbm, ⟨94, _⟩ => ⟨S_, .f32⟩
  | .hbm, ⟨95, _⟩ => ⟨S4x8000000, .f32⟩
  | .hbm, ⟨96, _⟩ => ⟨S4x8000000, .f32⟩
  | .hbm, ⟨97, _⟩ => ⟨S_, .f32⟩
  | .hbm, ⟨98, _⟩ => ⟨S4x8000000, .f32⟩
  | .hbm, ⟨99, _⟩ => ⟨S4x8000000, .f32⟩
  | .hbm, ⟨100, _⟩ => ⟨S4x8000000x1, .f32⟩
  | .hbm, ⟨101, _⟩ => ⟨S4x8000000x2, .f32⟩
  | .hbm, ⟨102, _⟩ => ⟨S4x8000000x2, .f32⟩
  | .hbm, ⟨103, _⟩ => ⟨S4x8x1000000x2, .f32⟩
  | .hbm, ⟨104, _⟩ => ⟨S4x8x1000000, .f32⟩
  | .hbm, ⟨105, _⟩ => ⟨S4x8x1000000x1, .f32⟩
  | .hbm, ⟨106, _⟩ => ⟨S4x8x1000000x2, .f32⟩
  | .hbm, ⟨107, _⟩ => ⟨S4x8x1000000x2, .f32⟩
  | .hbm, ⟨108, _⟩ => ⟨S_, .f32⟩
  | .hbm, ⟨109, _⟩ => ⟨S4x1000000x2, .f32⟩
  | .hbm, ⟨110, _⟩ => ⟨S4x1000000x2, .f32⟩
  | .hbm, ⟨111, _⟩ => ⟨S4x2000000, .f32⟩
  | .hbm, ⟨112, _⟩ => ⟨S2000000x4, .f32⟩
  | .hbm, ⟨113, _⟩ => ⟨S1000000x8, .f32⟩
  | _, _ => ⟨S4x792x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_c_1 : Ref sig .tc := ⟨.hbm, 34, rfl⟩
abbrev main_call2_c_2 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_c_3 : Ref sig .tc := ⟨.hbm, 42, rfl⟩
abbrev main_call2_v11 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v14 : Ref sig .tc := ⟨.hbm, 48, rfl⟩
abbrev main_v15 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_c_1 : Ref sig .tc := ⟨.hbm, 57, rfl⟩
abbrev main_call3_c_2 : Ref sig .tc := ⟨.hbm, 58, rfl⟩
abbrev main_call3_v5 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_c_3 : Ref sig .tc := ⟨.hbm, 65, rfl⟩
abbrev main_call3_v11 : Ref sig .tc := ⟨.hbm, 66, rfl⟩
abbrev main_call3_v12 : Ref sig .tc := ⟨.hbm, 67, rfl⟩
abbrev main_call3_v13 : Ref sig .tc := ⟨.hbm, 68, rfl⟩
abbrev main_call3_cst : Ref sig .tc := ⟨.hbm, 69, rfl⟩
abbrev main_call3_v14 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_call4_v0 : Ref sig .tc := ⟨.hbm, 89, rfl⟩
abbrev main_call4_cst : Ref sig .tc := ⟨.hbm, 90, rfl⟩
abbrev main_call4_v1 : Ref sig .tc := ⟨.hbm, 91, rfl⟩
abbrev main_v34 : Ref sig .tc := ⟨.hbm, 92, rfl⟩
abbrev main_cst : Ref sig .tc := ⟨.hbm, 93, rfl⟩
abbrev main_v35 : Ref sig .tc := ⟨.hbm, 94, rfl⟩
abbrev main_call5_v0 : Ref sig .tc := ⟨.hbm, 95, rfl⟩
abbrev main_v36 : Ref sig .tc := ⟨.hbm, 96, rfl⟩
abbrev main_cst_5 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_cst_6 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩

abbrev nD : Nat := 1
abbrev τ : Topo := Topo.v7x

variable {F : FTy → Type} [FloatOps F]

class Facts₀ : Prop where
  shapeCasts_S4x8x1000000_S4x8000000 : S4x8x1000000.ShapeCasts S4x8000000
  bcast_S_S4x8000000 : S_.BroadcastsInDim S4x8000000 (![] : Fin 0 → Fin S4x8000000.rank)
  reducesTo_S4x8000000_S_d0_1 : S4x8000000.ReducesTo [0, 1] S_
  h_S_ : 0 < S_.numel
  bcast_S_S4x1000000 : S_.BroadcastsInDim S4x1000000 (![] : Fin 0 → Fin S4x1000000.rank)
  reducesTo_S4x1000000_S_d0_1 : S4x1000000.ReducesTo [0, 1] S_
  bcast_S4x8000000_S4x8000000x1_0_1 : S4x8000000.BroadcastsInDim S4x8000000x1 (![0, 1] : Fin 2 → Fin S4x8000000x1.rank)
  bcast_S_S4x8000000x1 : S_.BroadcastsInDim S4x8000000x1 (![] : Fin 0 → Fin S4x8000000x1.rank)
  bcast_S1_S1x1x1_2 : S1.BroadcastsInDim S1x1x1 (![2] : Fin 1 → Fin S1x1x1.rank)
  bcast_S1x1x1_S4x8000000x1_0_1_2 : S1x1x1.BroadcastsInDim S4x8000000x1 (![0, 1, 2] : Fin 3 → Fin S4x8000000x1.rank)
  reducesTo_S4x8000000x1_S4x8000000_d2 : S4x8000000x1.ReducesTo [2] S4x8000000
  bcast_S4x8000000_S4x8000000x2_0_1 : S4x8000000.BroadcastsInDim S4x8000000x2 (![0, 1] : Fin 2 → Fin S4x8000000x2.rank)
  bcast_S_S4x8000000x2 : S_.BroadcastsInDim S4x8000000x2 (![] : Fin 0 → Fin S4x8000000x2.rank)
  bcast_S4x1000000_S4x1000000x1_0_1 : S4x1000000.BroadcastsInDim S4x1000000x1 (![0, 1] : Fin 2 → Fin S4x1000000x1.rank)
  bcast_S_S4x1000000x1 : S_.BroadcastsInDim S4x1000000x1 (![] : Fin 0 → Fin S4x1000000x1.rank)
  bcast_S1x1x1_S4x1000000x1_0_1_2 : S1x1x1.BroadcastsInDim S4x1000000x1 (![0, 1, 2] : Fin 3 → Fin S4x1000000x1.rank)
  reducesTo_S4x1000000x1_S4x1000000_d2 : S4x1000000x1.ReducesTo [2] S4x1000000
  bcast_S4x1000000_S4x1000000x2_0_1 : S4x1000000.BroadcastsInDim S4x1000000x2 (![0, 1] : Fin 2 → Fin S4x1000000x2.rank)
  bcast_S_S4x1000000x2 : S_.BroadcastsInDim S4x1000000x2 (![] : Fin 0 → Fin S4x1000000x2.rank)
  bcast_S4x1000000x2_S4x1x1000000x2_0_2_3 : S4x1000000x2.BroadcastsInDim S4x1x1000000x2 (![0, 2, 3] : Fin 3 → Fin S4x1x1000000x2.rank)
  bcast_S4x1x1000000x2_S4x8x1000000x2_0_1_2_3 : S4x1x1000000x2.BroadcastsInDim S4x8x1000000x2 (![0, 1, 2, 3] : Fin 4 → Fin S4x8x1000000x2.rank)
  shapeCasts_S4x8x1000000x2_S4x8000000x2 : S4x8x1000000x2.ShapeCasts S4x8000000x2
  slices_S4x8000000x2_S4x8000000x1_0_0_1 : S4x8000000x2.Slices ![0, 0, 1] S4x8000000x1
  shapeCasts_S4x8000000x1_S4x8000000 : S4x8000000x1.ShapeCasts S4x8000000
  slices_S4x8000000x2_S4x8000000x1_0_0_0 : S4x8000000x2.Slices ![0, 0, 0] S4x8000000x1
  bcast_S4x8000000x1_S4x8000000x2_0_1_2 : S4x8000000x1.BroadcastsInDim S4x8000000x2 (![0, 1, 2] : Fin 3 → Fin S4x8000000x2.rank)
  shapeCasts_S4x8000000x2_S4x8x1000000x2 : S4x8000000x2.ShapeCasts S4x8x1000000x2
  shapeCasts_S4x8000000_S4x8x1000000 : S4x8000000.ShapeCasts S4x8x1000000
  bcast_S4x8x1000000_S4x8x1000000x1_0_1_2 : S4x8x1000000.BroadcastsInDim S4x8x1000000x1 (![0, 1, 2] : Fin 3 → Fin S4x8x1000000x1.rank)
  bcast_S4x8x1000000x1_S4x8x1000000x2_0_1_2_3 : S4x8x1000000x1.BroadcastsInDim S4x8x1000000x2 (![0, 1, 2, 3] : Fin 4 → Fin S4x8x1000000x2.rank)
  reducesTo_S4x8x1000000x2_S4x1000000x2_d1 : S4x8x1000000x2.ReducesTo [1] S4x1000000x2
  shapeCasts_S4x1000000x2_S4x2000000 : S4x1000000x2.ShapeCasts S4x2000000
  transposes_S4x2000000_S2000000x4_1_0 : S4x2000000.Transposes [1, 0] S2000000x4
  shapeCasts_S2000000x4_S1000000x8 : S2000000x4.ShapeCasts S1000000x8
  gather_S4x792x2_S4x8000000x1_S4x8000000x2_2_1_0_0_1_2_112_wf : GatherDims.WF S4x792x2 S4x8000000x1 S4x8000000x2 [2] [1] [0] [1] [0] 2 ![1, 1, 2]
  gather_S4x792x2_S4x1000000x1_S4x1000000x2_2_1_0_0_1_2_112_wf : GatherDims.WF S4x792x2 S4x1000000x1 S4x1000000x2 [2] [1] [0] [1] [0] 2 ![1, 1, 2]

variable [Facts₀]

def gather_S4x792x2_S4x8000000x1_S4x8000000x2_2_1_0_0_1_2_112 : GatherDims S4x792x2 S4x8000000x1 S4x8000000x2 where
  offsetDims := [2]
  collapsedSliceDims := [1]
  operandBatchingDims := [0]
  startIndicesBatchingDims := [0]
  startIndexMap := [1]
  indexVectorDim := 2
  sliceSizes := ![1, 1, 2]
  wf := gather_S4x792x2_S4x8000000x1_S4x8000000x2_2_1_0_0_1_2_112_wf
def gather_S4x792x2_S4x1000000x1_S4x1000000x2_2_1_0_0_1_2_112 : GatherDims S4x792x2 S4x1000000x1 S4x1000000x2 where
  offsetDims := [2]
  collapsedSliceDims := [1]
  operandBatchingDims := [0]
  startIndicesBatchingDims := [0]
  startIndexMap := [1]
  indexVectorDim := 2
  sliceSizes := ![1, 1, 2]
  wf := gather_S4x792x2_S4x1000000x1_S4x1000000x2_2_1_0_0_1_2_112_wf

class Facts : Prop extends Facts₀ where

variable [Facts]
-- ==== Proof.Spec.lean ====
/-
  The mathematical content of the certificate, stated once over the five argument arrays, at exact
  arithmetic on the extended reals.

  For a pixel `b`, a level `l` and a feature `f` the result entry `(b, f * 4 + l)` is
      (∑ n < 8, table[l, row(nbr l n b), f] * (w l n b * keep l n b)) + table[l, row(pix l b), f]
  where `nbr` / `pix` are the neighbour and pixel indices with the sentinel `-1` replaced by a stand-in
  (`nm`, `pm`: each program computes it as the array's maximum plus one; here a parameter), `row` reads an
  index signed and clamps it into the table's 792 rows, `keep` is 0 on a missing neighbour (sentinel) and 1
  otherwise, and `w` is the inverse of the planar distance between the neighbour's and the pixel's
  (lat, lon), an infinite distance replaced by the minimum of all distances.
-/
import Idealize.ShloMosaic.PureOps.Ideal
import Idealize.ShloMosaic.Lib.ValueIdx

noncomputable section

namespace Cert.Spec

open Idealize.ShloMosaic Idealize.ShloMosaic.ValueIdx

/-- The shapes of the five arguments and of the result. -/
abbrev STable : Shape := ⟨3, ![4, 792, 2]⟩
abbrev SPixLL : Shape := ⟨3, ![4, 1000000, 2]⟩
abbrev SNbrLL : Shape := ⟨3, ![4, 8000000, 2]⟩
abbrev SPixIdx : Shape := ⟨2, ![4, 1000000]⟩
abbrev SNbrIdx : Shape := ⟨3, ![4, 8, 1000000]⟩
abbrev SOut : Shape := ⟨2, ![1000000, 8]⟩

/-- The f32 patterns of +inf and of 1.0 as the extended reals they denote (kept as patterns: both programs
    carry the same words). -/
abbrev pinf : EReal := Ideal.ofBits .f32 0x7F800000#32
abbrev one : EReal := Ideal.ofBits .f32 0x3F800000#32

/-- The sentinel that marks a missing index. -/
abbrev sentinel : BitVec 32 := 4294967295#32

/-- An index word read signed and clamped into the table's rows `0 … 791`. -/
def rowOf (v : BitVec 32) : Fin 792 := ⟨min v.toInt.toNat 791, by omega⟩

/-- Neighbour `n` of pixel `b` in the flat neighbour axis: position `n * 1000000 + b`. -/
def flat (n : Fin 8) (b : Fin 1000000) : Fin 8000000 := ⟨n.val * 1000000 + b.val, by omega⟩

/-- The stand-in for the sentinel: the maximum of all entries of an index array (folded from the least
    32-bit integer) plus one, as both programs compute it. -/
def standIn {s : Shape} (x : s.Idx → BitVec 32) (axes : List (Fin s.rank)) (h : s.ReducesTo axes ⟨0, ![]⟩)
    (hu : 0 < (⟨0, ![]⟩ : Shape).numel) : BitVec 32 :=
  addi (Host.reduce IntOp.maxsi x (constantI ⟨0, ![]⟩ 32 2147483648#32) h hu) (constantI ⟨0, ![]⟩ 32 1#32) ix0

section
variable (table : STable.Idx → EReal) (pixLL : SPixLL.Idx → EReal) (nbrLL : SNbrLL.Idx → EReal)
  (pixIdx : SPixIdx.Idx → BitVec 32) (nbrIdx : SNbrIdx.Idx → BitVec 32) (nm pm : BitVec 32)

/-- Latitude and longitude differences between neighbour `n` of pixel `b` and the pixel, at level `l`. -/
def dlat (l : Fin 4) (n : Fin 8) (b : Fin 1000000) : EReal :=
  nbrLL (ix3 l (flat n b) (0 : Fin 2)) - pixLL (ix3 l b (0 : Fin 2))
def dlon (l : Fin 4) (n : Fin 8) (b : Fin 1000000) : EReal :=
  nbrLL (ix3 l (flat n b) (1 : Fin 2)) - pixLL (ix3 l b (1 : Fin 2))

/-- The planar distance. -/
def dist (l : Fin 4) (n : Fin 8) (b : Fin 1000000) : EReal :=
  Ideal.sqrt (dlat pixLL nbrLL l n b * dlat pixLL nbrLL l n b + dlon pixLL nbrLL l n b * dlon pixLL nbrLL l n b)

/-- The minimum of all distances, folded from +inf. -/
def dmin : EReal :=
  (Finset.univ : Finset SNbrIdx.Idx).fold min pinf (fun i => dist pixLL nbrLL (i 0) (i 1) (i 2))

/-- The distance with an infinite one replaced by the minimum. -/
def dsel (l : Fin 4) (n : Fin 8) (b : Fin 1000000) : EReal :=
  if Ideal.cmp .oeq (max (dist pixLL nbrLL l n b) (-(dist pixLL nbrLL l n b))) pinf = 1#1 then dmin pixLL nbrLL
  else dist pixLL nbrLL l n b

/-- The inverse-distance weight. -/
def wgt (l : Fin 4) (n : Fin 8) (b : Fin 1000000) : EReal := Ideal.div one (dsel pixLL nbrLL l n b)

/-- 1 on a present neighbour, 0 on a missing one. -/
def keep (l : Fin 4) (n : Fin 8) (b : Fin 1000000) : EReal := if nbrIdx (ix3 l n b) = sentinel then 0 else 1

/-- The neighbour's and the pixel's index with the sentinel replaced by the stand-in. -/
def nbr (l : Fin 4) (n : Fin 8) (b : Fin 1000000) : BitVec 32 :=
  if nbrIdx (ix3 l n b) = sentinel then nm else nbrIdx (ix3 l n b)
def pix (l : Fin 4) (b : Fin 1000000) : BitVec 32 :=
  if pixIdx (ix2 l b) = sentinel then pm else pixIdx (ix2 l b)

/-- One neighbour's weighted table row entry. -/
def term (l : Fin 4) (f : Fin 2) (n : Fin 8) (b : Fin 1000000) : EReal :=
  table (ix3 l (rowOf (nbr nbrIdx nm l n b)) f) * (wgt pixLL nbrLL l n b * keep nbrIdx l n b)

/-- The level and the feature of result column `j = f * 4 + l`. -/
def lvl (j : Fin 8) : Fin 4 := ⟨j.val % 4, by omega⟩
def feat (j : Fin 8) : Fin 2 := ⟨j.val / 4, by omega⟩

/-- The result entry `(b, j)`. -/
def out (b : Fin 1000000) (j : Fin 8) : EReal :=
  (∑ n : Fin 8, term table pixLL nbrLL nbrIdx nm (lvl j) (feat j) n b)
    + table (ix3 (lvl j) (rowOf (pix pixIdx pm (lvl j) b)) (feat j))

end

end Cert.Spec

end
-- ==== Proof.KernelFrame.lean ====
/-
  The frame of the word-level program `Kernel`: from any memory with zero semaphore counters @main runs to the end
  without fault, and its five argument arrays end holding what they held at launch.

  Why no value is stated. @main is a prefix of host operations (gathers of the 792-row table, the inverse-distance
  weights), ONE gridded region of 31 points over four windows whose blocks are 32768 lanes of a 1,000,000-long last
  axis, and one host line after it (a transpose into the result). The last block of every window overhangs its array,
  so its transfer is cut at the array's end and the staging buffer's tail holds words nothing names; and the body's
  sum over the eight sublanes is an operation whose value at words is not given in closed form. Nothing can therefore
  be said of what the body leaves in the output block — and the frame needs nothing said: the proof data CONSTRAIN
  what the body leaves in each staging buffer by the relation that holds of everything.

  How it is proved. The body is straight-line: twenty loads of rectangles of the three input buffers and of the
  output buffer, eight stores of one row each into the output buffer, all rectangles inside the buffers whatever
  these hold. So from the four current staging buffers at ARBITRARY contents it runs without fault and hands the
  input buffers back unchanged and the output buffer at some contents (`sound_body`, over any four whole memrefs:
  which of a window's two buffers is current at a point plays no part). That is the body obligation of the
  relational data at every point (`body_obligation`). The launch theorem for an @main that continues after its
  region with host lines (`run_main`) then gives: every buffer that is unscoped, is no window's array and is not
  written by the line after the region ends as the region found it. The five argument arrays are such buffers, and no
  host operation before the region writes them (`frame`).

  Everything but `frame` is stated at any float instance `F`.
-/
import proofs.«404629_j77764677862011_3_alg».proof.Defs
import proofs.«404629_j77764677862011_3_alg».proof.Proof.Gen.Kernel
import proofs.«404629_j77764677862011_3_alg».proof.Proof.Gen.Pre_finite_inputs
import proofs.«404629_j77764677862011_3_alg».proof.Proof.Gen.Kernel.Frame
import proofs.«404629_j77764677862011_3_alg».proof.Proof.Gen.Kernel.Skeleton
import Idealize.ShloMosaic.Lib.Pipeline.FrameSuffix
import Idealize.ShloMosaic.Lib.Tactic

noncomputable section

namespace Cert.Proof.KernelFrame

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

/-- The proof data on core `c`: each windowed array at what the region finds in it; of what the body leaves in a
    staging buffer nothing is asked (every input window is fetched afresh at every point and the output window is
    written back at every point, so no later point reads what an earlier one left); the class invariant; full shares;
    nothing owed. -/
def rdat (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-! ## The kernel body's obligation -/

set_option maxRecDepth 16384 in
/-- The kernel body on ANY four staging memrefs: it loads rectangles of the three input buffers and of the output
    buffer and stores eight rows into the output buffer, all inside the buffers whatever they hold, so it runs from
    arbitrary contents `X0 … X3`; the input buffers come back as they were and the output buffer at some contents. -/
theorem sound_body (c : Dev nD) (E : Set ℕ) (i : grid0.Coords)
    (a1 : Memref sig .tc .vmem S4x2x8x32768 .f32) (h1 : a1.IsWhole) (a2 : Memref sig .tc .vmem S4x8x32768 .f32) (h2 : a2.IsWhole)
    (a3 : Memref sig .tc .vmem S4x2x32768 .f32) (h3 : a3.IsWhole) (a4 : Memref sig .tc .vmem S8x32768 .f32) (h4 : a4.IsWhole)
    (X0 : S4x2x8x32768.Idx → Elt F .f32) (X1 : S4x8x32768.Idx → Elt F .f32) (X2 : S4x2x32768.Idx → Elt F .f32)
    (X3 : S8x32768.Idx → Elt F .f32) (K : PUnit → sProp 𝕄) :
    iprop((owns (c : Thread nD τ) a1 fullShare X0 ∗ owns (c : Thread nD τ) a2 fullShare X1
            ∗ owns (c : Thread nD τ) a3 fullShare X2 ∗ owns (c : Thread nD τ) a4 fullShare X3)
          ∗ (iprop(owns (c : Thread nD τ) a1 fullShare X0 ∗ owns (c : Thread nD τ) a2 fullShare X1
                  ∗ owns (c : Thread nD τ) a3 fullShare X2 ∗ (∃ X, owns (c : Thread nD τ) a4 fullShare X)) -∗ K ⟨⟩))
      ⊢ wp frame (wpE (defs₀ (F := F)) 𝒱₀ c none) E (cc0__reduce_kernel i a1 h1 a2 h2 a3 h3 a4 h4) K := by
  -- a buffer held at any contents is owned at what it reads there
  have hex : ∀ f : BufTy.Contents (Elt F) a4.view.ty, (a4.view.loc (c : Thread nD τ) ↦[a4.view.set]{fullShare} f : sProp 𝕄)
      ⊢ iprop(∃ X, owns (c : Thread nD τ) a4 fullShare X) := fun f => by
    iintro H; iexists a4.view.read (Elt F) f; iapply (owns_intro (c : Thread nD τ) a4 fullShare f); iexact H
  unfold owns at hex ⊢
  iintro ⟨⟨⟨%f0, %hf0, H0⟩, ⟨%f1, %hf1, H1⟩, ⟨%f2, %hf2, H2⟩, ⟨%f3, %hf3, H3⟩⟩, Hk⟩
  sl_unfold [cc0__reduce_kernel]
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  · iapply (hex _)
    iexact H3

/-- The library's body obligation of the relational data: at every point, from the four current staging buffers at
    whatever they hold, the body runs and hands them back at some contents. -/
theorem body_obligation (c : Dev nD) : (rdat m c).BodyObligation (defs₀ (F := F)) 𝒱₀ () Set.univ := fun t Y _ => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2, H3⟩
  iapply (sound_body (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (Y 0) (Y 1) (Y 2) (Y 3) _)
  isplitl [H0 H1 H2 H3]
  · isplitl [H0]; · iexact H0
    isplitl [H1]; · iexact H1
    isplitl [H2]; · iexact H2
    iexact H3
  iintro ⟨H0, H1, H2, ⟨%X3, H3⟩⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  isplitl [H2]
  · iexists Y 2; isplitr; · ipureintro; trivial
    iexact H2
  · iexists X3; isplitr; · ipureintro; trivial
    iexact H3

/-! ## The launch and the frame -/

/-- Every window's array is held at the full share. -/
theorem share_eq (c : Dev nD) (w : Fin cfg0.W) : (rdat m c).share w = fullShare := by
  unfold RDat.share; split <;> rfl

/-- The one host line after the region writes the result buffer only. -/
theorem tail_writes : ∀ ops ∈ ([hostOps1] : List (List (HloOp τ sig (Elt F)))), ∀ op ∈ ops,
    ∀ b : Ref sig .tc, Proc.devRef .tc b ∈ op.writes → b ∈ ({main_v50} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  exact Finset.mem_singleton.mpr (Proc.devRef_injective (τ := τ) _ hb)

-- unifying the launch theorem's conclusion with this statement unfolds plain definitions in a metavariable's type
set_option backward.isDefEq.respectTransparency.types false in
/-- From any memory with zero semaphore counters @main runs; every windowed array ends at some contents it may hold
    after the write-backs, and every other unscoped buffer but the result of the line after the region ends as the region
    found it. -/
theorem run_main : θ_run (defs (F := F)) (onTc (τ := τ) (main (F := F))) (s₀ m ρ)
    (Pipeline.RDat.FramePostR cfg0 (rdat m) ({main_v50} : Finset (Ref sig .tc)) (fun c b => Gen.V0 m c (Proc.devRef .tc b))) := by
  refine Pipeline.RDat.θ_run_frame_around_T cfgs 0 Gen.launch0 defs₀ 𝒱₀ (rdat m) {main_v50} m ρ main
    ?hbody ?hshare ?howed (Gen.V0 m) [hostOps1] ?hsub ?hfresh ?hkeep ?hT ?hmain ?hA ?hΦ
  case hbody => exact body_obligation m
  case hshare => exact share_eq m
  case howed => exact fun _ _ => rfl
  case hsub => exact Gen.sfx_sub
  case hfresh => exact Gen.sfx_fresh
  case hkeep => exact Gen.sfx_keeps
  case hT => exact tail_writes
  case hmain => exact Gen.hmain m 𝒱₀
  case hA => intro c w; rfl
  case hΦ => intro c t; rfl

/-- A buffer that is unscoped, no window's array and not the result of the line after the region is one whose final
    contents the run states. -/
theorem arg_mem (b : Ref sig .tc) (hs : b.isScoped = false) (ha : ∀ w, (spec0 w).arr.view.ref ≠ b) (hb : b ≠ main_v50) :
    b ∈ Pipeline.restRefs sig cfg0.spec \ ({main_v50} : Finset (Ref sig .tc)) :=
  Finset.mem_sdiff.mpr ⟨Pipeline.mem_restRefs_of b hs ha, fun h => hb (Finset.mem_singleton.mp h)⟩

/-- `Kernel` runs and its five argument arrays end as launched: they bypass the region, no host line before it writes
    them, and the line after it writes the result only. -/
theorem frame : Cert.frame_Kernel (hKernel := Cert.Kernel.Gen.facts) (hPre_finite_inputs := Cert.Pre_finite_inputs.Gen.facts) := by
  intro m ρ _
  exact (θ_run defs _ _).mono
    (fun r h c =>
      ⟨((h c).2 main_arg0 (arg_mem main_arg0 (by decide) (by decide) (by decide))).trans (Gen.V_main_arg0 m c),
       ((h c).2 main_arg1 (arg_mem main_arg1 (by decide) (by decide) (by decide))).trans (Gen.V_main_arg1 m c),
       ((h c).2 main_arg2 (arg_mem main_arg2 (by decide) (by decide) (by decide))).trans (Gen.V_main_arg2 m c),
       ((h c).2 main_arg3 (arg_mem main_arg3 (by decide) (by decide) (by decide))).trans (Gen.V_main_arg3 m c),
       ((h c).2 main_arg4 (arg_mem main_arg4 (by decide) (by decide) (by decide))).trans (Gen.V_main_arg4 m c)⟩)
    (run_main (F := Bits) m ρ)

end Cert.Proof.KernelFrame
end
-- ==== Proof.KIData.lean ====
/-
  The proof data of the one pipeline of the idealized kernel, at exact arithmetic on the extended reals.

  At grid point `t` the three input windows hold blocks of 32768 lanes of their arrays' last axis (the last block
  overhangs the arrays, and only its part inside them is named); the body writes, at row `r = f * 4 + l` and lane
  `λ` of the output block,
      (∑ n < 8, X0[l, f, n, λ] * X1[l, n, λ]) + X2[l, f, λ]
  where X0, X1, X2 are what the three input buffers hold. Each output lane reads the inputs at that same lane only,
  so the part of the output block inside the array is a function of the parts of the input blocks inside the arrays.
-/
import proofs.«404629_j77764677862011_3_alg».proof.Defs
import proofs.«404629_j77764677862011_3_alg».proof.Proof.Gen.KernelIdeal.Skeleton
import proofs.«404629_j77764677862011_3_alg».proof.Proof.Gen.KernelIdeal.Frame
import proofs.«404629_j77764677862011_3_alg».proof.Proof.Gen.Pre_finite_inputs
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)
open scoped BigOperators

/-- The kernel's variants: none. -/
abbrev 𝒱₀ : Variants := Variants.none

/-! ## Rows of the output block -/

/-- The level `l` of output row `r = f * 4 + l`. -/
def rowLvl (r : Fin 8) : Fin 4 := ⟨r.val % 4, Nat.mod_lt _ (by decide)⟩
/-- The feature `f` of output row `r = f * 4 + l`. -/
def rowFeat (r : Fin 8) : Fin 2 := ⟨r.val / 4, by have := r.isLt; omega⟩

/-- The body's lane-wise result from the contents of the three input buffers. -/
def outOf (X0 : S4x2x8x32768.Idx → EReal) (X1 : S4x8x32768.Idx → EReal) (X2 : S4x2x32768.Idx → EReal) :
    S8x32768.Idx → EReal := fun j =>
  (∑ n : Fin 8, X0 (ix4 (rowLvl (j 0)) (rowFeat (j 0)) n (j 1)) * X1 (ix3 (rowLvl (j 0)) n (j 1)))
    + X2 (ix3 (rowLvl (j 0)) (rowFeat (j 0)) (j 1))

variable (m : (ℓ : Loc nD τ sig) → Buf (Elt Ideal) ℓ) (ρ : Dev nD → PrngReg)

/-! ## The proof data -/

/-- The input windows' blocks at point `t`, filled out past the arrays' end with zero. -/
def X0 (c : Dev nD) (t : Fin cfg0.N) : S4x2x8x32768.Idx → EReal :=
  win0_0.fill (grid0.coords t) (fun _ => 0) (Gen.iblk m c 0 t)
def X1 (c : Dev nD) (t : Fin cfg0.N) : S4x8x32768.Idx → EReal :=
  win0_1.fill (grid0.coords t) (fun _ => 0) (Gen.iblk m c 1 t)
def X2 (c : Dev nD) (t : Fin cfg0.N) : S4x2x32768.Idx → EReal :=
  win0_2.fill (grid0.coords t) (fun _ => 0) (Gen.iblk m c 2 t)

/-- The proof data of the one pipeline on core `c`: the arrays as the region finds them; after the body at point
    `t` each input's buffer at its block filled out with zero and the result's at the lane-wise result of those; the
    class invariant; nothing owed; full shares. -/
def dats (p : Fin 1) (c : Dev nD) : Dat τ (Elt Ideal) Unit ℕ (UR sig nD τ) ℕ (cfgs p) c where
  A w := Gen.V m c (Pipeline.arrRef spec0 w)
  after w t := match w with
    | ⟨0, _⟩ => X0 m c t
    | ⟨1, _⟩ => X1 m c t
    | ⟨2, _⟩ => X2 m c t
    | ⟨3, _⟩ => outOf (X0 m c t) (X1 m c t) (X2 m c t)
  Φ _ := ΦA spec0 c
  q _ := fullShare
  owed _ := 0

theorem A_eq (c : Dev nD) (w : Fin cfg0.W) : (dats m 0 c).A w = Gen.V m c (Pipeline.arrRef spec0 w) := rfl

theorem after0_0 (c : Dev nD) (t : Fin cfg0.N) : (dats m 0 c).after 0 t = X0 m c t := by dsimp only [dats]
theorem after0_1 (c : Dev nD) (t : Fin cfg0.N) : (dats m 0 c).after 1 t = X1 m c t := by dsimp only [dats]
theorem after0_2 (c : Dev nD) (t : Fin cfg0.N) : (dats m 0 c).after 2 t = X2 m c t := by dsimp only [dats]
theorem after0_3 (c : Dev nD) (t : Fin cfg0.N) :
    (dats m 0 c).after 3 t = outOf (X0 m c t) (X1 m c t) (X2 m c t) := by dsimp only [dats]

/-! ## Where an element of the written-back part of the output block sits -/

/-- Every block's part inside the array ends inside the array, and has at most eight rows. -/
theorem xsize_facts : ∀ t : Fin cfg0.N,
    win0_3.xsize (grid0.coords t) 0 ≤ 8 ∧ t.val * 32768 + win0_3.xsize (grid0.coords t) 1 ≤ 1000000 :=
  (by decide +kernel : ∀ t : Fin grid0.N,
    win0_3.xsize (grid0.coords t) 0 ≤ 8 ∧ t.val * 32768 + win0_3.xsize (grid0.coords t) 1 ≤ 1000000)

/-- The row of an element of the written-back part of the output block. -/
def rowOf (t : Fin cfg0.N) (j : (win0_3.xblock (grid0.coords t)).Idx) : Fin 8 :=
  ⟨(j 0).val, Nat.lt_of_lt_of_le (j 0).isLt (xsize_facts t).1⟩
/-- Its level, -/
def lvlOf (t : Fin cfg0.N) (j : (win0_3.xblock (grid0.coords t)).Idx) : Fin 4 := rowLvl (rowOf t j)
/-- its feature, -/
def featOf (t : Fin cfg0.N) (j : (win0_3.xblock (grid0.coords t)).Idx) : Fin 2 := rowFeat (rowOf t j)
/-- and its position along the arrays' long axis: the block's offset plus the lane. -/
def posOf (t : Fin cfg0.N) (j : (win0_3.xblock (grid0.coords t)).Idx) : Fin 1000000 :=
  ⟨t.val * 32768 + (j 1).val, by
    have h1 : (j 1).val < win0_3.xsize (grid0.coords t) 1 := (j 1).isLt
    have h2 := (xsize_facts t).2
    omega⟩

/-! ## The operand arrays -/

/-- The three operand arrays of the pipeline as the region finds them, as functions of their indices. -/
abbrev arr44 (c : Dev nD) : S4x2x8x1000000.Idx → EReal := Gen.V m c main_v44
abbrev arr37 (c : Dev nD) : S4x8x1000000.Idx → EReal := Gen.V m c main_v37
abbrev arr48 (c : Dev nD) : S4x2x1000000.Idx → EReal := Gen.V m c main_v48

end Cert.KernelIdeal.Hand

end
-- ==== Proof.KIRun.lean ====
/-
  The run of the idealized kernel, at exact arithmetic on the extended reals.

  The body, on any four whole staging buffers holding X0, X1, X2 and anything, leaves the first three as they were
  and the fourth holding, at row `r = f * 4 + l` and lane `λ`,
      (∑ n < 8, X0[l, f, n, λ] * X1[l, n, λ]) + X2[l, f, λ]:
  eight row stores that tile the buffer, each the sublane sum of a product of two eight-row blocks plus a one-row
  block. Each output lane reads the inputs at that same lane, so the part of the result inside the array does not
  depend on what fills the input buffers out past their arrays' end: this is the body obligation the pipeline asks
  for when every window's last block overhangs its array. The run of @main and the frame claim follow by the
  library's launch theorem.
-/
import proofs.«404629_j77764677862011_3_alg».proof.Proof.KIData
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.ValueLayout
import Idealize.ShloMosaic.Lib.Ring
import Idealize.ShloMosaic.Lib.Tactic
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)
open scoped BigOperators

local notation "𝕄" => MT nD τ sig Unit (Elt Ideal) ℕ (UR sig nD τ) ℕ

/-! ## One output row from the three loaded blocks -/

/-- One output row's payload: the sublane sum of the products of the two eight-row blocks, plus the one-row block. -/
def core (w : Vec Ideal S1x8x32768 .f32) (x : Vec Ideal S1x1x8x32768 .f32) (b : Vec Ideal S1x1x32768 .f32) :
    FVec Ideal S1x32768 .f32 :=
  shapeCast S1x32768
    (addf (multiReduction .add [0] S32768
        (mulf (shapeCast S8x32768 x shapeCasts_S1x1x8x32768_S8x32768) (shapeCast S8x32768 w shapeCasts_S1x8x32768_S8x32768))
        0x00000000#32 reduces_S8x32768_S32768 (.inl rfl) rfl)
      (shapeCast S32768 b shapeCasts_S1x1x32768_S32768)) shapeCasts_S32768_S1x32768

/-- The index a sublane reduction reads: the sublane put back in front of the lane. -/
theorem lift_eq (lane : Fin 32768) (k : Fin 8) :
    (reduces_S8x32768_S32768 : S8x32768.Reduces [0] S32768).lift (ix1 lane) k = ix2 k lane := by
  funext a
  match a with
  | ⟨0, _⟩ => rfl
  | ⟨1, _⟩ => rfl

theorem cast4_apply (x : Vec Ideal S1x1x8x32768 .f32) (k : Fin 8) (lane : Fin 32768) :
    shapeCast S8x32768 x shapeCasts_S1x1x8x32768_S8x32768 (ix2 k lane) = x (ix4 (0 : Fin 1) (0 : Fin 1) k lane) :=
  shapeCast_apply x _ _ _ (by
    rw [Shape.rowMajor_val_four, Shape.rowMajor_val_two]
    show ((0 * 1 + 0) * 8 + k.val) * 32768 + lane.val = k.val * 32768 + lane.val
    omega)

theorem cast3_apply (b : Vec Ideal S1x1x32768 .f32) (lane : Fin 32768) :
    shapeCast S32768 b shapeCasts_S1x1x32768_S32768 (ix1 lane) = b (ix3 (0 : Fin 1) (0 : Fin 1) lane) :=
  shapeCast_apply b _ _ _ (by
    rw [Shape.rowMajor_val_three, Shape.rowMajor_val_one]
    show (0 * 1 + 0) * 32768 + lane.val = lane.val
    omega)

/-- The sublane sum at a lane: the sum of the eight sublanes there. -/
theorem sublaneSum_apply (src : FVec Ideal S8x32768 .f32) (hφ : FKind.Formats FTy.f32)
    (hacc : (0x00000000#32 : BitVec 32) = 0x00000000#32) (lane : Fin 32768) :
    multiReduction .add [0] S32768 src 0x00000000#32 reduces_S8x32768_S32768 hφ hacc (ix1 lane)
      = ∑ k : Fin 8, src (ix2 k lane) :=
  (Ideal.multiReduction_add_single src 0x00000000#32 reduces_S8x32768_S32768 hφ hacc (ix1 lane)).trans
    (Finset.sum_congr rfl fun k _ => congrArg src (lift_eq lane k))

theorem core_apply (w : Vec Ideal S1x8x32768 .f32) (x : Vec Ideal S1x1x8x32768 .f32) (b : Vec Ideal S1x1x32768 .f32)
    (u : Fin 1) (lane : Fin 32768) :
    core w x b (ix2 u lane)
      = (∑ n : Fin 8, x (ix4 (0 : Fin 1) (0 : Fin 1) n lane) * w (ix3 (0 : Fin 1) n lane)) + b (ix3 (0 : Fin 1) (0 : Fin 1) lane) := by
  unfold core
  rw [shapeCast_a_1a_apply, addf_apply, cast3_apply]
  have hs := sublaneSum_apply
    (mulf (shapeCast S8x32768 x shapeCasts_S1x1x8x32768_S8x32768) (shapeCast S8x32768 w shapeCasts_S1x8x32768_S8x32768))
    (.inl rfl) rfl lane
  refine (congrArg (fun z : EReal => z + b (ix3 (0 : Fin 1) (0 : Fin 1) lane)) hs).trans ?_
  refine congrArg (fun z : EReal => z + b (ix3 (0 : Fin 1) (0 : Fin 1) lane)) (Finset.sum_congr rfl fun n _ => ?_)
  rw [mulf_apply, cast4_apply, shapeCast_1ab_ab_apply]

/-! ## A stored row is a row of the lane-wise result -/

/-- Each printed row payload is the one row computation, of the blocks it reads. -/
theorem pay3_eq (v0 : Vec Ideal S1x8x32768 .f32) (v2 : Vec Ideal S1x1x8x32768 .f32) (v6 : Vec Ideal S1x1x32768 .f32) :
    k0_pay3 v0 v2 v6 = core v0 v2 v6 := rfl
theorem pay4_eq (v0 : Vec Ideal S1x8x32768 .f32) (v12 : Vec Ideal S1x1x8x32768 .f32) (v16 : Vec Ideal S1x1x32768 .f32) :
    k0_pay4 v0 v12 v16 = core v0 v12 v16 := rfl
theorem pay7_eq (v22 : Vec Ideal S1x8x32768 .f32) (v24 : Vec Ideal S1x1x8x32768 .f32) (v28 : Vec Ideal S1x1x32768 .f32) :
    k0_pay7 (k0_pay6 v22 v24) v28 = core v22 v24 v28 := rfl
theorem pay8_eq (v22 : Vec Ideal S1x8x32768 .f32) (v34 : Vec Ideal S1x1x8x32768 .f32) (v38 : Vec Ideal S1x1x32768 .f32) :
    k0_pay8 (k0_pay5 v22) v34 v38 = core v22 v34 v38 := rfl
theorem pay10_eq (v44 : Vec Ideal S1x8x32768 .f32) (v46 : Vec Ideal S1x1x8x32768 .f32) (v50 : Vec Ideal S1x1x32768 .f32) :
    k0_pay10 v44 v46 v50 = core v44 v46 v50 := rfl
theorem pay11_eq (v44 : Vec Ideal S1x8x32768 .f32) (v56 : Vec Ideal S1x1x8x32768 .f32) (v60 : Vec Ideal S1x1x32768 .f32) :
    k0_pay11 (k0_pay9 v44) v56 v60 = core v44 v56 v60 := rfl
theorem pay13_eq (v66 : Vec Ideal S1x8x32768 .f32) (v68 : Vec Ideal S1x1x8x32768 .f32) (v72 : Vec Ideal S1x1x32768 .f32) :
    k0_pay13 v66 v68 v72 = core v66 v68 v72 := rfl
theorem pay1_eq (v66 : Vec Ideal S1x8x32768 .f32) (v78 : Vec Ideal S1x1x8x32768 .f32) (v82 : Vec Ideal S1x1x32768 .f32) :
    k0_pay1 (k0_pay14 v66 v78) v82 = core v66 v78 v82 := rfl

/-- The payload stored at row `r = f * 4 + l`, computed from the level-`l` rows of the second operand, the
    level-`l`, feature-`f` rows of the first and the level-`l`, feature-`f` row of the third, is row `r` of the
    lane-wise result. -/
theorem piece_row (X0 : S4x2x8x32768.Idx → EReal) (X1 : S4x8x32768.Idx → EReal) (X2 : S4x2x32768.Idx → EReal)
    (r l f : ℕ) (hr : r < 8) (hl4 : l < 4) (hf2 : f < 2) (hl : r % 4 = l) (hf : r / 4 = f)
    (inb4 : ∀ a, (![r, 0] : Fin 2 → ℕ) a + S1x32768.size a ≤ S8x32768.size a)
    (inb1 : ∀ a, (![l, 0, 0] : Fin 3 → ℕ) a + S1x8x32768.size a ≤ S4x8x32768.size a)
    (inb0 : ∀ a, (![l, f, 0, 0] : Fin 4 → ℕ) a + S1x1x8x32768.size a ≤ S4x2x8x32768.size a)
    (inb2 : ∀ a, (![l, f, 0] : Fin 3 → ℕ) a + S1x1x32768.size a ≤ S4x2x32768.size a)
    (x : S1x32768.Idx) :
    core (View.ld X1 (Rect.unit (s := S4x8x32768) ![l, 0, 0] S1x8x32768.size inb1))
        (View.ld X0 (Rect.unit (s := S4x2x8x32768) ![l, f, 0, 0] S1x1x8x32768.size inb0))
        (View.ld X2 (Rect.unit (s := S4x2x32768) ![l, f, 0] S1x1x32768.size inb2)) x
      = outOf X0 X1 X2 ((Rect.unit (s := S8x32768) ![r, 0] S1x32768.size inb4).emb x) := by
  obtain ⟨u, lane, rfl⟩ : ∃ (u : Fin 1) (lane : Fin 32768), x = ix2 u lane := ⟨x 0, x 1, eq_ix2 x⟩
  have hu : u.val = 0 := by omega
  rw [core_apply]
  unfold outOf
  have e0 : (Rect.unit (s := S8x32768) ![r, 0] S1x32768.size inb4).emb (ix2 u lane) 0 = (⟨r, hr⟩ : Fin 8) :=
    Fin.ext (by rw [Rect.emb_apply]; show r + 1 * u.val = r; omega)
  have e1 : (Rect.unit (s := S8x32768) ![r, 0] S1x32768.size inb4).emb (ix2 u lane) 1 = lane :=
    Fin.ext (by rw [Rect.emb_apply]; show 0 + 1 * lane.val = lane.val; omega)
  have hL : rowLvl ⟨r, hr⟩ = (⟨l, hl4⟩ : Fin 4) := Fin.ext hl
  have hF : rowFeat ⟨r, hr⟩ = (⟨f, hf2⟩ : Fin 2) := Fin.ext hf
  rw [e0, e1, hL, hF]
  have i0 : ∀ n : Fin 8, (Rect.unit (s := S4x2x8x32768) ![l, f, 0, 0] S1x1x8x32768.size inb0).toLoadRect.idx
      (ix4 (0 : Fin 1) (0 : Fin 1) n lane) = ix4 (⟨l, hl4⟩ : Fin 4) (⟨f, hf2⟩ : Fin 2) n lane := fun n => by
    funext a
    match a with
    | ⟨0, _⟩ => exact Fin.ext (by show l + 1 * 0 = l; omega)
    | ⟨1, _⟩ => exact Fin.ext (by show f + 1 * 0 = f; omega)
    | ⟨2, _⟩ => exact Fin.ext (by show 0 + 1 * n.val = n.val; omega)
    | ⟨3, _⟩ => exact Fin.ext (by show 0 + 1 * lane.val = lane.val; omega)
  have i1 : ∀ n : Fin 8, (Rect.unit (s := S4x8x32768) ![l, 0, 0] S1x8x32768.size inb1).toLoadRect.idx
      (ix3 (0 : Fin 1) n lane) = ix3 (⟨l, hl4⟩ : Fin 4) n lane := fun n => by
    funext a
    match a with
    | ⟨0, _⟩ => exact Fin.ext (by show l + 1 * 0 = l; omega)
    | ⟨1, _⟩ => exact Fin.ext (by show 0 + 1 * n.val = n.val; omega)
    | ⟨2, _⟩ => exact Fin.ext (by show 0 + 1 * lane.val = lane.val; omega)
  have i2 : (Rect.unit (s := S4x2x32768) ![l, f, 0] S1x1x32768.size inb2).toLoadRect.idx
      (ix3 (0 : Fin 1) (0 : Fin 1) lane) = ix3 (⟨l, hl4⟩ : Fin 4) (⟨f, hf2⟩ : Fin 2) lane := by
    funext a
    match a with
    | ⟨0, _⟩ => exact Fin.ext (by show l + 1 * 0 = l; omega)
    | ⟨1, _⟩ => exact Fin.ext (by show f + 1 * 0 = f; omega)
    | ⟨2, _⟩ => exact Fin.ext (by show 0 + 1 * lane.val = lane.val; omega)
  show (∑ n : Fin 8, X0 ((Rect.unit (s := S4x2x8x32768) ![l, f, 0, 0] S1x1x8x32768.size inb0).toLoadRect.idx (ix4 (0 : Fin 1) (0 : Fin 1) n lane))
        * X1 ((Rect.unit (s := S4x8x32768) ![l, 0, 0] S1x8x32768.size inb1).toLoadRect.idx (ix3 (0 : Fin 1) n lane)))
      + X2 ((Rect.unit (s := S4x2x32768) ![l, f, 0] S1x1x32768.size inb2).toLoadRect.idx (ix3 (0 : Fin 1) (0 : Fin 1) lane)) = _
  rw [i2]
  exact congrArg (· + _) (Finset.sum_congr rfl fun n _ => by rw [i0, i1])

/-! ## The body's triple -/

/-- The eight rows as the body stores them, last store first. -/
abbrev rowPieces (p0 p1 p2 p3 p4 p5 p6 p7 : Vec Ideal S1x32768 .f32) : List (View.Piece (Elt Ideal) S8x32768 .f32) :=
  [⟨Rect.unit (s := S8x32768) ![7, 0] S1x32768.size inb_S8x32768_S1x32768_7_0, p0⟩,
    ⟨Rect.unit (s := S8x32768) ![3, 0] S1x32768.size inb_S8x32768_S1x32768_3_0, p1⟩,
    ⟨Rect.unit (s := S8x32768) ![6, 0] S1x32768.size inb_S8x32768_S1x32768_6_0, p2⟩,
    ⟨Rect.unit (s := S8x32768) ![2, 0] S1x32768.size inb_S8x32768_S1x32768_2_0, p3⟩,
    ⟨Rect.unit (s := S8x32768) ![5, 0] S1x32768.size inb_S8x32768_S1x32768_5_0, p4⟩,
    ⟨Rect.unit (s := S8x32768) ![1, 0] S1x32768.size inb_S8x32768_S1x32768_1_0, p5⟩,
    ⟨Rect.unit (s := S8x32768) ![4, 0] S1x32768.size inb_S8x32768_S1x32768_4_0, p6⟩,
    ⟨Rect.unit (s := S8x32768) ![0, 0] S1x32768.size inb_S8x32768_S1x32768_0_0, p7⟩]

/-- They tile the output buffer, so they cover it. -/
theorem cover_rows (p0 p1 p2 p3 p4 p5 p6 p7 : Vec Ideal S1x32768 .f32) (y : S8x32768.Idx) :
    ∃ pc ∈ rowPieces p0 p1 p2 p3 p4 p5 p6 p7, y ∈ pc.1.set :=
  View.cover_of_tiled (rowPieces p0 p1 p2 p3 p4 p5 p6 p7) S1x32768.size (by rfl) y

set_option maxHeartbeats 4000000 in
/-- The kernel body on whole staging memrefs, the inputs' at contents `x0`, `x1`, `x2` and the output's at anything,
    runs to the continuation holding the inputs' as they were and the output's at the lane-wise result of the inputs'. -/
theorem sound_kernel (c : Dev nD) (E : Set ℕ) (i : grid0.Coords)
    (arg1 : Memref sig .tc .vmem S4x2x8x32768 .f32) (harg1 : arg1.IsWhole)
    (arg2 : Memref sig .tc .vmem S4x8x32768 .f32) (harg2 : arg2.IsWhole)
    (arg3 : Memref sig .tc .vmem S4x2x32768 .f32) (harg3 : arg3.IsWhole)
    (arg4 : Memref sig .tc .vmem S8x32768 .f32) (harg4 : arg4.IsWhole)
    (x0 : S4x2x8x32768.Idx → EReal) (x1 : S4x8x32768.Idx → EReal) (x2 : S4x2x32768.Idx → EReal)
    (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
              ∗ owns (c : Thread nD τ) arg3 fullShare x2 ∗ owns (c : Thread nD τ) arg4 fullShare (outOf x0 x1 x2)) -∗ K ⟨⟩))
      ⊢ wp Idealize.ShloMosaic.frame (wpE (defs₀ (F := Ideal)) 𝒱₀ c none) E (cc0__reduce_kernel i arg1 harg1 arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the eight row stores tile the buffer, and each stored row is a row of the lane-wise result
  sl_unfold_run_names
  simp only [pay1_eq, pay3_eq, pay4_eq, pay7_eq, pay8_eq, pay10_eq, pay11_eq, pay13_eq, View.readAt_eq_ld]
  refine (View.read_writes_eq_canon _ _ _ (cover_rows _ _ _ _ _ _ _ _)).trans ?_
  funext y
  refine View.canon_apply_of_pieces (outOf _ _ _) _ ?_ y (cover_rows _ _ _ _ _ _ _ _ y)
  intro p hp x
  simp only [List.mem_cons, List.mem_nil_iff, or_false] at hp
  rcases hp with rfl | rfl | rfl | rfl | rfl | rfl | rfl | rfl
  · exact piece_row _ _ _ 7 3 1 (by decide) (by decide) (by decide) rfl rfl inb_S8x32768_S1x32768_7_0
      inb_S4x8x32768_S1x8x32768_3_0_0 inb_S4x2x8x32768_S1x1x8x32768_3_1_0_0 inb_S4x2x32768_S1x1x32768_3_1_0 x
  · exact piece_row _ _ _ 3 3 0 (by decide) (by decide) (by decide) rfl rfl inb_S8x32768_S1x32768_3_0
      inb_S4x8x32768_S1x8x32768_3_0_0 inb_S4x2x8x32768_S1x1x8x32768_3_0_0_0 inb_S4x2x32768_S1x1x32768_3_0_0 x
  · exact piece_row _ _ _ 6 2 1 (by decide) (by decide) (by decide) rfl rfl inb_S8x32768_S1x32768_6_0
      inb_S4x8x32768_S1x8x32768_2_0_0 inb_S4x2x8x32768_S1x1x8x32768_2_1_0_0 inb_S4x2x32768_S1x1x32768_2_1_0 x
  · exact piece_row _ _ _ 2 2 0 (by decide) (by decide) (by decide) rfl rfl inb_S8x32768_S1x32768_2_0
      inb_S4x8x32768_S1x8x32768_2_0_0 inb_S4x2x8x32768_S1x1x8x32768_2_0_0_0 inb_S4x2x32768_S1x1x32768_2_0_0 x
  · exact piece_row _ _ _ 5 1 1 (by decide) (by decide) (by decide) rfl rfl inb_S8x32768_S1x32768_5_0
      inb_S4x8x32768_S1x8x32768_1_0_0 inb_S4x2x8x32768_S1x1x8x32768_1_1_0_0 inb_S4x2x32768_S1x1x32768_1_1_0 x
  · exact piece_row _ _ _ 1 1 0 (by decide) (by decide) (by decide) rfl rfl inb_S8x32768_S1x32768_1_0
      inb_S4x8x32768_S1x8x32768_1_0_0 inb_S4x2x8x32768_S1x1x8x32768_1_0_0_0 inb_S4x2x32768_S1x1x32768_1_0_0 x
  · exact piece_row _ _ _ 4 0 1 (by decide) (by decide) (by decide) rfl rfl inb_S8x32768_S1x32768_4_0
      inb_S4x8x32768_S1x8x32768_0_0_0 inb_S4x2x8x32768_S1x1x8x32768_0_1_0_0 inb_S4x2x32768_S1x1x32768_0_1_0 x
  · exact piece_row _ _ _ 0 0 0 (by decide) (by decide) (by decide) rfl rfl inb_S8x32768_S1x32768_0_0
      inb_S4x8x32768_S1x8x32768_0_0_0 inb_S4x2x8x32768_S1x1x8x32768_0_0_0_0 inb_S4x2x32768_S1x1x32768_0_0_0 x

variable (m : (ℓ : Loc nD τ sig) → Buf (Elt Ideal) ℓ) (ρ : Dev nD → PrngReg)

/-! ## What the body finds in the staging buffers -/

/-- An input's buffer just fetched: its block on the part inside the array, anything elsewhere. -/
theorem blockOf_0 (c : Dev nD) (t : Fin cfg0.N) : (dats m 0 c).blockOf 0 t = Gen.iblk m c 0 t := by
  unfold Dat.blockOf Gen.iblk; rw [A_eq]
theorem blockOf_1 (c : Dev nD) (t : Fin cfg0.N) : (dats m 0 c).blockOf 1 t = Gen.iblk m c 1 t := by
  unfold Dat.blockOf Gen.iblk; rw [A_eq]
theorem blockOf_2 (c : Dev nD) (t : Fin cfg0.N) : (dats m 0 c).blockOf 2 t = Gen.iblk m c 2 t := by
  unfold Dat.blockOf Gen.iblk; rw [A_eq]
theorem before_0 (c : Dev nD) (t : Fin cfg0.N) (d) :
    (dats m 0 c).before 0 t d = win0_0.fill (grid0.coords t) d (Gen.iblk m c 0 t) := by
  rw [(dats m 0 c).before_fetched 0 t (fetch0_0 t) d]; unfold Dat.fetched; rw [blockOf_0]
theorem before_1 (c : Dev nD) (t : Fin cfg0.N) (d) :
    (dats m 0 c).before 1 t d = win0_1.fill (grid0.coords t) d (Gen.iblk m c 1 t) := by
  rw [(dats m 0 c).before_fetched 1 t (fetch0_1 t) d]; unfold Dat.fetched; rw [blockOf_1]
theorem before_2 (c : Dev nD) (t : Fin cfg0.N) (d) :
    (dats m 0 c).before 2 t d = win0_2.fill (grid0.coords t) d (Gen.iblk m c 2 t) := by
  rw [(dats m 0 c).before_fetched 2 t (fetch0_2 t) d]; unfold Dat.fetched; rw [blockOf_2]
/-- The output's buffer, written back at every point: anything. -/
theorem before_3 (c : Dev nD) (t : Fin cfg0.N) (d) : (dats m 0 c).before 3 t d = d :=
  (dats m 0 c).before_out_reset 3 rfl t
    (by by_cases h : t.val = 0
        · exact .inl h
        · exact .inr ⟨h, flush0_3 _⟩) d

/-! ## Lane-locality: the named part of the result depends on the named parts of the inputs only -/

/-- The parts of the four windows' blocks inside their arrays at a point: every row, and the same lanes. -/
theorem xsize_agree : ∀ t : Fin cfg0.N,
    (win0_0.xsize (grid0.coords t) 0 = 4 ∧ win0_0.xsize (grid0.coords t) 1 = 2 ∧ win0_0.xsize (grid0.coords t) 2 = 8
      ∧ win0_0.xsize (grid0.coords t) 3 = win0_3.xsize (grid0.coords t) 1)
    ∧ (win0_1.xsize (grid0.coords t) 0 = 4 ∧ win0_1.xsize (grid0.coords t) 1 = 8
      ∧ win0_1.xsize (grid0.coords t) 2 = win0_3.xsize (grid0.coords t) 1)
    ∧ (win0_2.xsize (grid0.coords t) 0 = 4 ∧ win0_2.xsize (grid0.coords t) 1 = 2
      ∧ win0_2.xsize (grid0.coords t) 2 = win0_3.xsize (grid0.coords t) 1) :=
  (by decide +kernel : ∀ t : Fin grid0.N,
    (win0_0.xsize (grid0.coords t) 0 = 4 ∧ win0_0.xsize (grid0.coords t) 1 = 2 ∧ win0_0.xsize (grid0.coords t) 2 = 8
      ∧ win0_0.xsize (grid0.coords t) 3 = win0_3.xsize (grid0.coords t) 1)
    ∧ (win0_1.xsize (grid0.coords t) 0 = 4 ∧ win0_1.xsize (grid0.coords t) 1 = 8
      ∧ win0_1.xsize (grid0.coords t) 2 = win0_3.xsize (grid0.coords t) 1)
    ∧ (win0_2.xsize (grid0.coords t) 0 = 4 ∧ win0_2.xsize (grid0.coords t) 1 = 2
      ∧ win0_2.xsize (grid0.coords t) 2 = win0_3.xsize (grid0.coords t) 1))

/-- A filled block at an index the transfer moves does not depend on the filler. -/
theorem fill_indep {G : Pipeline.Grid} (w : Pipeline.Window sig G) {α : Type} (i : G.Coords) (d d' : w.block.Idx → α)
    (g : (w.xblock i).Idx → α) {j : w.block.Idx} (h : w.moved i j = true) : w.fill i d g j = w.fill i d' g j := by
  unfold Pipeline.Window.fill; rw [dif_pos h, dif_pos h]

/-- At a lane inside the array, every row of the first input's block is moved, -/
theorem moved_0 (t : Fin cfg0.N) (l : Fin 4) (f : Fin 2) (n : Fin 8) (lane : Fin 32768)
    (hl : lane.val < win0_3.xsize (grid0.coords t) 1) : win0_0.moved (grid0.coords t) (ix4 l f n lane) = true := by
  obtain ⟨⟨h0, h1, h2, h3⟩, -, -⟩ := xsize_agree t
  refine (win0_0.moved_iff _ _).mpr fun a => ?_
  match a with
  | ⟨0, _⟩ => show l.val < win0_0.xsize (grid0.coords t) 0; rw [h0]; exact l.isLt
  | ⟨1, _⟩ => show f.val < win0_0.xsize (grid0.coords t) 1; rw [h1]; exact f.isLt
  | ⟨2, _⟩ => show n.val < win0_0.xsize (grid0.coords t) 2; rw [h2]; exact n.isLt
  | ⟨3, _⟩ => show lane.val < win0_0.xsize (grid0.coords t) 3; rw [h3]; exact hl
/-- of the second's, -/
theorem moved_1 (t : Fin cfg0.N) (l : Fin 4) (n : Fin 8) (lane : Fin 32768)
    (hl : lane.val < win0_3.xsize (grid0.coords t) 1) : win0_1.moved (grid0.coords t) (ix3 l n lane) = true := by
  obtain ⟨-, ⟨h0, h1, h2⟩, -⟩ := xsize_agree t
  refine (win0_1.moved_iff _ _).mpr fun a => ?_
  match a with
  | ⟨0, _⟩ => show l.val < win0_1.xsize (grid0.coords t) 0; rw [h0]; exact l.isLt
  | ⟨1, _⟩ => show n.val < win0_1.xsize (grid0.coords t) 1; rw [h1]; exact n.isLt
  | ⟨2, _⟩ => show lane.val < win0_1.xsize (grid0.coords t) 2; rw [h2]; exact hl
/-- and of the third's. -/
theorem moved_2 (t : Fin cfg0.N) (l : Fin 4) (f : Fin 2) (lane : Fin 32768)
    (hl : lane.val < win0_3.xsize (grid0.coords t) 1) : win0_2.moved (grid0.coords t) (ix3 l f lane) = true := by
  obtain ⟨-, -, ⟨h0, h1, h2⟩⟩ := xsize_agree t
  refine (win0_2.moved_iff _ _).mpr fun a => ?_
  match a with
  | ⟨0, _⟩ => show l.val < win0_2.xsize (grid0.coords t) 0; rw [h0]; exact l.isLt
  | ⟨1, _⟩ => show f.val < win0_2.xsize (grid0.coords t) 1; rw [h1]; exact f.isLt
  | ⟨2, _⟩ => show lane.val < win0_2.xsize (grid0.coords t) 2; rw [h2]; exact hl

/-- So the part of the lane-wise result inside the array is the same whatever fills the input blocks out. -/
theorem cut_outOf_indep (t : Fin cfg0.N)
    (b0 : (win0_0.xblock (grid0.coords t)).Idx → EReal) (b1 : (win0_1.xblock (grid0.coords t)).Idx → EReal)
    (b2 : (win0_2.xblock (grid0.coords t)).Idx → EReal)
    (d0 d0' : S4x2x8x32768.Idx → EReal) (d1 d1' : S4x8x32768.Idx → EReal) (d2 d2' : S4x2x32768.Idx → EReal) :
    win0_3.cut (grid0.coords t) (outOf (win0_0.fill (grid0.coords t) d0 b0) (win0_1.fill (grid0.coords t) d1 b1)
        (win0_2.fill (grid0.coords t) d2 b2))
      = win0_3.cut (grid0.coords t) (outOf (win0_0.fill (grid0.coords t) d0' b0) (win0_1.fill (grid0.coords t) d1' b1)
        (win0_2.fill (grid0.coords t) d2' b2)) := by
  funext j
  have hl : (win0_3.xinj (grid0.coords t) j 1).val < win0_3.xsize (grid0.coords t) 1 := (j 1).isLt
  show outOf _ _ _ (win0_3.xinj (grid0.coords t) j) = outOf _ _ _ (win0_3.xinj (grid0.coords t) j)
  unfold outOf
  rw [fill_indep win0_2 _ d2 d2' b2 (moved_2 t _ _ _ hl)]
  refine congrArg (· + _) (Finset.sum_congr rfl fun n _ => ?_)
  rw [fill_indep win0_0 _ d0 d0' b0 (moved_0 t _ _ n _ hl), fill_indep win0_1 _ d1 d1' b1 (moved_1 t _ n _ hl)]

/-- The result buffer as the body leaves it is, on the part written back, the proof data's. -/
theorem leaves_3 (c : Dev nD) (t : Fin cfg0.N) (M : Memref sig .tc .vmem S8x32768 .f32)
    (d0 : S4x2x8x32768.Idx → EReal) (d1 : S4x8x32768.Idx → EReal) (d2 : S4x2x32768.Idx → EReal) :
    owns (c : Thread nD τ) M fullShare (outOf (win0_0.fill (grid0.coords t) d0 (Gen.iblk m c 0 t))
        (win0_1.fill (grid0.coords t) d1 (Gen.iblk m c 1 t)) (win0_2.fill (grid0.coords t) d2 (Gen.iblk m c 2 t)))
      ⊢ (iprop(∃ d, owns (c : Thread nD τ) M fullShare (win0_3.fill (grid0.coords t) d
          (win0_3.cut (grid0.coords t) (outOf (X0 m c t) (X1 m c t) (X2 m c t))))) : sProp 𝕄) := by
  have e := win0_3.fill_congr_cut (grid0.coords t) (cut_outOf_indep t (Gen.iblk m c 0 t) (Gen.iblk m c 1 t)
    (Gen.iblk m c 2 t) d0 (fun _ => 0) d1 (fun _ => 0) d2 (fun _ => 0))
  iintro H
  iexists (outOf (win0_0.fill (grid0.coords t) d0 (Gen.iblk m c 0 t)) (win0_1.fill (grid0.coords t) d1 (Gen.iblk m c 1 t))
    (win0_2.fill (grid0.coords t) d2 (Gen.iblk m c 2 t)))
  iapply (Entails.of_eq (congrArg (owns (c : Thread nD τ) M fullShare) e.symm))
  iexact H

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: each buffer stated on the part its window's transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp Idealize.ShloMosaic.frame (wpE (defs₀ (F := Ideal)) 𝒱₀ c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _
    (win0_0.fill (grid0.coords t) d0 (Gen.iblk m c 0 t)) (win0_1.fill (grid0.coords t) d1 (Gen.iblk m c 1 t))
    (win0_2.fill (grid0.coords t) d2 (Gen.iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (X0 m c t) = Gen.iblk m c 0 t from win0_0.cut_fill _ _ _]
    iexact H0
  isplitl [H1]
  · iexists d1
    rw [show win0_1.cut (grid0.coords t) (X1 m c t) = Gen.iblk m c 1 t from win0_1.cut_fill _ _ _]
    iexact H1
  isplitl [H2]
  · iexists d2
    rw [show win0_2.cut (grid0.coords t) (X2 m c t) = Gen.iblk m c 2 t from win0_2.cut_fill _ _ _]
    iexact H2
  · iapply (leaves_3 m c t _ d0 d1 d2)
    iexact H3

/-- The library's body obligation, at every point. -/
theorem body_obligation (c : Dev nD) : BodyObligationLoose (dats m 0 c) (defs₀ (F := Ideal)) 𝒱₀ () Set.univ := fun t => by
  rw [bigSep_W0, bigSep_W0]
  exact sound_body m c t

/-! ## The run -/

set_option backward.isDefEq.respectTransparency.types false in
/-- At the compiled mesh, for any values, from any memory with zero counters: every weakly fair execution of @main on
    the TensorCores terminates, and every final state has every array of the pipeline at what the library computes
    from the proof data and every other unscoped buffer as the lines after the region leave it. -/
theorem run_main :
    θ_run (defs (F := Ideal)) (onTc (τ := τ) (main (F := Ideal))) (s₀ m ρ)
      (Pipeline.FramePost cfgs (dats m) 0 (Pipeline.afterTail₀ cfgs (dats m) 0 (Gen.V0 m) [hostOps1])) := by
  refine Pipeline.θ_run_frame_around cfgs (dats m) (0 : Fin 1) Gen.launch0 defs₀ 𝒱₀ m ρ main ?hbody ?hshare ?howed
    (Gen.V0 m) [hostOps1] ?hsub ?hfresh ?hkeep ?hmain ?hA ?hΦ
  case hbody => exact fun c => body_obligation m c
  case hshare => exact fun c => (dats m 0 c).share_full fun _ => rfl
  case howed => exact fun _ _ => rfl
  case hsub => exact Gen.sfx_sub
  case hfresh => exact Gen.sfx_fresh
  case hkeep => exact Gen.sfx_keeps
  case hmain => exact Gen.hmain m 𝒱₀
  case hA => intro c w; rfl
  case hΦ => intro c t; rfl

/-- The frame claim: the argument arrays end as launched. -/
theorem frame : Cert.frame_KernelIdeal :=
  fun m ρ _ => Gen.frame_of m ρ (dats m) (fun _ _ => rfl) (run_main m ρ)

end Cert.KernelIdeal.Hand

end
-- ==== Proof.KIFlushed.lean ====
/-
  What a point of the idealized kernel's grid writes back, element by element, read off the operand arrays.

  At point `t` the output block's part inside the array has all eight rows and the lanes `λ` with
  `t * 32768 + λ < 1000000`. The body's result at row `r = f * 4 + l` and lane `λ` reads the three input buffers at
  lane `λ` only (level `l`, feature `f`, every neighbour `n`). The input windows' blocks are cut at the same lanes as
  the output's (their other axes are whole), so at such a lane each input buffer holds its array's block, whatever
  filled it out past the array's end; and the block at point `t` sits in the array at offset `t * 32768` along the
  long axis and at offset 0 on the others. Hence the written-back element is
      (∑ n < 8, A44[l, f, n, p] * A37[l, n, p]) + A48[l, f, p]      with  p = t * 32768 + λ.
-/
import proofs.«404629_j77764677862011_3_alg».proof.Proof.KIData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx
open Idealize.ShloMosaic.TcCoe
open Idealize.SL Idealize.SL.Sem
open Idealize.ShloMosaic.Pipeline (Dat Cfg Window)
open scoped BigOperators

variable (m : (ℓ : Loc nD τ sig) → Buf (Elt Ideal) ℓ)

/-! ## The input windows over the grid -/

/-- The parts of the input windows' blocks inside their arrays at a point: every row, and the output block's lanes. -/
theorem fl_xsize : ∀ t : Fin cfg0.N,
    (win0_0.xsize (grid0.coords t) 0 = 4 ∧ win0_0.xsize (grid0.coords t) 1 = 2 ∧ win0_0.xsize (grid0.coords t) 2 = 8
      ∧ win0_0.xsize (grid0.coords t) 3 = win0_3.xsize (grid0.coords t) 1)
    ∧ (win0_1.xsize (grid0.coords t) 0 = 4 ∧ win0_1.xsize (grid0.coords t) 1 = 8
      ∧ win0_1.xsize (grid0.coords t) 2 = win0_3.xsize (grid0.coords t) 1)
    ∧ (win0_2.xsize (grid0.coords t) 0 = 4 ∧ win0_2.xsize (grid0.coords t) 1 = 2
      ∧ win0_2.xsize (grid0.coords t) 2 = win0_3.xsize (grid0.coords t) 1) :=
  (by decide +kernel : ∀ t : Fin grid0.N,
    (win0_0.xsize (grid0.coords t) 0 = 4 ∧ win0_0.xsize (grid0.coords t) 1 = 2 ∧ win0_0.xsize (grid0.coords t) 2 = 8
      ∧ win0_0.xsize (grid0.coords t) 3 = win0_3.xsize (grid0.coords t) 1)
    ∧ (win0_1.xsize (grid0.coords t) 0 = 4 ∧ win0_1.xsize (grid0.coords t) 1 = 8
      ∧ win0_1.xsize (grid0.coords t) 2 = win0_3.xsize (grid0.coords t) 1)
    ∧ (win0_2.xsize (grid0.coords t) 0 = 4 ∧ win0_2.xsize (grid0.coords t) 1 = 2
      ∧ win0_2.xsize (grid0.coords t) 2 = win0_3.xsize (grid0.coords t) 1))

/-- The index maps over the grid: block `t` along the long axis, block 0 on the others. -/
theorem fl_index : ∀ t : Fin cfg0.N,
    (win0_0.index t (0 : Fin 4) = 0 ∧ win0_0.index t (1 : Fin 4) = 0 ∧ win0_0.index t (2 : Fin 4) = 0
      ∧ win0_0.index t (3 : Fin 4) = t.val)
    ∧ (win0_1.index t (0 : Fin 3) = 0 ∧ win0_1.index t (1 : Fin 3) = 0 ∧ win0_1.index t (2 : Fin 3) = t.val)
    ∧ (win0_2.index t (0 : Fin 3) = 0 ∧ win0_2.index t (1 : Fin 3) = 0 ∧ win0_2.index t (2 : Fin 3) = t.val) :=
  (by decide +kernel : ∀ t : Fin grid0.N,
    (win0_0.index t (0 : Fin 4) = 0 ∧ win0_0.index t (1 : Fin 4) = 0 ∧ win0_0.index t (2 : Fin 4) = 0
      ∧ win0_0.index t (3 : Fin 4) = t.val)
    ∧ (win0_1.index t (0 : Fin 3) = 0 ∧ win0_1.index t (1 : Fin 3) = 0 ∧ win0_1.index t (2 : Fin 3) = t.val)
    ∧ (win0_2.index t (0 : Fin 3) = 0 ∧ win0_2.index t (1 : Fin 3) = 0 ∧ win0_2.index t (2 : Fin 3) = t.val))

/-! ## The first operand -/

/-- The index of the first operand's block, inside the array, at level `l`, feature `f`, neighbour `n` and a lane
    inside the array. -/
def fl_y0 (t : Fin cfg0.N) (l : Fin 4) (f : Fin 2) (n : Fin 8) (lane : Fin 32768)
    (hl : lane.val < win0_3.xsize (grid0.coords t) 1) : (win0_0.xblock (grid0.coords t)).Idx := fun a =>
  match a with
  | ⟨0, _⟩ => ⟨l.val, by show l.val < win0_0.xsize (grid0.coords t) 0; rw [(fl_xsize t).1.1]; exact l.isLt⟩
  | ⟨1, _⟩ => ⟨f.val, by show f.val < win0_0.xsize (grid0.coords t) 1; rw [(fl_xsize t).1.2.1]; exact f.isLt⟩
  | ⟨2, _⟩ => ⟨n.val, by show n.val < win0_0.xsize (grid0.coords t) 2; rw [(fl_xsize t).1.2.2.1]; exact n.isLt⟩
  | ⟨3, _⟩ => ⟨lane.val, by show lane.val < win0_0.xsize (grid0.coords t) 3; rw [(fl_xsize t).1.2.2.2]; exact hl⟩

theorem fl_xinj0 (t : Fin cfg0.N) (l : Fin 4) (f : Fin 2) (n : Fin 8) (lane : Fin 32768)
    (hl : lane.val < win0_3.xsize (grid0.coords t) 1) :
    win0_0.xinj (grid0.coords t) (fl_y0 t l f n lane hl) = ix4 l f n lane := by
  funext a; apply Fin.ext
  match a with
  | ⟨0, _⟩ => rfl
  | ⟨1, _⟩ => rfl
  | ⟨2, _⟩ => rfl
  | ⟨3, _⟩ => rfl

/-- Where that element sits in the array. -/
theorem fl_emb0 (t : Fin cfg0.N) (l : Fin 4) (f : Fin 2) (n : Fin 8) (lane : Fin 32768)
    (hl : lane.val < win0_3.xsize (grid0.coords t) 1) (p : Fin 1000000) (hp : p.val = t.val * 32768 + lane.val) :
    (win0_0.rect t).emb (fl_y0 t l f n lane hl) = ix4 l f n p := by
  obtain ⟨⟨e0, e1, e2, e3⟩, -, -⟩ := fl_index t
  have r0 := win0_0.rect_emb_val t (fl_y0 t l f n lane hl) (0 : Fin 4)
  have r1 := win0_0.rect_emb_val t (fl_y0 t l f n lane hl) (1 : Fin 4)
  have r2 := win0_0.rect_emb_val t (fl_y0 t l f n lane hl) (2 : Fin 4)
  have r3 := win0_0.rect_emb_val t (fl_y0 t l f n lane hl) (3 : Fin 4)
  rw [e0] at r0; rw [e1] at r1; rw [e2] at r2; rw [e3] at r3
  funext a; apply Fin.ext
  match a with
  | ⟨0, _⟩ => show ((win0_0.rect t).emb _ (0 : Fin 4) : Nat) = l.val; rw [r0]; show 0 * _ + l.val = l.val; omega
  | ⟨1, _⟩ => show ((win0_0.rect t).emb _ (1 : Fin 4) : Nat) = f.val; rw [r1]; show 0 * _ + f.val = f.val; omega
  | ⟨2, _⟩ => show ((win0_0.rect t).emb _ (2 : Fin 4) : Nat) = n.val; rw [r2]; show 0 * _ + n.val = n.val; omega
  | ⟨3, _⟩ => show ((win0_0.rect t).emb _ (3 : Fin 4) : Nat) = p.val; rw [r3, hp]; rfl

/-- An element of the first operand's block is the array's element where the block's rectangle puts it, whatever the
    array holds. -/
theorem fl_read0 (c : Dev nD) (t : Fin cfg0.N) (A : Buf (Elt Ideal) ((c : Thread nD τ).loc main_v44))
    (y : (win0_0.xblock (grid0.coords t)).Idx) :
    (win0_0.blk t).view.read (Elt Ideal) A y = A ((win0_0.rect t).emb y) := rfl

/-- An element of the first operand's buffer at a lane inside the array is the array's element at the block's offset
    plus the lane. -/
theorem fl_X0 (c : Dev nD) (t : Fin cfg0.N) (l : Fin 4) (f : Fin 2) (n : Fin 8) (lane : Fin 32768)
    (hl : lane.val < win0_3.xsize (grid0.coords t) 1) (p : Fin 1000000) (hp : p.val = t.val * 32768 + lane.val) :
    X0 m c t (ix4 l f n lane) = arr44 m c (ix4 l f n p) := by
  rw [← fl_xinj0 t l f n lane hl]
  unfold X0
  rw [win0_0.fill_xinj]
  exact (fl_read0 c t (Gen.V m c main_v44) (fl_y0 t l f n lane hl)).trans
    (congrArg (arr44 m c) (fl_emb0 t l f n lane hl p hp))

/-! ## The second operand -/

/-- The index of the second operand's block, inside the array, at level `l`, neighbour `n` and a lane inside the array. -/
def fl_y1 (t : Fin cfg0.N) (l : Fin 4) (n : Fin 8) (lane : Fin 32768)
    (hl : lane.val < win0_3.xsize (grid0.coords t) 1) : (win0_1.xblock (grid0.coords t)).Idx := fun a =>
  match a with
  | ⟨0, _⟩ => ⟨l.val, by show l.val < win0_1.xsize (grid0.coords t) 0; rw [(fl_xsize t).2.1.1]; exact l.isLt⟩
  | ⟨1, _⟩ => ⟨n.val, by show n.val < win0_1.xsize (grid0.coords t) 1; rw [(fl_xsize t).2.1.2.1]; exact n.isLt⟩
  | ⟨2, _⟩ => ⟨lane.val, by show lane.val < win0_1.xsize (grid0.coords t) 2; rw [(fl_xsize t).2.1.2.2]; exact hl⟩

theorem fl_xinj1 (t : Fin cfg0.N) (l : Fin 4) (n : Fin 8) (lane : Fin 32768)
    (hl : lane.val < win0_3.xsize (grid0.coords t) 1) :
    win0_1.xinj (grid0.coords t) (fl_y1 t l n lane hl) = ix3 l n lane := by
  funext a; apply Fin.ext
  match a with
  | ⟨0, _⟩ => rfl
  | ⟨1, _⟩ => rfl
  | ⟨2, _⟩ => rfl

/-- Where that element sits in the array. -/
theorem fl_emb1 (t : Fin cfg0.N) (l : Fin 4) (n : Fin 8) (lane : Fin 32768)
    (hl : lane.val < win0_3.xsize (grid0.coords t) 1) (p : Fin 1000000) (hp : p.val = t.val * 32768 + lane.val) :
    (win0_1.rect t).emb (fl_y1 t l n lane hl) = ix3 l n p := by
  obtain ⟨-, ⟨e0, e1, e2⟩, -⟩ := fl_index t
  have r0 := win0_1.rect_emb_val t (fl_y1 t l n lane hl) (0 : Fin 3)
  have r1 := win0_1.rect_emb_val t (fl_y1 t l n lane hl) (1 : Fin 3)
  have r2 := win0_1.rect_emb_val t (fl_y1 t l n lane hl) (2 : Fin 3)
  rw [e0] at r0; rw [e1] at r1; rw [e2] at r2
  funext a; apply Fin.ext
  match a with
  | ⟨0, _⟩ => show ((win0_1.rect t).emb _ (0 : Fin 3) : Nat) = l.val; rw [r0]; show 0 * _ + l.val = l.val; omega
  | ⟨1, _⟩ => show ((win0_1.rect t).emb _ (1 : Fin 3) : Nat) = n.val; rw [r1]; show 0 * _ + n.val = n.val; omega
  | ⟨2, _⟩ => show ((win0_1.rect t).emb _ (2 : Fin 3) : Nat) = p.val; rw [r2, hp]; rfl

/-- An element of the second operand's block is the array's element where the block's rectangle puts it, whatever
    the array holds. -/
theorem fl_read1 (c : Dev nD) (t : Fin cfg0.N) (A : Buf (Elt Ideal) ((c : Thread nD τ).loc main_v37))
    (y : (win0_1.xblock (grid0.coords t)).Idx) :
    (win0_1.blk t).view.read (Elt Ideal) A y = A ((win0_1.rect t).emb y) := rfl

/-- An element of the second operand's buffer at a lane inside the array is the array's element at the block's offset
    plus the lane. -/
theorem fl_X1 (c : Dev nD) (t : Fin cfg0.N) (l : Fin 4) (n : Fin 8) (lane : Fin 32768)
    (hl : lane.val < win0_3.xsize (grid0.coords t) 1) (p : Fin 1000000) (hp : p.val = t.val * 32768 + lane.val) :
    X1 m c t (ix3 l n lane) = arr37 m c (ix3 l n p) := by
  rw [← fl_xinj1 t l n lane hl]
  unfold X1
  rw [win0_1.fill_xinj]
  exact (fl_read1 c t (Gen.V m c main_v37) (fl_y1 t l n lane hl)).trans
    (congrArg (arr37 m c) (fl_emb1 t l n lane hl p hp))

/-! ## The third operand -/

/-- The index of the third operand's block, inside the array, at level `l`, feature `f` and a lane inside the array. -/
def fl_y2 (t : Fin cfg0.N) (l : Fin 4) (f : Fin 2) (lane : Fin 32768)
    (hl : lane.val < win0_3.xsize (grid0.coords t) 1) : (win0_2.xblock (grid0.coords t)).Idx := fun a =>
  match a with
  | ⟨0, _⟩ => ⟨l.val, by show l.val < win0_2.xsize (grid0.coords t) 0; rw [(fl_xsize t).2.2.1]; exact l.isLt⟩
  | ⟨1, _⟩ => ⟨f.val, by show f.val < win0_2.xsize (grid0.coords t) 1; rw [(fl_xsize t).2.2.2.1]; exact f.isLt⟩
  | ⟨2, _⟩ => ⟨lane.val, by show lane.val < win0_2.xsize (grid0.coords t) 2; rw [(fl_xsize t).2.2.2.2]; exact hl⟩

theorem fl_xinj2 (t : Fin cfg0.N) (l : Fin 4) (f : Fin 2) (lane : Fin 32768)
    (hl : lane.val < win0_3.xsize (grid0.coords t) 1) :
    win0_2.xinj (grid0.coords t) (fl_y2 t l f lane hl) = ix3 l f lane := by
  funext a; apply Fin.ext
  match a with
  | ⟨0, _⟩ => rfl
  | ⟨1, _⟩ => rfl
  | ⟨2, _⟩ => rfl

/-- Where that element sits in the array. -/
theorem fl_emb2 (t : Fin cfg0.N) (l : Fin 4) (f : Fin 2) (lane : Fin 32768)
    (hl : lane.val < win0_3.xsize (grid0.coords t) 1) (p : Fin 1000000) (hp : p.val = t.val * 32768 + lane.val) :
    (win0_2.rect t).emb (fl_y2 t l f lane hl) = ix3 l f p := by
  obtain ⟨-, -, ⟨e0, e1, e2⟩⟩ := fl_index t
  have r0 := win0_2.rect_emb_val t (fl_y2 t l f lane hl) (0 : Fin 3)
  have r1 := win0_2.rect_emb_val t (fl_y2 t l f lane hl) (1 : Fin 3)
  have r2 := win0_2.rect_emb_val t (fl_y2 t l f lane hl) (2 : Fin 3)
  rw [e0] at r0; rw [e1] at r1; rw [e2] at r2
  funext a; apply Fin.ext
  match a with
  | ⟨0, _⟩ => show ((win0_2.rect t).emb _ (0 : Fin 3) : Nat) = l.val; rw [r0]; show 0 * _ + l.val = l.val; omega
  | ⟨1, _⟩ => show ((win0_2.rect t).emb _ (1 : Fin 3) : Nat) = f.val; rw [r1]; show 0 * _ + f.val = f.val; omega
  | ⟨2, _⟩ => show ((win0_2.rect t).emb _ (2 : Fin 3) : Nat) = p.val; rw [r2, hp]; rfl

/-- An element of the third operand's block is the array's element where the block's rectangle puts it, whatever the
    array holds. -/
theorem fl_read2 (c : Dev nD) (t : Fin cfg0.N) (A : Buf (Elt Ideal) ((c : Thread nD τ).loc main_v48))
    (y : (win0_2.xblock (grid0.coords t)).Idx) :
    (win0_2.blk t).view.read (Elt Ideal) A y = A ((win0_2.rect t).emb y) := rfl

/-- An element of the third operand's buffer at a lane inside the array is the array's element at the block's offset
    plus the lane. -/
theorem fl_X2 (c : Dev nD) (t : Fin cfg0.N) (l : Fin 4) (f : Fin 2) (lane : Fin 32768)
    (hl : lane.val < win0_3.xsize (grid0.coords t) 1) (p : Fin 1000000) (hp : p.val = t.val * 32768 + lane.val) :
    X2 m c t (ix3 l f lane) = arr48 m c (ix3 l f p) := by
  rw [← fl_xinj2 t l f lane hl]
  unfold X2
  rw [win0_2.fill_xinj]
  exact (fl_read2 c t (Gen.V m c main_v48) (fl_y2 t l f lane hl)).trans
    (congrArg (arr48 m c) (fl_emb2 t l f lane hl p hp))

/-! ## What a point writes back -/

/-- What point `t` writes back, element by element, from the arrays as the region finds them. -/
theorem flushed3 (c : Dev nD) (t : Fin cfg0.N) (j : (win0_3.xblock (grid0.coords t)).Idx) :
    win0_3.cut (grid0.coords t) ((dats m 0 c).after 3 t) j
      = (∑ n : Fin 8, arr44 m c (ix4 (lvlOf t j) (featOf t j) n (posOf t j)) * arr37 m c (ix3 (lvlOf t j) n (posOf t j)))
        + arr48 m c (ix3 (lvlOf t j) (featOf t j) (posOf t j)) := by
  rw [after0_3]
  have hl : ((win0_3.xinj (grid0.coords t) j) 1).val < win0_3.xsize (grid0.coords t) 1 := (j 1).isLt
  show outOf (X0 m c t) (X1 m c t) (X2 m c t) (win0_3.xinj (grid0.coords t) j) = _
  unfold outOf
  exact congrArg₂ (· + ·)
    (Finset.sum_congr rfl fun n _ => congrArg₂ (· * ·)
      (fl_X0 m c t (lvlOf t j) (featOf t j) n _ hl (posOf t j) rfl)
      (fl_X1 m c t (lvlOf t j) n _ hl (posOf t j) rfl))
    (fl_X2 m c t (lvlOf t j) (featOf t j) _ hl (posOf t j) rfl)

end Cert.KernelIdeal.Hand
end
-- ==== Proof.KIValue.lean ====
/-
  The idealized kernel's result, entry by entry, over the arrays the pipelined region is entered with.

  The region writes an output array of 8 rows and 1,000,000 lanes through 31 blocks of 32768 lanes, the last cut at
  the array's end (1,000,000 = 30 * 32768 + 16960); the one host line after it transposes that array. Row `r` holds
  level `r % 4` of feature `r / 4`. What point `t` writes back at block element `(r, x)` is
      (∑ n < 8, gathered[l, f, n, p] * weight[l, n, p]) + own[l, f, p],   l = r % 4, f = r / 4, p = t * 32768 + x
  (the proof data's block value). Three steps:
    * every index `(r, p)` of the output array lies in the block of point `p / 32768` — on the row axis every block is
      the whole axis, on the lane axis the blocks' parts inside the array are `[t * 32768, min ((t + 1) * 32768) 1000000)` —,
      and an element of a block sits in the array at its own row and at lane `t * 32768` plus its own lane: so after the
      last write-back the array holds, at `(r, p)`, the sum above at `r`'s level and feature and at `p` (whichever point
      wrote the index last wrote that value: no disjointness of the blocks is needed);
    * the transposed result at `(p, j)` is that array at `(j, p)`;
    * together: the result at `(p, j)` is the sum at level `j % 4`, feature `j / 4`, position `p`.
-/
import proofs.«404629_j77764677862011_3_alg».proof.Proof.KIData
import proofs.«404629_j77764677862011_3_alg».proof.Proof.KIFlushed
import proofs.«404629_j77764677862011_3_alg».proof.Proof.Spec
import Idealize.ShloMosaic.Lib.Pipeline.Value
import Idealize.ShloMosaic.Lib.ValueIdx
import Idealize.ShloMosaic.Lib.StableHlo.Run

-- the output array's long axis has 1,000,000 coordinates: membership in a rectangle of it is looked through that deep
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The output window's blocks -/

/-- The output window over the grid: on the row axis every block is the whole axis (block index 0, all 8 rows);
    on the lane axis the block index is the point and the block's extent inside the array is 32768 lanes, cut at
    the array's end (1,000,000 = 30 * 32768 + 16960). -/
theorem out_blocks : ∀ t : Fin grid0.N, win0_3.index t 0 = 0 ∧ win0_3.index t 1 = t.val
    ∧ win0_3.xsize (grid0.coords t) 0 = 8
    ∧ win0_3.xsize (grid0.coords t) 1 = min 32768 (1000000 - t.val * 32768) := by decide +kernel

/-- An element of the output block at point `t` sits in the array at the same row and at lane `t * 32768` plus its own. -/
theorem out_emb (t : Fin cfg0.N) (y : (win0_3.xblock (grid0.coords t)).Idx) :
    ((((cfg0.win 3).blk t).view.emb y : S8x1000000.Idx) 0).val = (y 0).val
    ∧ ((((cfg0.win 3).blk t).view.emb y : S8x1000000.Idx) 1).val = t.val * 32768 + (y 1).val := by
  obtain ⟨h0, h1, -, -⟩ := out_blocks t
  have e0 := win0_3.rect_emb_val t y 0
  have e1 := win0_3.rect_emb_val t y 1
  rw [h0] at e0; rw [h1] at e1
  refine ⟨?_, ?_⟩
  · show ((win0_3.rect t).emb y 0 : Nat) = _
    rw [e0]; omega
  · show ((win0_3.rect t).emb y 1 : Nat) = _
    rw [e1]; rfl

/-- Every index of the output array lies in the block of the point that holds its lane, `lane / 32768`. -/
theorem out_cover (i : S8x1000000.Idx) :
    ∃ t : Fin cfg0.N, (cfg0.win 3).flush t = true ∧ i ∈ ((cfg0.win 3).blk t).view.set := by
  have h0 : (i 0).val < 8 := (i 0).isLt
  have h1 : (i 1).val < 1000000 := (i 1).isLt
  have ht : (i 1).val / 32768 < 31 := by omega
  refine ⟨⟨(i 1).val / 32768, ht⟩, flush0_3 _, ?_⟩
  obtain ⟨e0, e1, x0, x1⟩ := out_blocks ⟨(i 1).val / 32768, ht⟩
  show i ∈ ((View.whole main_v49).slice (win0_3.rect ⟨(i 1).val / 32768, ht⟩)).set
  rw [View.set_slice_whole, Rect.mem_set_unit]
  intro a
  match a with
  | ⟨0, _⟩ =>
    change win0_3.index _ 0 * 8 ≤ (i 0 : Nat) ∧ (i 0 : Nat) < win0_3.index _ 0 * 8 + win0_3.xsize (grid0.coords _) 0
    rw [e0, x0]; omega
  | ⟨1, _⟩ =>
    change win0_3.index _ 1 * 32768 ≤ (i 1 : Nat) ∧ (i 1 : Nat) < win0_3.index _ 1 * 32768 + win0_3.xsize (grid0.coords _) 1
    rw [e1, x1]; show (i 1).val / 32768 * 32768 ≤ _ ∧ _ < (i 1).val / 32768 * 32768 + min 32768 (1000000 - (i 1).val / 32768 * 32768)
    omega

section Array
variable {c : Dev nD} (dat : Dat τ (Elt Ideal) Unit ℕ (UR sig nD τ) ℕ (cfgs 0) c)

/-- THE OUTPUT ARRAY AFTER THE RUN. If what each point writes back is, at block element `(r, x)`, a value `g` of the
    row's level `r % 4`, its feature `r / 4` and the element's lane in the array `t * 32768 + x`, then the array
    ends holding `g` of each index's own level, feature and lane: every index lies in some point's block, and
    whichever point wrote it last wrote that value. -/
theorem out_array (g : Fin 4 → Fin 2 → Fin 1000000 → EReal)
    (hfl : ∀ (t : Fin cfg0.N) (y : (win0_3.xblock (grid0.coords t)).Idx) (l : Fin 4) (f : Fin 2) (b : Fin 1000000),
      l.val = (y 0).val % 4 → f.val = (y 0).val / 4 → b.val = t.val * 32768 + (y 1).val →
      win0_3.cut (grid0.coords t) (dat.after 3 t) y = g l f b)
    (r : Fin 8) (b : Fin 1000000) :
    (dat.arrAt 3 cfg0.N : S8x1000000.Idx → EReal) (ix2 r b) = g (Cert.Spec.lvl r) (Cert.Spec.feat r) b := by
  have key := dat.arrAt_forall_of_cover 3
    (fun (i : S8x1000000.Idx) (v : EReal) =>
      v = g ⟨(i 0).val % 4, Nat.mod_lt _ (by decide)⟩ ⟨(i 0).val / 4, by have := (i 0).isLt; show _ < 2; have h : (i 0).val < 8 := this; omega⟩ (i 1))
    (fun t _ y => by
      obtain ⟨e0, e1⟩ := out_emb t y
      show dat.flushed 3 t y = _
      exact hfl t y _ _ _ (by show _ % 4 = _; rw [e0]) (by show _ / 4 = _; rw [e0]) e1)
    out_cover (ix2 r b)
  exact key
end Array

/-! ## The host line after the region -/

section Tail
variable (m : (ℓ : Loc nD τ sig) → Buf (Elt Ideal) ℓ)
variable (dats : (p : Fin 1) → (c : Dev nD) → Dat τ (Elt Ideal) Unit ℕ (UR sig nD τ) ℕ (cfgs p) c)

/-- THE TAIL. The one host line after the region transposes the output array: the result at `(b, j)` is the output
    array after the run at `(j, b)`. -/
theorem tail_read (c : Dev nD) (b : Fin 1000000) (j : Fin 8) :
    (Pipeline.afterTail₀ cfgs dats 0 (Gen.V0 m) [hostOps1] c main_v50 : S1000000x8.Idx → EReal) (ix2 b j)
      = ((dats 0 c).arrAt 3 cfg0.N : S8x1000000.Idx → EReal) (ix2 j b) := by
  unfold Pipeline.afterTail₀
  simp only [List.flatten_cons, List.flatten_nil, List.append_nil]
  after_results
  refine (transpose_apply [1, 0] _ transposes_S8x1000000_S1000000x8_1_0 (ix2 b j) (ix2 j b) fun a => ?_).trans ?_
  · match a with
    | ⟨0, _⟩ => rfl
    | ⟨1, _⟩ => rfl
  · exact congrFun (Pipeline.withArrays_arr spec0 launch0.win.arr_inj c (V0 m c) (fun w => (dats 0 c).arrAt w cfg0.N) 3) (ix2 j b)
end Tail

/-! ## The result -/

/-- THE KERNEL'S RESULT at `(b, j)`: the weighted sum over the 8 neighbours of the gathered rows, plus the pixel's own
    gathered row, at level `j % 4`, feature `j / 4` and pixel `b` — the transposed output array (`tail_read`) read
    through the blocks the points wrote back (`out_array` at the proof data's block value, whose level, feature and
    position are the row's `% 4`, `/ 4` and the lane's place in the array). -/
theorem kernel_result (m : (ℓ : Loc nD τ sig) → Buf (Elt Ideal) ℓ) (c : Dev nD) (b : Fin 1000000) (j : Fin 8) :
    (Pipeline.afterTail₀ cfgs (dats m) 0 (Gen.V0 m) [hostOps1] c main_v50 : S1000000x8.Idx → EReal) (ix2 b j)
      = (∑ n : Fin 8, arr44 m c (ix4 (Cert.Spec.lvl j) (Cert.Spec.feat j) n b) * arr37 m c (ix3 (Cert.Spec.lvl j) n b))
        + arr48 m c (ix3 (Cert.Spec.lvl j) (Cert.Spec.feat j) b) := by
  refine (tail_read m (dats m) c b j).trans ?_
  exact out_array (dats m 0 c)
    (fun l f p => (∑ n : Fin 8, arr44 m c (ix4 l f n p) * arr37 m c (ix3 l n p)) + arr48 m c (ix3 l f p))
    (fun t y l f p hl hf hp => by
      have el : lvlOf t y = l := Fin.ext (by show (y 0).val % 4 = l.val; omega)
      have ef : featOf t y = f := Fin.ext (by show (y 0).val / 4 = f.val; omega)
      have ep : posOf t y = p := Fin.ext (by show t.val * 32768 + (y 1).val = p.val; omega)
      have e := flushed3 m c t y
      rw [el, ef, ep] at e
      exact e) j b

end Cert.KernelIdeal.Hand

end
-- ==== Proof.LibMinFold.lean ====
/-
  A minimum over a whole array, as a fold of `min` over its index set. A reduction by the minimum over every axis, into
  the scalar shape, folds `min` from the initial value over all entries, in any order. For the neighbour axis laid out
  flat (position n * 1000000 + b for neighbour n of pixel b) the same fold is re-indexed along the bijection
  (l, n, b) ↦ (l, n * 1000000 + b), so that both layouts give one and the same fold over (l, n, b); with every entry a
  planar distance and the initial value +inf, that fold is the specification's minimum of all distances.
-/
import Idealize.ShloMosaic.PureOps.Reduce
import Idealize.ShloMosaic.PureOps.Ideal.Laws
import Idealize.ShloMosaic.Lib.ValueIdx
import proofs.«404629_j77764677862011_3_alg».proof.Proof.Spec

noncomputable section

namespace Cert.LibMinFold

open Idealize.ShloMosaic Idealize.ShloMosaic.ValueIdx

/-- The scalar shape and the neighbour axis laid out flat. -/
abbrev S0 : Shape := ⟨0, ![]⟩
abbrev SFlat : Shape := ⟨2, ![4, 8000000]⟩

/-- Every index of the scalar shape is the one index. -/
theorem idx0_eq (i j : S0.Idx) : i = j := funext fun a => a.elim0

/-- The flat position of entry (l, n, b). -/
def toFlat (i : Cert.Spec.SNbrIdx.Idx) : SFlat.Idx := ix2 (i 0) (Cert.Spec.flat (i 1) (i 2))

/-- Distinct entries have distinct flat positions: b < 1000000, so n * 1000000 + b determines n and b. -/
theorem toFlat_injective : Function.Injective toFlat := by
  intro i i' e
  have e0 : i 0 = i' 0 := congrFun e 0
  have e1 : (i 1).val * 1000000 + (i 2).val = (i' 1).val * 1000000 + (i' 2).val := congrArg Fin.val (congrFun e 1)
  have h2 := (i 2).isLt
  have h2' := (i' 2).isLt
  have hb : (i 2).val < 1000000 := h2
  have hb' : (i' 2).val < 1000000 := h2'
  rw [eq_ix3 i, eq_ix3 i']
  have a1 : i 1 = i' 1 := Fin.ext (by omega)
  have a2 : i 2 = i' 2 := Fin.ext (by omega)
  rw [e0, a1, a2]

/-- Every flat position q is that of the entry n = q / 1000000, b = q % 1000000. -/
theorem toFlat_surjective : Function.Surjective toFlat := by
  intro j
  have hq : (j 1).val < 8000000 := (j 1).isLt
  refine ⟨ix3 (j 0) ⟨(j 1).val / 1000000, by omega⟩ ⟨(j 1).val % 1000000, Nat.mod_lt _ (by norm_num)⟩, ?_⟩
  funext a
  match a with
  | ⟨0, _⟩ => rfl
  | ⟨1, _⟩ => exact Fin.ext (by show (j 1).val / 1000000 * 1000000 + (j 1).val % 1000000 = (j 1).val; omega)

variable {φ : FTy}

/-- The minimum over all of a [4, 8, 1000000] array: the fold of `min` from the initial value over every entry. -/
theorem reduce_min_nbr (x : Cert.Spec.SNbrIdx.Idx → EReal) (init : S0.Idx → EReal)
    (h : Cert.Spec.SNbrIdx.ReducesTo [0, 1, 2] S0) (hu : 0 < S0.numel) :
    Host.reduce (FloatOps.minimumf (F := Ideal) (φ := φ)) x init h hu ix0
      = (Finset.univ : Finset Cert.Spec.SNbrIdx.Idx).fold min (init (Shape.Idx.first hu)) x := by
  rw [Host.reduce_eq_fold, Finset.filter_true_of_mem (fun i _ => idx0_eq _ _)]
  rfl

/-- The minimum over all of a [4, 8000000] array: the same fold over (l, n, b), reading the flat position. -/
theorem reduce_min_flat (x : SFlat.Idx → EReal) (init : S0.Idx → EReal)
    (h : SFlat.ReducesTo [0, 1] S0) (hu : 0 < S0.numel) :
    Host.reduce (FloatOps.minimumf (F := Ideal) (φ := φ)) x init h hu ix0
      = (Finset.univ : Finset Cert.Spec.SNbrIdx.Idx).fold min (init (Shape.Idx.first hu))
          (fun i => x (ix2 (i 0) (Cert.Spec.flat (i 1) (i 2)))) := by
  classical
  rw [Host.reduce_eq_fold, Finset.filter_true_of_mem (fun i _ => idx0_eq _ _),
    ← Finset.image_univ_of_surjective toFlat_surjective, Finset.fold_image (fun a _ b _ e => toFlat_injective e)]
  rfl

/-- With every entry the planar distance and the initial value +inf, the minimum is the specification's. -/
theorem reduce_min_nbr_dmin (pixLL : Cert.Spec.SPixLL.Idx → EReal) (nbrLL : Cert.Spec.SNbrLL.Idx → EReal)
    (x : Cert.Spec.SNbrIdx.Idx → EReal) (init : S0.Idx → EReal)
    (h : Cert.Spec.SNbrIdx.ReducesTo [0, 1, 2] S0) (hu : 0 < S0.numel)
    (hx : ∀ l n b, x (ix3 l n b) = Cert.Spec.dist pixLL nbrLL l n b)
    (hi : init (Shape.Idx.first hu) = Cert.Spec.pinf) :
    Host.reduce (FloatOps.minimumf (F := Ideal) (φ := φ)) x init h hu ix0 = Cert.Spec.dmin pixLL nbrLL := by
  rw [reduce_min_nbr, hi]
  exact congrArg (fun f => Finset.fold min Cert.Spec.pinf f Finset.univ)
    (funext fun i => (congrArg x (eq_ix3 i)).trans (hx (i 0) (i 1) (i 2)))

/-- The same from the flat layout. -/
theorem reduce_min_flat_dmin (pixLL : Cert.Spec.SPixLL.Idx → EReal) (nbrLL : Cert.Spec.SNbrLL.Idx → EReal)
    (x : SFlat.Idx → EReal) (init : S0.Idx → EReal)
    (h : SFlat.ReducesTo [0, 1] S0) (hu : 0 < S0.numel)
    (hx : ∀ l n b, x (ix2 l (Cert.Spec.flat n b)) = Cert.Spec.dist pixLL nbrLL l n b)
    (hi : init (Shape.Idx.first hu) = Cert.Spec.pinf) :
    Host.reduce (FloatOps.minimumf (F := Ideal) (φ := φ)) x init h hu ix0 = Cert.Spec.dmin pixLL nbrLL := by
  rw [reduce_min_flat, hi]
  exact congrArg (fun f => Finset.fold min Cert.Spec.pinf f Finset.univ) (funext fun i => hx (i 0) (i 1) (i 2))

end Cert.LibMinFold

end
-- ==== Proof.KIHost.lean ====
/-
  The host prefix of the kernel's program, read at an index: what the three arrays the pallas_call reads hold when
  the region is entered, as the specification's terms of the argument arrays.

  * the gathered neighbour rows  (l, f, n, b) ↦ table[l, row(nbr l n b), f]      (module KIHostNbr);
  * the weights                  (l, n, b)    ↦ w l n b * keep l n b             (this module);
  * the gathered pixel rows      (l, f, b)    ↦ table[l, row(pix l b), f]        (module KIHostPix).

  The weight array is first written as the composition of the host operations that compute it, over named stages
  that are generic in the arrays they read; every stage is then read at an index.  The index arithmetic is that of
  row-major reshapes (neighbour n of pixel b sits at flat position n * 1000000 + b of the neighbour axis) and of
  broadcasts along new axes (the pixel's coordinates do not depend on the neighbour).  The minimum of all distances
  is the fold of min from +inf over every (level, neighbour, pixel).
-/
import proofs.«404629_j77764677862011_3_alg».proof.Proof.Gen.KernelIdeal.Frame
import proofs.«404629_j77764677862011_3_alg».proof.Proof.Spec
import proofs.«404629_j77764677862011_3_alg».proof.Proof.LibMinFold
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.Affine

noncomputable section

namespace Cert.KernelIdeal.Hand

open Idealize.ShloMosaic Idealize.ShloMosaic.TcCoe Idealize.ShloMosaic.ValueIdx
open Cert.KernelIdeal.Facts₀
open Idealize.ShloMosaic.StableHlo (after_cons after_nil)

/-! The stages, stretches and reads behind `v37_at` are kept in their own namespace. -/
namespace Wgt

/-! ## The stages, generic in the arrays they read -/

section Stages
variable (A1 : S4x1000000x2.Idx → EReal) (A2 : S4x8000000x2.Idx → EReal) (A4 : S4x8x1000000.Idx → BitVec 32)

/-- The mask of the missing neighbours: the index word is the sentinel. -/
def sMaskN : IVec S4x8x1000000 1 :=
  cmpi .eq A4 (broadcastInDim S4x8x1000000 ![] bcast_S_S4x8x1000000 (constantI S_ 32 4294967295#32))

/-- 1.0 on a present neighbour, 0.0 on a missing one. -/
def sKeep : FVec Ideal S4x8x1000000 .f32 := uitofp .f32 (noti (sMaskN A4))

/-- The neighbours' latitude (0) and longitude (1), as (4, 8, 1000000) arrays. -/
def sNbrLL0 : FVec Ideal S4x8x1000000 .f32 :=
  shapeCast S4x8x1000000
    (extractStridedSlice S4x8x1000000x1 ![0, 0, 0, 0]
      (shapeCast S4x8x1000000x2 A2 shapeCasts_S4x8000000x2_S4x8x1000000x2)
      slices_S4x8x1000000x2_S4x8x1000000x1_0_0_0_0)
    shapeCasts_S4x8x1000000x1_S4x8x1000000
def sNbrLL1 : FVec Ideal S4x8x1000000 .f32 :=
  shapeCast S4x8x1000000
    (extractStridedSlice S4x8x1000000x1 ![0, 0, 0, 1]
      (shapeCast S4x8x1000000x2 A2 shapeCasts_S4x8000000x2_S4x8x1000000x2)
      slices_S4x8x1000000x2_S4x8x1000000x1_0_0_0_1)
    shapeCasts_S4x8x1000000x1_S4x8x1000000

/-- The pixels' latitude and longitude, broadcast over the eight neighbours. -/
def sPixLL0 : FVec Ideal S4x8x1000000 .f32 :=
  broadcastInDim S4x8x1000000 ![0, 1, 2] bcast_S4x1x1000000_S4x8x1000000_0_1_2
    (broadcastInDim S4x1x1000000 ![0, 2] bcast_S4x1000000_S4x1x1000000_0_2
      (shapeCast S4x1000000 (extractStridedSlice S4x1000000x1 ![0, 0, 0] A1 slices_S4x1000000x2_S4x1000000x1_0_0_0)
        shapeCasts_S4x1000000x1_S4x1000000))
def sPixLL1 : FVec Ideal S4x8x1000000 .f32 :=
  broadcastInDim S4x8x1000000 ![0, 1, 2] bcast_S4x1x1000000_S4x8x1000000_0_1_2
    (broadcastInDim S4x1x1000000 ![0, 2] bcast_S4x1000000_S4x1x1000000_0_2
      (shapeCast S4x1000000 (extractStridedSlice S4x1000000x1 ![0, 0, 1] A1 slices_S4x1000000x2_S4x1000000x1_0_0_1)
        shapeCasts_S4x1000000x1_S4x1000000))

/-- The planar distance. -/
def sDist : FVec Ideal S4x8x1000000 .f32 :=
  Host.sqrt (addf
    (mulf (subf (sNbrLL0 A2) (sPixLL0 A1)) (subf (sNbrLL0 A2) (sPixLL0 A1)))
    (mulf (subf (sNbrLL1 A2) (sPixLL1 A1)) (subf (sNbrLL1 A2) (sPixLL1 A1))))

variable (D K : FVec Ideal S4x8x1000000 .f32) (M : IVec S4x8x1000000 1) (R : FVec Ideal S_ .f32)

/-- The minimum of all entries of `D`, from +inf. -/
def sDmin : FVec Ideal S_ .f32 :=
  Host.reduce (FloatOps.minimumf (F := Ideal) (φ := .f32)) D (constant (F := Ideal) S_ .f32 0x7F800000#32)
    reducesTo_S4x8x1000000_S_d0_1_2 h_S_

/-- Where `D` is infinite. -/
def sIsInf : IVec S4x8x1000000 1 :=
  cmpf .oeq (Host.absf D)
    (broadcastInDim S4x8x1000000 ![] bcast_S_S4x8x1000000 (constant (F := Ideal) S_ .f32 0x7F800000#32))

/-- `D` with the entries under the mask `M` replaced by the scalar `R`. -/
def sSel : FVec Ideal S4x8x1000000 .f32 :=
  select M (broadcastInDim S4x8x1000000 ![] bcast_S_S4x8x1000000 R) D

/-- `D` with an infinite entry replaced by the minimum. -/
def sDsel : FVec Ideal S4x8x1000000 .f32 := sSel D (sIsInf D) (sDmin D)

/-- The inverse of `D` times `K`. -/
def sWeight : FVec Ideal S4x8x1000000 .f32 :=
  mulf (Host.divf (broadcastInDim S4x8x1000000 ![] bcast_S_S4x8x1000000 (constant (F := Ideal) S_ .f32 0x3F800000#32)) D) K

end Stages

/-! ## The host operations before the region, in stretches

The operations are run stretch by stretch over an ARBITRARY valuation `W`, so that each stretch's result is a short term
over `W`'s entries; the stretches are then composed. -/

/-- Running two lists of operations one after the other is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The index substitutions, the keep factor and the distance. -/
def opsA : List (HloOp τ sig (Elt Ideal)) := Gen.hostOps0 ++ Gen.hostOps0_1 ++ Gen.hostOps0_2 ++ Gen.hostOps0_3 ++ Gen.hostOps0_4
/-- Where the distance is infinite, and the minimum distance. -/
def opsB1 : List (HloOp τ sig (Elt Ideal)) := Gen.hostOps0_5 ++ Gen.hostOps0_6
/-- The selected distance. -/
def opsB2 : List (HloOp τ sig (Elt Ideal)) := Gen.hostOps0_7
/-- The weights. -/
def opsC : List (HloOp τ sig (Elt Ideal)) := Gen.hostOps0_8
/-- The gathered rows. -/
def opsD : List (HloOp τ sig (Elt Ideal)) :=
  Gen.hostOps0_9 ++ Gen.hostOps0_10 ++ Gen.hostOps0_11 ++ Gen.hostOps0_12 ++ Gen.hostOps0_13 ++ Gen.hostOps0_14 ++ Gen.hostOps0_15

theorem prefix_split (V : Valuation τ sig (Elt Ideal)) :
    StableHlo.after (List.flatten [Gen.hostOps0, Gen.hostOps0_1, Gen.hostOps0_2, Gen.hostOps0_3, Gen.hostOps0_4, Gen.hostOps0_5,
        Gen.hostOps0_6, Gen.hostOps0_7, Gen.hostOps0_8, Gen.hostOps0_9, Gen.hostOps0_10, Gen.hostOps0_11, Gen.hostOps0_12,
        Gen.hostOps0_13, Gen.hostOps0_14, Gen.hostOps0_15]) V
      = StableHlo.after opsD (StableHlo.after opsC (StableHlo.after opsB2 (StableHlo.after opsB1 (StableHlo.after opsA V)))) := by
  have hL : List.flatten [Gen.hostOps0, Gen.hostOps0_1, Gen.hostOps0_2, Gen.hostOps0_3, Gen.hostOps0_4, Gen.hostOps0_5,
        Gen.hostOps0_6, Gen.hostOps0_7, Gen.hostOps0_8, Gen.hostOps0_9, Gen.hostOps0_10, Gen.hostOps0_11, Gen.hostOps0_12,
        Gen.hostOps0_13, Gen.hostOps0_14, Gen.hostOps0_15]
      = ((((opsA ++ opsB1) ++ opsB2) ++ opsC) ++ opsD : List (HloOp τ sig (Elt Ideal))) := by
    simp only [opsA, opsB1, opsB2, opsC, opsD, List.flatten_cons, List.flatten_nil, List.append_nil, List.append_assoc]
  rw [hL, after_append, after_append, after_append, after_append]

section Stretches
variable (W : Valuation τ sig (Elt Ideal))

theorem A_v31 : (StableHlo.after opsA W (Proc.devRef .tc main_v31) : S4x8x1000000.Idx → EReal)
    = sDist (W (Proc.devRef .tc main_arg1)) (W (Proc.devRef .tc main_arg2)) := by
  simp only [opsA, Gen.hostOps0, Gen.hostOps0_1, Gen.hostOps0_2, Gen.hostOps0_3, Gen.hostOps0_4, List.cons_append, List.nil_append]
  after_results_simp
  rfl

theorem A_v7 : (StableHlo.after opsA W (Proc.devRef .tc main_v7) : S4x8x1000000.Idx → EReal)
    = sKeep (W (Proc.devRef .tc main_arg4)) := by
  simp only [opsA, Gen.hostOps0, Gen.hostOps0_1, Gen.hostOps0_2, Gen.hostOps0_3, Gen.hostOps0_4, List.cons_append, List.nil_append]
  after_results_simp
  rfl

theorem B1_v32 : (StableHlo.after opsB1 W (Proc.devRef .tc main_v32) : S4x8x1000000.Idx → BitVec 1)
    = sIsInf (W (Proc.devRef .tc main_v31)) := by
  simp only [opsB1, Gen.hostOps0_5, Gen.hostOps0_6, List.cons_append, List.nil_append]
  after_results_simp
  simp only [StableHlo.TRef.ofBuf, StableHlo.TRef.toBuf, cast_eq]
  rfl
theorem B1_v33 : (StableHlo.after opsB1 W (Proc.devRef .tc main_v33) : S_.Idx → EReal)
    = sDmin (W (Proc.devRef .tc main_v31)) := by
  simp only [opsB1, Gen.hostOps0_5, Gen.hostOps0_6, List.cons_append, List.nil_append]
  after_results_simp
  rfl
theorem B1_v31 : StableHlo.after opsB1 W (Proc.devRef .tc main_v31) = W (Proc.devRef .tc main_v31) := by
  simp only [opsB1, Gen.hostOps0_5, Gen.hostOps0_6, List.cons_append, List.nil_append]
  after_results_simp
theorem B1_v7 : StableHlo.after opsB1 W (Proc.devRef .tc main_v7) = W (Proc.devRef .tc main_v7) := by
  simp only [opsB1, Gen.hostOps0_5, Gen.hostOps0_6, List.cons_append, List.nil_append]
  after_results_simp

theorem B2_v34 : (StableHlo.after opsB2 W (Proc.devRef .tc main_v34) : S4x8x1000000.Idx → EReal)
    = sSel (W (Proc.devRef .tc main_v31)) (W (Proc.devRef .tc main_v32)) (W (Proc.devRef .tc main_v33)) := by
  simp only [opsB2, Gen.hostOps0_7]
  after_results_simp
  simp only [StableHlo.TRef.ofBuf, StableHlo.TRef.toBuf, cast_eq]
  rfl
theorem B2_v7 : StableHlo.after opsB2 W (Proc.devRef .tc main_v7) = W (Proc.devRef .tc main_v7) := by
  simp only [opsB2, Gen.hostOps0_7]
  after_results_simp

theorem C_v37 : (StableHlo.after opsC W (Proc.devRef .tc main_v37) : S4x8x1000000.Idx → EReal)
    = sWeight (W (Proc.devRef .tc main_v34)) (W (Proc.devRef .tc main_v7)) := by
  simp only [opsC, Gen.hostOps0_8]
  after_results_simp
  rfl

theorem D_v37 : StableHlo.after opsD W (Proc.devRef .tc main_v37) = W (Proc.devRef .tc main_v37) := by
  simp only [opsD, Gen.hostOps0_9, Gen.hostOps0_10, Gen.hostOps0_11, Gen.hostOps0_12, Gen.hostOps0_13, Gen.hostOps0_14, Gen.hostOps0_15, List.cons_append, List.nil_append]
  after_results_simp

end Stretches

/-! ## The weight stages read at an index -/

/-- A scalar broadcast reads the scalar's one entry. -/
theorem bcast0_apply {α : Type} {t : Shape} (h : S_.BroadcastsInDim t ![]) (v : S_.Idx → α) (j : t.Idx) :
    broadcastInDim t ![] h v j = v ix0 := by
  simp only [broadcastInDim]
  congr 1
  funext a
  exact a.elim0

section WeightRead
variable (A1 : S4x1000000x2.Idx → EReal) (A2 : S4x8000000x2.Idx → EReal) (A4 : S4x8x1000000.Idx → BitVec 32)
variable (l : Fin 4) (n : Fin 8) (b : Fin 1000000)

/-- Neighbour `n` of pixel `b` sits at flat position `n * 1000000 + b` of the neighbour axis. -/
theorem sNbrLL0_apply : sNbrLL0 A2 (ix3 l n b) = A2 (ix3 l (Cert.Spec.flat n b) (0 : Fin 2)) := by
  unfold sNbrLL0
  refine (shapeCast_apply _ _ (ix3 l n b) (ix4 l n b (0 : Fin 1)) ?_).trans ?_
  · rw [Shape.rowMajor_val_four, Shape.rowMajor_val_three]
    show ((l.val * 8 + n.val) * 1000000 + b.val) * 1 + 0 = (l.val * 8 + n.val) * 1000000 + b.val
    omega
  refine (extractStridedSlice_apply _ _ _ (ix4 l n b (0 : Fin 1)) (ix4 l n b (0 : Fin 2)) ?_).trans ?_
  · intro a
    match a with
    | ⟨0, _⟩ => exact (Nat.zero_add _).symm
    | ⟨1, _⟩ => exact (Nat.zero_add _).symm
    | ⟨2, _⟩ => exact (Nat.zero_add _).symm
    | ⟨3, _⟩ => rfl
  refine shapeCast_apply _ _ (ix4 l n b (0 : Fin 2)) (ix3 l (Cert.Spec.flat n b) (0 : Fin 2)) ?_
  rw [Shape.rowMajor_val_four, Shape.rowMajor_val_three]
  show (l.val * 8000000 + (n.val * 1000000 + b.val)) * 2 + 0 = ((l.val * 8 + n.val) * 1000000 + b.val) * 2 + 0
  omega

theorem sNbrLL1_apply : sNbrLL1 A2 (ix3 l n b) = A2 (ix3 l (Cert.Spec.flat n b) (1 : Fin 2)) := by
  unfold sNbrLL1
  refine (shapeCast_apply _ _ (ix3 l n b) (ix4 l n b (0 : Fin 1)) ?_).trans ?_
  · rw [Shape.rowMajor_val_four, Shape.rowMajor_val_three]
    show ((l.val * 8 + n.val) * 1000000 + b.val) * 1 + 0 = (l.val * 8 + n.val) * 1000000 + b.val
    omega
  refine (extractStridedSlice_apply _ _ _ (ix4 l n b (0 : Fin 1)) (ix4 l n b (1 : Fin 2)) ?_).trans ?_
  · intro a
    match a with
    | ⟨0, _⟩ => exact (Nat.zero_add _).symm
    | ⟨1, _⟩ => exact (Nat.zero_add _).symm
    | ⟨2, _⟩ => exact (Nat.zero_add _).symm
    | ⟨3, _⟩ => rfl
  refine shapeCast_apply _ _ (ix4 l n b (1 : Fin 2)) (ix3 l (Cert.Spec.flat n b) (1 : Fin 2)) ?_
  rw [Shape.rowMajor_val_four, Shape.rowMajor_val_three]
  show (l.val * 8000000 + (n.val * 1000000 + b.val)) * 2 + 1 = ((l.val * 8 + n.val) * 1000000 + b.val) * 2 + 1
  omega

/-- The pixel's coordinate does not depend on the neighbour. -/
theorem sPixLL0_apply : sPixLL0 A1 (ix3 l n b) = A1 (ix3 l b (0 : Fin 2)) := by
  unfold sPixLL0
  refine (broadcastInDim_apply _ _ _ (ix3 l n b) (ix3 l (0 : Fin 1) b) ?_).trans ?_
  · intro a
    match a with
    | ⟨0, _⟩ => rfl
    | ⟨1, _⟩ => rfl
    | ⟨2, _⟩ => rfl
  refine (broadcastInDim_apply _ _ _ (ix3 l (0 : Fin 1) b) (ix2 l b) ?_).trans ?_
  · intro a
    match a with
    | ⟨0, _⟩ => rfl
    | ⟨1, _⟩ => rfl
  refine (shapeCast_apply _ _ (ix2 l b) (ix3 l b (0 : Fin 1)) ?_).trans ?_
  · rw [Shape.rowMajor_val_three, Shape.rowMajor_val_two]
    show (l.val * 1000000 + b.val) * 1 + 0 = l.val * 1000000 + b.val
    omega
  refine extractStridedSlice_apply _ _ _ (ix3 l b (0 : Fin 1)) (ix3 l b (0 : Fin 2)) ?_
  intro a
  match a with
  | ⟨0, _⟩ => exact (Nat.zero_add _).symm
  | ⟨1, _⟩ => exact (Nat.zero_add _).symm
  | ⟨2, _⟩ => rfl

theorem sPixLL1_apply : sPixLL1 A1 (ix3 l n b) = A1 (ix3 l b (1 : Fin 2)) := by
  unfold sPixLL1
  refine (broadcastInDim_apply _ _ _ (ix3 l n b) (ix3 l (0 : Fin 1) b) ?_).trans ?_
  · intro a
    match a with
    | ⟨0, _⟩ => rfl
    | ⟨1, _⟩ => rfl
    | ⟨2, _⟩ => rfl
  refine (broadcastInDim_apply _ _ _ (ix3 l (0 : Fin 1) b) (ix2 l b) ?_).trans ?_
  · intro a
    match a with
    | ⟨0, _⟩ => rfl
    | ⟨1, _⟩ => rfl
  refine (shapeCast_apply _ _ (ix2 l b) (ix3 l b (0 : Fin 1)) ?_).trans ?_
  · rw [Shape.rowMajor_val_three, Shape.rowMajor_val_two]
    show (l.val * 1000000 + b.val) * 1 + 0 = l.val * 1000000 + b.val
    omega
  refine extractStridedSlice_apply _ _ _ (ix3 l b (0 : Fin 1)) (ix3 l b (1 : Fin 2)) ?_
  intro a
  match a with
  | ⟨0, _⟩ => exact (Nat.zero_add _).symm
  | ⟨1, _⟩ => exact (Nat.zero_add _).symm
  | ⟨2, _⟩ => rfl

/-- The distance stage at an index is the specification's distance. -/
theorem sDist_apply : sDist A1 A2 (ix3 l n b) = Cert.Spec.dist A1 A2 l n b := by
  show Ideal.sqrt ((sNbrLL0 A2 (ix3 l n b) - sPixLL0 A1 (ix3 l n b)) * (sNbrLL0 A2 (ix3 l n b) - sPixLL0 A1 (ix3 l n b))
    + (sNbrLL1 A2 (ix3 l n b) - sPixLL1 A1 (ix3 l n b)) * (sNbrLL1 A2 (ix3 l n b) - sPixLL1 A1 (ix3 l n b))) = _
  rw [sNbrLL0_apply, sNbrLL1_apply, sPixLL0_apply, sPixLL1_apply]
  rfl

/-- The keep factor: 0 on the sentinel, 1 elsewhere. -/
theorem sKeep_apply : sKeep A4 (ix3 l n b) = Cert.Spec.keep A4 l n b := by
  show (((~~~(IntOp.cmpi .eq (A4 (ix3 l n b))
    (broadcastInDim S4x8x1000000 ![] bcast_S_S4x8x1000000 (constantI S_ 32 4294967295#32) (ix3 l n b)))).toNat : ℝ) : EReal) = _
  rw [bcast0_apply]
  show (((~~~(IntOp.cmpi .eq (A4 (ix3 l n b)) 4294967295#32)).toNat : ℝ) : EReal) = _
  unfold Cert.Spec.keep
  by_cases h : A4 (ix3 l n b) = Cert.Spec.sentinel
  · rw [if_pos h, StableHlo.Predicate.cmpi_eq_iff.2 h]
    simp
  · rw [if_neg h, eq_zero_of_ne_one (fun h1 => h (StableHlo.Predicate.cmpi_eq_iff.1 h1))]
    simp

end WeightRead
variable (m : (ℓ : Loc nD τ sig) → Buf (Elt Ideal) ℓ)

/-- The weight array when the region is entered: the weight stage of the argument arrays. -/
theorem v37_eq (c : Dev nD) :
    (Gen.V m c main_v37 : S4x8x1000000.Idx → EReal)
      = sWeight (sDsel (sDist (m ((c.tc : Thread nD τ).loc main_arg1)) (m ((c.tc : Thread nD τ).loc main_arg2))))
          (sKeep (m ((c.tc : Thread nD τ).loc main_arg4))) := by
  dsimp only [Gen.V, Gen.V0]
  rw [prefix_split, D_v37, C_v37, B2_v34, B2_v7, B1_v32, B1_v33, B1_v31, B1_v7, A_v31, A_v7]
  rfl

section WeightRead2
variable (A1 : S4x1000000x2.Idx → EReal) (A2 : S4x8000000x2.Idx → EReal) (A4 : S4x8x1000000.Idx → BitVec 32)
variable (l : Fin 4) (n : Fin 8) (b : Fin 1000000)

/-- The minimum stage of the distances is the specification's minimum of all distances: the fold of `min` from +inf over
    every (level, neighbour, pixel), the function under it the distance at that index. -/
theorem sDmin_eq : sDmin (sDist A1 A2) ix0 = Cert.Spec.dmin A1 A2 :=
  Cert.LibMinFold.reduce_min_nbr_dmin A1 A2 (sDist A1 A2) _ reducesTo_S4x8x1000000_S_d0_1_2 h_S_
    (fun l n b => sDist_apply A1 A2 l n b) rfl

/-- The selected distance at an index. -/
theorem sDsel_apply : sDsel (sDist A1 A2) (ix3 l n b) = Cert.Spec.dsel A1 A2 l n b := by
  show Scalar.select
      (Ideal.cmp .oeq (max (sDist A1 A2 (ix3 l n b)) (-(sDist A1 A2 (ix3 l n b))))
        (broadcastInDim S4x8x1000000 ![] bcast_S_S4x8x1000000 (constant (F := Ideal) S_ .f32 0x7F800000#32) (ix3 l n b)))
      (broadcastInDim S4x8x1000000 ![] bcast_S_S4x8x1000000 (sDmin (sDist A1 A2)) (ix3 l n b))
      (sDist A1 A2 (ix3 l n b)) = _
  rw [bcast0_apply, bcast0_apply, sDist_apply, sDmin_eq]
  rfl

/-- The weight array at an index: the specification's weight times its keep factor. -/
theorem sWeight_apply :
    sWeight (sDsel (sDist A1 A2)) (sKeep A4) (ix3 l n b) = Cert.Spec.wgt A1 A2 l n b * Cert.Spec.keep A4 l n b := by
  show Ideal.div
      (broadcastInDim S4x8x1000000 ![] bcast_S_S4x8x1000000 (constant (F := Ideal) S_ .f32 0x3F800000#32) (ix3 l n b))
      (sDsel (sDist A1 A2) (ix3 l n b)) * sKeep A4 (ix3 l n b) = _
  rw [bcast0_apply, sDsel_apply, sKeep_apply]
  rfl

end WeightRead2

end Wgt

/-! ## The weight array when the region is entered -/

variable (m : (ℓ : Loc nD τ sig) → Buf (Elt Ideal) ℓ)

/-- The weight array at (l, n, b): the inverse of the selected planar distance, times 0 on a missing neighbour. -/
theorem v37_at (c : Dev nD) (l : Fin 4) (n : Fin 8) (b : Fin 1000000) :
    (Gen.V m c main_v37 : S4x8x1000000.Idx → EReal) (ix3 l n b)
      = Cert.Spec.wgt (m ((c.tc : Thread nD τ).loc main_arg1)) (m ((c.tc : Thread nD τ).loc main_arg2)) l n b
        * Cert.Spec.keep (m ((c.tc : Thread nD τ).loc main_arg4)) l n b :=
  (congrFun (Wgt.v37_eq m c) (ix3 l n b)).trans (Wgt.sWeight_apply _ _ _ l n b)

end Cert.KernelIdeal.Hand

end
-- ==== Proof.LibGatherRow.lean ====
/-
  The two gathers of a table row, read at one element, and the words that index them.

  Both take, for each of Q positions, one row of a table with 792 rows per level. The start index is read as a
  signed integer and clamped into the rows 0 … 791 (`Cert.Spec.rowOf`). In the first layout the table is
  [level, row, feature], the start indices [level, position, 1] and the result [level, position, feature]: the level is
  a batching axis, the row axis is collapsed, the feature axis is the slice. In the second the table is
  [level, feature, row], the start indices [level, feature, position, 1] and the result [level, feature, position]: level
  and feature are batching axes and the row axis is collapsed. Either way element (level, position, feature) of the
  result is the table at that level and feature, in the clamped row its start index names.

  The words: an index already in 0 … 791 is its own row, is left alone by the wrap of negative indices
  (v < 0 ? v + 792 : v), and passes the in-range test 0 ≤ v ∧ v ≤ 791; and clamping a word into 0 … 791 first
  (min 791 (max 0 v)) does not change the row it names.
-/
import Idealize.ShloMosaic.PureOps
import Idealize.ShloMosaic.Lib.ValueIdx
import Idealize.ShloMosaic.Lib.Affine
import proofs.«404629_j77764677862011_3_alg».proof.Proof.Spec

noncomputable section

namespace Cert.LibGatherRow

open Idealize.ShloMosaic Idealize.ShloMosaic.ValueIdx

/-! ## The two gathers at an element -/

/-- Table [4, 792, 2], start indices [4, Q, 1], result [4, Q, 2]. -/
abbrev dimsR (Q : Nat)
    (wf : GatherDims.WF ⟨3, ![4, 792, 2]⟩ ⟨3, ![4, Q, 1]⟩ ⟨3, ![4, Q, 2]⟩ [2] [1] [0] [1] [0] 2 ![1, 1, 2]) :
    GatherDims ⟨3, ![4, 792, 2]⟩ ⟨3, ![4, Q, 1]⟩ ⟨3, ![4, Q, 2]⟩ where
  offsetDims := [2]
  collapsedSliceDims := [1]
  operandBatchingDims := [0]
  startIndicesBatchingDims := [0]
  startIndexMap := [1]
  indexVectorDim := 2
  sliceSizes := ![1, 1, 2]
  wf := wf

/-- Table [4, 2, 792], start indices [4, 2, Q, 1], result [4, 2, Q]. -/
abbrev dimsK (Q : Nat)
    (wf : GatherDims.WF ⟨3, ![4, 2, 792]⟩ ⟨4, ![4, 2, Q, 1]⟩ ⟨3, ![4, 2, Q]⟩ [] [2] [0, 1] [2] [0, 1] 3 ![1, 1, 1]) :
    GatherDims ⟨3, ![4, 2, 792]⟩ ⟨4, ![4, 2, Q, 1]⟩ ⟨3, ![4, 2, Q]⟩ where
  offsetDims := []
  collapsedSliceDims := [2]
  operandBatchingDims := [0, 1]
  startIndicesBatchingDims := [0, 1]
  startIndexMap := [2]
  indexVectorDim := 3
  sliceSizes := ![1, 1, 1]
  wf := wf

/-- Element (l, q, f) of the first gather: the table at level l and feature f, in the clamped row of start index
    (l, q, 0). -/
theorem gatherR_apply {Q : Nat} {α : Type}
    (wf : GatherDims.WF ⟨3, ![4, 792, 2]⟩ ⟨3, ![4, Q, 1]⟩ ⟨3, ![4, Q, 2]⟩ [2] [1] [0] [1] [0] 2 ![1, 1, 2])
    (x : (⟨3, ![4, 792, 2]⟩ : Shape).Idx → α) (idx : IVec ⟨3, ![4, Q, 1]⟩ 32) (l : Fin 4) (q : Fin Q) (f : Fin 2) :
    Host.gather (dimsR Q wf) x idx (ix3 l q f) = x (ix3 l (Cert.Spec.rowOf (idx (ix3 l q (0 : Fin 1)))) f) := by
  unfold Host.gather
  congr 1
  funext a
  refine Fin.ext ?_
  have m0 : (0 : Fin 3) ∈ ([0] : List (Fin 3)) := List.mem_singleton.mpr rfl
  have m1 : (1 : Fin 3) ∈ ([1] : List (Fin 3)) := List.mem_singleton.mpr rfl
  have n10 : (1 : Fin 3) ∉ ([0] : List (Fin 3)) := by decide
  have n20 : (2 : Fin 3) ∉ ([0] : List (Fin 3)) := by decide
  have n21 : (2 : Fin 3) ∉ ([1] : List (Fin 3)) := by decide
  have hsi : (dimsR Q wf).siIdx (ix3 l q f) ⟨List.idxOf (1 : Fin 3) (dimsR Q wf).startIndexMap,
      List.idxOf_lt_length_iff.2 m1⟩ = ix3 l q (0 : Fin 1) := by
    funext b; refine Fin.ext ?_
    match b with
    | ⟨0, _⟩ => rfl
    | ⟨1, _⟩ => rfl
    | ⟨2, _⟩ => rfl
  match a with
  | ⟨0, _⟩ =>
    show (dimsR Q wf).start (ix3 l q f) idx 0 + (dimsR Q wf).batchCoord (ix3 l q f) 0 + (dimsR Q wf).offCoord (ix3 l q f) 0 = l.val
    rw [GatherDims.start_batching _ _ _ _ m0,
      GatherDims.offCoord_eq_zero _ _ _ (fun h => (((dimsR Q wf).mem_sKept 0).mp h).2 m0), Nat.zero_add, Nat.add_zero]
    unfold GatherDims.batchCoord
    split
    · rfl
    · next hn => exact absurd m0 hn
  | ⟨1, _⟩ =>
    show (dimsR Q wf).start (ix3 l q f) idx 1 + (dimsR Q wf).batchCoord (ix3 l q f) 1 + (dimsR Q wf).offCoord (ix3 l q f) 1
      = min (idx (ix3 l q (0 : Fin 1))).toInt.toNat 791
    rw [GatherDims.batchCoord_eq_zero _ _ _ n10,
      GatherDims.offCoord_eq_zero _ _ _ (fun h => (((dimsR Q wf).mem_sKept 1).mp h).1 m1), Nat.add_zero]
    unfold GatherDims.start
    split
    · rw [hsi]; rfl
    · next hn => exact absurd m1 hn
  | ⟨2, _⟩ =>
    show (dimsR Q wf).start (ix3 l q f) idx 2 + (dimsR Q wf).batchCoord (ix3 l q f) 2 + (dimsR Q wf).offCoord (ix3 l q f) 2 = f.val
    have hs : (dimsR Q wf).start (ix3 l q f) idx 2 = 0 := by
      unfold GatherDims.start
      split
      · next hp => exact absurd hp n21
      · rfl
    rw [hs, GatherDims.batchCoord_eq_zero _ _ _ n20, Nat.zero_add]
    unfold GatherDims.offCoord
    split
    · rfl
    · next hn => exact absurd (((dimsR Q wf).mem_sKept 2).mpr ⟨n21, n20⟩) hn

/-- Element (l, f, q) of the second gather: the table at level l and feature f, in the clamped row of start index
    (l, f, q, 0). -/
theorem gatherK_apply {Q : Nat} {α : Type}
    (wf : GatherDims.WF ⟨3, ![4, 2, 792]⟩ ⟨4, ![4, 2, Q, 1]⟩ ⟨3, ![4, 2, Q]⟩ [] [2] [0, 1] [2] [0, 1] 3 ![1, 1, 1])
    (x : (⟨3, ![4, 2, 792]⟩ : Shape).Idx → α) (idx : IVec ⟨4, ![4, 2, Q, 1]⟩ 32) (l : Fin 4) (f : Fin 2) (q : Fin Q) :
    Host.gather (dimsK Q wf) x idx (ix3 l f q) = x (ix3 l f (Cert.Spec.rowOf (idx (ix4 l f q (0 : Fin 1))))) := by
  unfold Host.gather
  congr 1
  funext a
  refine Fin.ext ?_
  have m0 : (0 : Fin 3) ∈ ([0, 1] : List (Fin 3)) := by decide
  have m1 : (1 : Fin 3) ∈ ([0, 1] : List (Fin 3)) := by decide
  have m2 : (2 : Fin 3) ∈ ([2] : List (Fin 3)) := List.mem_singleton.mpr rfl
  have n2 : (2 : Fin 3) ∉ ([0, 1] : List (Fin 3)) := by decide
  have hsi : (dimsK Q wf).siIdx (ix3 l f q) ⟨List.idxOf (2 : Fin 3) (dimsK Q wf).startIndexMap,
      List.idxOf_lt_length_iff.2 m2⟩ = ix4 l f q (0 : Fin 1) := by
    funext b; refine Fin.ext ?_
    match b with
    | ⟨0, _⟩ => rfl
    | ⟨1, _⟩ => rfl
    | ⟨2, _⟩ => rfl
    | ⟨3, _⟩ => rfl
  match a with
  | ⟨0, _⟩ =>
    show (dimsK Q wf).start (ix3 l f q) idx 0 + (dimsK Q wf).batchCoord (ix3 l f q) 0 + (dimsK Q wf).offCoord (ix3 l f q) 0 = l.val
    rw [GatherDims.start_batching _ _ _ _ m0,
      GatherDims.offCoord_eq_zero _ _ _ (fun h => (((dimsK Q wf).mem_sKept 0).mp h).2 m0), Nat.zero_add, Nat.add_zero]
    unfold GatherDims.batchCoord
    split
    · rfl
    · next hn => exact absurd m0 hn
  | ⟨1, _⟩ =>
    show (dimsK Q wf).start (ix3 l f q) idx 1 + (dimsK Q wf).batchCoord (ix3 l f q) 1 + (dimsK Q wf).offCoord (ix3 l f q) 1 = f.val
    rw [GatherDims.start_batching _ _ _ _ m1,
      GatherDims.offCoord_eq_zero _ _ _ (fun h => (((dimsK Q wf).mem_sKept 1).mp h).2 m1), Nat.zero_add, Nat.add_zero]
    unfold GatherDims.batchCoord
    split
    · rfl
    · next hn => exact absurd m1 hn
  | ⟨2, _⟩ =>
    show (dimsK Q wf).start (ix3 l f q) idx 2 + (dimsK Q wf).batchCoord (ix3 l f q) 2 + (dimsK Q wf).offCoord (ix3 l f q) 2
      = min (idx (ix4 l f q (0 : Fin 1))).toInt.toNat 791
    rw [GatherDims.batchCoord_eq_zero _ _ _ n2,
      GatherDims.offCoord_eq_zero _ _ _ (fun h => (((dimsK Q wf).mem_sKept 2).mp h).1 m2), Nat.add_zero]
    unfold GatherDims.start
    split
    · rw [hsi]; rfl
    · next hn => exact absurd m2 hn

/-! ## The words that index the rows -/

/-- The clamped row's number. -/
theorem rowOf_val (v : BitVec 32) : (Cert.Spec.rowOf v).val = min v.toInt.toNat 791 := rfl

/-- An index in 0 … 791 is its own row. -/
theorem rowOf_of_range {v : BitVec 32} (h0 : 0 ≤ v.toInt) (h1 : v.toInt ≤ 791) :
    Cert.Spec.rowOf v = ⟨v.toInt.toNat, by omega⟩ :=
  Fin.ext (by rw [rowOf_val]; show min v.toInt.toNat 791 = v.toInt.toNat; omega)

/-- The wrap of negative indices (v < 0 ? v + 792 : v) leaves a nonnegative index alone. -/
theorem wrap_of_nonneg {v : BitVec 32} (h0 : 0 ≤ v.toInt) :
    Scalar.select (IntOp.cmpi .slt v 0#32) (IntOp.addi v 792#32) v = v := by
  have c0 : (0#32 : BitVec 32).toInt = 0 := by decide
  have hc : ¬ IntOp.cmpi .slt v 0#32 = 1#1 := by rw [IntOp.cmpi_slt]; omega
  exact if_neg hc

/-- An index in 0 … 791 passes the in-range test 0 ≤ v ∧ v ≤ 791. -/
theorem inRange_of_range {v : BitVec 32} (h0 : 0 ≤ v.toInt) (h1 : v.toInt ≤ 791) :
    IntOp.andi (IntOp.cmpi .sge v 0#32) (IntOp.cmpi .sle v 791#32) = 1#1 := by
  have c0 : (0#32 : BitVec 32).toInt = 0 := by decide
  have c791 : (791#32 : BitVec 32).toInt = 791 := by decide
  rw [IntOp.andi_eq_one, IntOp.cmpi_sge, IntOp.cmpi_sle]
  omega

/-- The signed maximum and minimum of two words, read as integers. -/
theorem toInt_maxsi (x y : BitVec 32) : (IntOp.maxsi x y).toInt = max x.toInt y.toInt := by
  simp only [IntOp.maxsi, BitVec.slt, decide_eq_true_eq]
  split_ifs <;> omega
theorem toInt_minsi (x y : BitVec 32) : (IntOp.minsi x y).toInt = min x.toInt y.toInt := by
  simp only [IntOp.minsi, BitVec.slt, decide_eq_true_eq]
  split_ifs <;> omega

/-- The clamp min 791 (max 0 v), read as an integer. -/
theorem toInt_clip (v : BitVec 32) : (IntOp.minsi 791#32 (IntOp.maxsi 0#32 v)).toInt = min 791 (max 0 v.toInt) := by
  have c0 : (0#32 : BitVec 32).toInt = 0 := by decide
  have c791 : (791#32 : BitVec 32).toInt = 791 := by decide
  rw [toInt_minsi, toInt_maxsi, c0, c791]

/-- Clamping a word into 0 … 791 first does not change the row it names. -/
theorem rowOf_clip (v : BitVec 32) : Cert.Spec.rowOf (IntOp.minsi 791#32 (IntOp.maxsi 0#32 v)) = Cert.Spec.rowOf v :=
  Fin.ext (by rw [rowOf_val, rowOf_val, toInt_clip]; omega)

/-- The clamp leaves an index already in 0 … 791 alone. -/
theorem clip_of_range {v : BitVec 32} (h0 : 0 ≤ v.toInt) (h1 : v.toInt ≤ 791) :
    IntOp.minsi 791#32 (IntOp.maxsi 0#32 v) = v :=
  BitVec.toInt_inj.1 (by rw [toInt_clip]; omega)

end Cert.LibGatherRow

end
-- ==== Proof.KIHostNbr.lean ====
/-
  The gathered neighbour rows as the region finds them, read at an index: the array the kernel's first window
  stages holds, at level `l`, feature `f`, neighbour `n` and pixel `b`, the table's entry
      table[l, row(nbr l n b), f]
  where `nbr` is the neighbour index with the sentinel replaced by the stand-in (the maximum of all neighbour indices
  plus one) and `row` reads an index signed and clamps it into the table's 792 rows.

  The host operations that compute it: the sentinel's mask and the stand-in; the substitution; the reshape to a flat
  neighbour axis (neighbour `n` of pixel `b` at position `n * 1000000 + b`); the clip into [0, 791]; one copy per
  feature; the gather along the table's row axis — on a clipped index its own wrap of a negative index is the
  identity, its bounds test is true and its signed clamped read is the index itself, the row of the unclipped index —
  of the table with the feature axis moved before the row axis; the reshape back to (4, 2, 8, 1000000).
  Each stretch of operations is read over an ARBITRARY valuation of the buffers, as the composition of named stages
  generic in the arrays they read; every stage is then read at an index.
-/
import proofs.«404629_j77764677862011_3_alg».proof.Proof.Gen.KernelIdeal.Frame
import proofs.«404629_j77764677862011_3_alg».proof.Proof.Spec
import proofs.«404629_j77764677862011_3_alg».proof.Proof.LibGatherRow
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.Lib.Affine

set_option maxRecDepth 16384

noncomputable section

namespace Cert.KernelIdeal.Hand

open Idealize.ShloMosaic Idealize.ShloMosaic.TcCoe Idealize.ShloMosaic.ValueIdx
open Cert.KernelIdeal Cert.KernelIdeal.Facts₀
open Idealize.ShloMosaic.StableHlo (after_cons after_nil)

/-! ## The stages, generic in the arrays they read -/

section NbStages
variable (A0 : S4x792x2.Idx → EReal) (A4 : S4x8x1000000.Idx → BitVec 32) (S5 : IVec S4x8x1000000 32)
variable (T : FVec Ideal S4x2x792 .f32) (Y : IVec S4x8000000 32) (X : IVec S4x2x8000000 32)

/-- The mask of the missing neighbours: the index word is the sentinel. -/
def nb_mask : IVec S4x8x1000000 1 :=
  cmpi .eq A4 (broadcastInDim S4x8x1000000 ![] bcast_S_S4x8x1000000 (constantI S_ 32 4294967295#32))

/-- The stand-in for the sentinel: the maximum of all neighbour indices plus one. -/
def nb_max1 : IVec S_ 32 :=
  addi (Host.reduce IntOp.maxsi (shapeCast S4x8000000 A4 shapeCasts_S4x8x1000000_S4x8000000)
    (constantI S_ 32 2147483648#32) reducesTo_S4x8000000_S_d0_1 h_S_) (constantI S_ 32 1#32)

/-- The neighbour indices with the sentinel replaced by the stand-in. -/
def nb_sub : IVec S4x8x1000000 32 :=
  select (nb_mask A4) (broadcastInDim S4x8x1000000 ![] bcast_S_S4x8x1000000 (nb_max1 A4)) A4

/-- Every index clipped into the table's rows. -/
def nb_clip : IVec S4x8000000 32 :=
  minsi (broadcastInDim S4x8000000 ![] bcast_S_S4x8000000 (constantI S_ 32 791#32))
    (maxsi (broadcastInDim S4x8000000 ![] bcast_S_S4x8000000 (constantI S_ 32 0#32)) Y)

/-- The clipped indices, one copy per feature. -/
def nb_idx : IVec S4x2x8000000 32 :=
  broadcastInDim S4x2x8000000 ![0, 1, 2] bcast_S4x1x8000000_S4x2x8000000_0_1_2
    (broadcastInDim S4x1x8000000 ![0, 2] bcast_S4x8000000_S4x1x8000000_0_2 (nb_clip Y))

/-- The gather's own wrap of a negative index (by the table's 792 rows), as start indices. -/
def nb_wrap : IVec S4x2x8000000x1 32 :=
  shapeCast S4x2x8000000x1
    (select (cmpi .slt X (broadcastInDim S4x2x8000000 ![] bcast_S_S4x2x8000000 (constantI S_ 32 0#32)))
      (addi X (broadcastInDim S4x2x8000000 ![] bcast_S_S4x2x8000000 (constantI S_ 32 792#32))) X)
    shapeCasts_S4x2x8000000_S4x2x8000000x1

/-- The gather's bounds test. -/
def nb_inb : IVec S4x2x8000000 1 :=
  Host.reduce IntOp.andi
    (andi (cmpi .sge (nb_wrap X) (broadcastInDim S4x2x8000000x1 ![] bcast_S_S4x2x8000000x1 (constantI S_ 32 0#32)))
      (cmpi .sle (nb_wrap X)
        (broadcastInDim S4x2x8000000x1 ![0, 1, 2, 3] bcast_S1x1x1x1_S4x2x8000000x1_0_1_2_3
          (broadcastInDim S1x1x1x1 ![3] bcast_S1_S1x1x1x1_3 (constantI S1 32 791#32)))))
    (constantI S_ 1 1#1) reducesTo_S4x2x8000000x1_S4x2x8000000_d3 h_S_

/-- The rows taken along the table's row axis (NaN where the bounds test fails). -/
def nb_take : FVec Ideal S4x2x8000000 .f32 :=
  select (nb_inb X) (Host.gather gather_S4x2x792_S4x2x8000000x1_S4x2x8000000_n_2_01_01_2_3_111 T (nb_wrap X))
    (broadcastInDim S4x2x8000000 ![] bcast_S_S4x2x8000000 (constant (F := Ideal) S_ .f32 0x7FC00000#32))

/-- The table with the feature axis before the row axis. -/
def nb_tableT : FVec Ideal S4x2x792 .f32 := transpose S4x2x792 [0, 2, 1] A0 transposes_S4x792x2_S4x2x792_0_2_1

end NbStages

section NbStages2
variable (A0 : S4x792x2.Idx → EReal) (S5 : IVec S4x8x1000000 32)

/-- The neighbours' gathered rows as a (4, 2, 8, 1000000) array, from the table and the substituted indices. -/
def nb_rows : FVec Ideal S4x2x8x1000000 .f32 :=
  shapeCast S4x2x8x1000000
    (nb_take (nb_tableT A0) (nb_idx (shapeCast S4x8000000 S5 shapeCasts_S4x8x1000000_S4x8000000)))
    shapeCasts_S4x2x8000000_S4x2x8x1000000

end NbStages2

/-! ## Typed references: reading back what was just written -/

/-- Contents written at a typed reference's buffer type and read back at the value's type are unchanged. -/
theorem nb_ofBuf_toBuf {Val : EltTy → Type} {T : BufTy} (x : StableHlo.TRef sig T) (v : T.Contents Val) :
    x.ofBuf (x.toBuf v) = v := by
  obtain ⟨r, rfl, _, _⟩ := x
  rfl

/-! ## The host operations before the region, in stretches -/

/-- Running two lists of operations one after the other is running their concatenation. -/
theorem nb_after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The sentinel's mask, the stand-in and the substitution. -/
def nb_ops1 : List (HloOp τ sig (Elt Ideal)) := Gen.hostOps0 ++ Gen.hostOps0_1
/-- The keep factor, the pixel indices, the distances and their selection: nothing the gathered rows read. -/
def nb_ops2 : List (HloOp τ sig (Elt Ideal)) :=
  Gen.hostOps0_2 ++ Gen.hostOps0_3 ++ Gen.hostOps0_4 ++ Gen.hostOps0_5 ++ Gen.hostOps0_6 ++ Gen.hostOps0_7
/-- The transposed table, the flat neighbour axis, the clip and the copy per feature. -/
def nb_ops3 : List (HloOp τ sig (Elt Ideal)) := Gen.hostOps0_8 ++ Gen.hostOps0_9 ++ Gen.hostOps0_10
/-- The pixels' gathered rows: nothing the neighbours' rows read. -/
def nb_ops6 : List (HloOp τ sig (Elt Ideal)) := Gen.hostOps0_13 ++ Gen.hostOps0_14 ++ Gen.hostOps0_15

/-- The host operations before the region are these stretches in order. -/
theorem nb_prefix_split (V : Valuation τ sig (Elt Ideal)) :
    StableHlo.after (List.flatten [Gen.hostOps0, Gen.hostOps0_1, Gen.hostOps0_2, Gen.hostOps0_3, Gen.hostOps0_4, Gen.hostOps0_5,
        Gen.hostOps0_6, Gen.hostOps0_7, Gen.hostOps0_8, Gen.hostOps0_9, Gen.hostOps0_10, Gen.hostOps0_11, Gen.hostOps0_12,
        Gen.hostOps0_13, Gen.hostOps0_14, Gen.hostOps0_15]) V
      = StableHlo.after nb_ops6 (StableHlo.after Gen.hostOps0_12 (StableHlo.after Gen.hostOps0_11
          (StableHlo.after nb_ops3 (StableHlo.after nb_ops2 (StableHlo.after nb_ops1 V))))) := by
  rw [← nb_after_append, ← nb_after_append, ← nb_after_append, ← nb_after_append, ← nb_after_append]
  rfl

section NbStretches
variable (W : Valuation τ sig (Elt Ideal))

/-- A typed reference to a literal buffer reads contents as they are. -/
theorem nb_ofBuf_v5 (u : main_v5.ty.Contents (Elt Ideal)) :
    (StableHlo.TRef.of main_v5 : StableHlo.TRef sig ⟨S4x8x1000000, .i32⟩).ofBuf u = u := rfl
theorem nb_ofBuf_v43 (u : main_v43.ty.Contents (Elt Ideal)) :
    (StableHlo.TRef.of main_v43 : StableHlo.TRef sig ⟨S4x2x8000000, .f32⟩).ofBuf u = u := rfl

theorem nb_s1_v5' : (StableHlo.TRef.of main_v5 : StableHlo.TRef sig ⟨S4x8x1000000, .i32⟩).ofBuf
      (StableHlo.after nb_ops1 W (Proc.devRef .tc main_v5)) = nb_sub (W (Proc.devRef .tc main_arg4)) := by
  simp only [nb_ops1, Gen.hostOps0, Gen.hostOps0_1, List.cons_append, List.nil_append]
  after_results_simp
  simp only [nb_ofBuf_toBuf]
  rfl
/-- The substituted neighbour indices. -/
theorem nb_s1_v5 : (StableHlo.after nb_ops1 W (Proc.devRef .tc main_v5) : S4x8x1000000.Idx → BitVec 32)
    = nb_sub (W (Proc.devRef .tc main_arg4)) := (nb_ofBuf_v5 _).symm.trans (nb_s1_v5' W)
theorem nb_s1_arg0 : StableHlo.after nb_ops1 W (Proc.devRef .tc main_arg0) = W (Proc.devRef .tc main_arg0) := by
  simp only [nb_ops1, Gen.hostOps0, Gen.hostOps0_1, List.cons_append, List.nil_append]
  after_results_simp

theorem nb_s2_v5 : StableHlo.after nb_ops2 W (Proc.devRef .tc main_v5) = W (Proc.devRef .tc main_v5) := by
  simp only [nb_ops2, Gen.hostOps0_2, Gen.hostOps0_3, Gen.hostOps0_4, Gen.hostOps0_5, Gen.hostOps0_6, Gen.hostOps0_7,
    List.cons_append, List.nil_append]
  after_results_simp
theorem nb_s2_arg0 : StableHlo.after nb_ops2 W (Proc.devRef .tc main_arg0) = W (Proc.devRef .tc main_arg0) := by
  simp only [nb_ops2, Gen.hostOps0_2, Gen.hostOps0_3, Gen.hostOps0_4, Gen.hostOps0_5, Gen.hostOps0_6, Gen.hostOps0_7,
    List.cons_append, List.nil_append]
  after_results_simp

/-- The transposed table. -/
theorem nb_s3_v38 : (StableHlo.after nb_ops3 W (Proc.devRef .tc main_v38) : S4x2x792.Idx → EReal)
    = nb_tableT (W (Proc.devRef .tc main_arg0)) := by
  simp only [nb_ops3, Gen.hostOps0_8, Gen.hostOps0_9, Gen.hostOps0_10, List.cons_append, List.nil_append]
  after_results_simp
  rfl
/-- The clipped indices, one copy per feature. -/
theorem nb_s3_v42 : (StableHlo.after nb_ops3 W (Proc.devRef .tc main_v42) : S4x2x8000000.Idx → BitVec 32)
    = nb_idx (shapeCast S4x8000000 (W (Proc.devRef .tc main_v5) : IVec S4x8x1000000 32) shapeCasts_S4x8x1000000_S4x8000000) := by
  simp only [nb_ops3, Gen.hostOps0_8, Gen.hostOps0_9, Gen.hostOps0_10, List.cons_append, List.nil_append]
  after_results_simp
  simp only [nb_ofBuf_toBuf]
  rfl

theorem nb_s4_v43' : (StableHlo.TRef.of main_v43 : StableHlo.TRef sig ⟨S4x2x8000000, .f32⟩).ofBuf
      (StableHlo.after Gen.hostOps0_11 W (Proc.devRef .tc main_v43))
    = nb_take (W (Proc.devRef .tc main_v38)) (W (Proc.devRef .tc main_v42)) := by
  simp only [Gen.hostOps0_11]
  after_results_simp
  simp only [nb_ofBuf_toBuf]
  rfl
/-- The gather: from the transposed table and the per-feature clipped indices. -/
theorem nb_s4_v43 : (StableHlo.after Gen.hostOps0_11 W (Proc.devRef .tc main_v43) : S4x2x8000000.Idx → EReal)
    = nb_take (W (Proc.devRef .tc main_v38)) (W (Proc.devRef .tc main_v42)) := (nb_ofBuf_v43 _).symm.trans (nb_s4_v43' W)

/-- The reshape back to (4, 2, 8, 1000000). -/
theorem nb_s5_v44 : (StableHlo.after Gen.hostOps0_12 W (Proc.devRef .tc main_v44) : S4x2x8x1000000.Idx → EReal)
    = shapeCast S4x2x8x1000000 (W (Proc.devRef .tc main_v43) : FVec Ideal S4x2x8000000 .f32) shapeCasts_S4x2x8000000_S4x2x8x1000000 := by
  simp only [Gen.hostOps0_12]
  after_results_simp
  rfl

theorem nb_s6_v44 : StableHlo.after nb_ops6 W (Proc.devRef .tc main_v44) = W (Proc.devRef .tc main_v44) := by
  simp only [nb_ops6, Gen.hostOps0_13, Gen.hostOps0_14, Gen.hostOps0_15, List.cons_append, List.nil_append]
  after_results_simp

end NbStretches

/-! ## The array the region finds -/

section NbCompose
variable (m : (ℓ : Loc nD τ sig) → Buf (Elt Ideal) ℓ)

/-- The array of gathered neighbour rows as the region finds it: the stages composed, over the table and the
    neighbour indices as launched. -/
theorem nb_V44 (c : Dev nD) : (Gen.V m c main_v44 : S4x2x8x1000000.Idx → EReal)
    = nb_rows (m ((c.tc : Thread nD τ).loc main_arg0)) (nb_sub (m ((c.tc : Thread nD τ).loc main_arg4))) := by
  dsimp only [Gen.V, Gen.V0]
  rw [nb_prefix_split, nb_s6_v44, nb_s5_v44, nb_s4_v43, nb_s3_v38, nb_s3_v42, nb_s2_arg0, nb_s2_v5, nb_s1_arg0, nb_s1_v5]
  rfl

end NbCompose

/-! ## The stages read at an index -/

/-- A scalar broadcast reads the scalar's one entry. -/
theorem nb_bcast0 {α : Type} {t : Shape} (h : S_.BroadcastsInDim t ![]) (v : S_.Idx → α) (j : t.Idx) :
    broadcastInDim t ![] h v j = v ix0 := by
  simp only [broadcastInDim]
  congr 1
  funext a
  exact a.elim0

/-- A reduction by `and`, from 1, of an array of 1s is 1. -/
theorem nb_reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize (((List.finRange s.numel).map s.rowMajor.symm).filter fun i => h.drop i = j) = L
  induction L with
  | nil => rfl
  | cons a L ih => rw [List.foldl_cons, hx a]; exact ih

section NbRead
variable (A0 : S4x792x2.Idx → EReal) (S5 : IVec S4x8x1000000 32)
variable (T : FVec Ideal S4x2x792 .f32) (Y : IVec S4x8000000 32) (X : IVec S4x2x8000000 32)
variable (l : Fin 4) (f : Fin 2) (n : Fin 8) (b : Fin 1000000) (p : Fin 8000000)

theorem nb_clip_apply : nb_clip Y (ix2 l p) = IntOp.minsi 791#32 (IntOp.maxsi 0#32 (Y (ix2 l p))) := by
  show IntOp.minsi (broadcastInDim S4x8000000 ![] bcast_S_S4x8000000 (constantI S_ 32 791#32) (ix2 l p))
    (IntOp.maxsi (broadcastInDim S4x8000000 ![] bcast_S_S4x8000000 (constantI S_ 32 0#32) (ix2 l p)) (Y (ix2 l p))) = _
  rw [nb_bcast0, nb_bcast0]
  rfl

theorem nb_idx_apply : nb_idx Y (ix3 l f p) = nb_clip Y (ix2 l p) := by
  unfold nb_idx
  refine (broadcastInDim_apply _ _ _ (ix3 l f p) (ix3 l (0 : Fin 1) p) ?_).trans ?_
  · intro a
    match a with
    | ⟨0, _⟩ => rfl
    | ⟨1, _⟩ => rfl
    | ⟨2, _⟩ => rfl
  refine broadcastInDim_apply _ _ _ (ix3 l (0 : Fin 1) p) (ix2 l p) ?_
  intro a
  match a with
  | ⟨0, _⟩ => rfl
  | ⟨1, _⟩ => rfl

/-- A clipped index is a row number. -/
theorem nb_idx_range (j : S4x2x8000000.Idx) : 0 ≤ (nb_idx Y j).toInt ∧ (nb_idx Y j).toInt ≤ 791 := by
  obtain ⟨a, c, d, rfl⟩ : ∃ (a : Fin 4) (c : Fin 2) (d : Fin 8000000), j = ix3 a c d := ⟨j 0, j 1, j 2, eq_ix3 j⟩
  rw [nb_idx_apply, nb_clip_apply, Cert.LibGatherRow.toInt_clip]
  omega

/-- On a non-negative index the gather's wrap is the identity. -/
theorem nb_wrap_apply (hX : 0 ≤ (X (ix3 l f p)).toInt) : nb_wrap X (ix4 l f p (0 : Fin 1)) = X (ix3 l f p) := by
  unfold nb_wrap
  refine (shapeCast_apply _ _ (ix4 l f p (0 : Fin 1)) (ix3 l f p) ?_).trans ?_
  · rw [Shape.rowMajor_val_four, Shape.rowMajor_val_three]
    show (l.val * 2 + f.val) * 8000000 + p.val = ((l.val * 2 + f.val) * 8000000 + p.val) * 1 + 0
    omega
  show Scalar.select (IntOp.cmpi .slt (X (ix3 l f p))
      (broadcastInDim S4x2x8000000 ![] bcast_S_S4x2x8000000 (constantI S_ 32 0#32) (ix3 l f p)))
    (IntOp.addi (X (ix3 l f p)) (broadcastInDim S4x2x8000000 ![] bcast_S_S4x2x8000000 (constantI S_ 32 792#32) (ix3 l f p)))
    (X (ix3 l f p)) = _
  rw [nb_bcast0, nb_bcast0]
  exact Cert.LibGatherRow.wrap_of_nonneg hX

/-- On row numbers the gather's bounds test is true everywhere. -/
theorem nb_inb_one (hX : ∀ j, 0 ≤ (X j).toInt ∧ (X j).toInt ≤ 791) (j : S4x2x8000000.Idx) : nb_inb X j = 1#1 := by
  unfold nb_inb
  refine nb_reduce_andi_one _ _ _ _ (fun i => ?_) rfl j
  obtain ⟨a, c, d, e, rfl⟩ : ∃ (a : Fin 4) (c : Fin 2) (d : Fin 8000000) (e : Fin 1), i = ix4 a c d e :=
    ⟨i 0, i 1, i 2, i 3, eq_ix4 i⟩
  obtain rfl : e = 0 := Subsingleton.elim _ _
  show IntOp.andi (IntOp.cmpi .sge (nb_wrap X (ix4 a c d (0 : Fin 1)))
      (broadcastInDim S4x2x8000000x1 ![] bcast_S_S4x2x8000000x1 (constantI S_ 32 0#32) (ix4 a c d (0 : Fin 1))))
    (IntOp.cmpi .sle (nb_wrap X (ix4 a c d (0 : Fin 1)))
      (broadcastInDim S4x2x8000000x1 ![0, 1, 2, 3] bcast_S1x1x1x1_S4x2x8000000x1_0_1_2_3
        (broadcastInDim S1x1x1x1 ![3] bcast_S1_S1x1x1x1_3 (constantI S1 32 791#32)) (ix4 a c d (0 : Fin 1)))) = 1#1
  rw [nb_bcast0, nb_wrap_apply X a c d (hX _).1,
    broadcastInDim_apply _ _ _ (ix4 a c d (0 : Fin 1)) (ix4 (0 : Fin 1) (0 : Fin 1) (0 : Fin 1) (0 : Fin 1)) (fun k => by
      match k with
      | ⟨0, _⟩ => rfl
      | ⟨1, _⟩ => rfl
      | ⟨2, _⟩ => rfl
      | ⟨3, _⟩ => rfl),
    broadcastInDim_apply _ _ _ (ix4 (0 : Fin 1) (0 : Fin 1) (0 : Fin 1) (0 : Fin 1)) (ix1 (0 : Fin 1)) (fun k => by
      match k with
      | ⟨0, _⟩ => rfl)]
  exact Cert.LibGatherRow.inRange_of_range (hX _).1 (hX _).2

/-- The rows taken at row numbers: the table's row, at the same level and feature. -/
theorem nb_take_apply (hX : ∀ j, 0 ≤ (X j).toInt ∧ (X j).toInt ≤ 791) :
    nb_take T X (ix3 l f p) = T (ix3 l f (Cert.Spec.rowOf (X (ix3 l f p)))) := by
  show Scalar.select (nb_inb X (ix3 l f p))
    (Host.gather gather_S4x2x792_S4x2x8000000x1_S4x2x8000000_n_2_01_01_2_3_111 T (nb_wrap X) (ix3 l f p))
    (broadcastInDim S4x2x8000000 ![] bcast_S_S4x2x8000000 (constant (F := Ideal) S_ .f32 0x7FC00000#32) (ix3 l f p)) = _
  rw [nb_inb_one X hX, select_one]
  refine (Cert.LibGatherRow.gatherK_apply _ T (nb_wrap X) l f p).trans ?_
  rw [nb_wrap_apply X l f p (hX _).1]

theorem nb_tableT_apply (r : Fin 792) : nb_tableT A0 (ix3 l f r) = A0 (ix3 l r f) := by
  unfold nb_tableT
  refine transpose_apply _ _ _ (ix3 l f r) (ix3 l r f) ?_
  intro k
  match k with
  | ⟨0, _⟩ => rfl
  | ⟨1, _⟩ => rfl
  | ⟨2, _⟩ => rfl

/-- The substituted index at (l, n, b): the stand-in on the sentinel, the index itself elsewhere. -/
theorem nb_sub_apply (A4 : S4x8x1000000.Idx → BitVec 32) :
    nb_sub A4 (ix3 l n b) = Cert.Spec.nbr A4 (nb_max1 A4 ix0) l n b := by
  show Scalar.select (IntOp.cmpi .eq (A4 (ix3 l n b))
      (broadcastInDim S4x8x1000000 ![] bcast_S_S4x8x1000000 (constantI S_ 32 4294967295#32) (ix3 l n b)))
    (broadcastInDim S4x8x1000000 ![] bcast_S_S4x8x1000000 (nb_max1 A4) (ix3 l n b)) (A4 (ix3 l n b)) = _
  rw [nb_bcast0, nb_bcast0]
  show Scalar.select (IntOp.cmpi .eq (A4 (ix3 l n b)) 4294967295#32) (nb_max1 A4 ix0) (A4 (ix3 l n b)) = _
  unfold Cert.Spec.nbr
  by_cases h : A4 (ix3 l n b) = Cert.Spec.sentinel
  · rw [if_pos h, StableHlo.Predicate.cmpi_eq_iff.2 h, select_one]
  · rw [if_neg h, eq_zero_of_ne_one (fun h1 => h (StableHlo.Predicate.cmpi_eq_iff.1 h1)), select_zero]

/-- The neighbours' gathered rows at an index: the table at the row of the substituted index (neighbour `n` of pixel
    `b` sits at flat position `n * 1000000 + b`; the row of a clipped index is the row of the index). -/
theorem nb_rows_apply : nb_rows A0 S5 (ix4 l f n b) = A0 (ix3 l (Cert.Spec.rowOf (S5 (ix3 l n b))) f) := by
  have hS : shapeCast S4x8000000 S5 shapeCasts_S4x8x1000000_S4x8000000 (ix2 l (Cert.Spec.flat n b)) = S5 (ix3 l n b) := by
    refine shapeCast_apply _ _ (ix2 l (Cert.Spec.flat n b)) (ix3 l n b) ?_
    rw [Shape.rowMajor_val_two, Shape.rowMajor_val_three]
    show (l.val * 8 + n.val) * 1000000 + b.val = l.val * 8000000 + (n.val * 1000000 + b.val)
    omega
  unfold nb_rows
  refine (shapeCast_apply _ _ (ix4 l f n b) (ix3 l f (Cert.Spec.flat n b)) ?_).trans ?_
  · rw [Shape.rowMajor_val_four, Shape.rowMajor_val_three]
    show (l.val * 2 + f.val) * 8000000 + (n.val * 1000000 + b.val) = ((l.val * 2 + f.val) * 8 + n.val) * 1000000 + b.val
    omega
  rw [nb_take_apply _ _ l f (Cert.Spec.flat n b) (nb_idx_range _), nb_tableT_apply, nb_idx_apply, nb_clip_apply,
    Cert.LibGatherRow.rowOf_clip, hS]

end NbRead

/-! ## The stand-in and the read -/

section NbFinal
variable (m : (ℓ : Loc nD τ sig) → Buf (Elt Ideal) ℓ)

/-- The neighbours' stand-in for the sentinel, of the neighbour indices as launched. -/
def nmK (c : Dev nD) : BitVec 32 :=
  Cert.Spec.standIn (shapeCast S4x8000000 (m ((c.tc : Thread nD τ).loc main_arg4) : S4x8x1000000.Idx → BitVec 32)
    shapeCasts_S4x8x1000000_S4x8000000) [0, 1] reducesTo_S4x8000000_S_d0_1 h_S_

/-- It is the stand-in stage at the one index of a scalar. -/
theorem nb_max1_eq (c : Dev nD) : nb_max1 (m ((c.tc : Thread nD τ).loc main_arg4)) ix0 = nmK m c := rfl

/-- The gathered neighbour rows as the region finds them, at an index: the table's entry in the row of the
    neighbour's index, the sentinel replaced by the stand-in. -/
theorem v44_at (c : Dev nD) (l : Fin 4) (f : Fin 2) (n : Fin 8) (b : Fin 1000000) :
    (Gen.V m c main_v44 : S4x2x8x1000000.Idx → EReal) (ix4 l f n b)
      = (m ((c.tc : Thread nD τ).loc main_arg0) : S4x792x2.Idx → EReal)
          (ix3 l (Cert.Spec.rowOf (Cert.Spec.nbr (m ((c.tc : Thread nD τ).loc main_arg4)) (nmK m c) l n b)) f) := by
  rw [nb_V44, nb_rows_apply, nb_sub_apply, nb_max1_eq]

end NbFinal

end Cert.KernelIdeal.Hand
end
-- ==== Proof.KIHostPix.lean ====
/-
  The pixel's own table row, as the host prefix computes it before the grid.

  From the pixel index array the prefix forms: the stand-in for a missing pixel (the maximum of the array plus one) and
  the array with every sentinel replaced by it; from the table, the table with its row and feature axes exchanged. From
  these two: the index array clamped into the rows 0 … 791; the clamped array repeated for the two features; the wrap of
  negative indices (which a clamped index never is); the same with a trailing unit axis, as the start indices of a
  gather; the test that every start index lies in 0 … 791 (which a clamped index always does); and the gather of one
  row per (level, feature, pixel), kept where the test holds. Read at (level l, feature f, pixel b), the result is the
  table at level l and feature f in the row of the pixel's index, a missing one replaced by the stand-in — for every
  input, since the clamp forces the range.

  The host operations are run in three stretches, each from an arbitrary valuation of the buffers: the first computes
  the substituted index array, the second the exchanged table (and keeps the first's result), the third the gathered
  rows from those two.
-/
import proofs.«404629_j77764677862011_3_alg».proof.Proof.Gen.KernelIdeal.Frame
import proofs.«404629_j77764677862011_3_alg».proof.Proof.Spec
import proofs.«404629_j77764677862011_3_alg».proof.Proof.LibGatherRow
import Idealize.ShloMosaic.Lib.ValueLayout
import Idealize.ShloMosaic.Lib.StableHlo.Run
import Idealize.ShloMosaic.PureOps.Reduce

set_option maxRecDepth 16384

noncomputable section

namespace Cert.KernelIdeal.Hand

open Idealize.ShloMosaic Idealize.ShloMosaic.ValueIdx Idealize.SL.Sem
open Cert.KernelIdeal Cert.KernelIdeal.Facts₀

/-- A reduction by `and` from 1 over an array of 1s is 1 at every result index. -/
theorem pxReduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_fold, hi]
  induction (Finset.univ.filter fun i => h.drop i = j) using Finset.cons_induction with
  | empty => rfl
  | cons a S ha ih => rw [Finset.fold_cons, ih, hx]; rfl

/-! ## The stages -/

section Stages
variable (A0 : S4x792x2.Idx → EReal) (A3 : S4x1000000.Idx → BitVec 32)
variable (T : S4x2x792.Idx → EReal) (X : S4x1000000.Idx → BitVec 32) (Y : S4x2x1000000.Idx → BitVec 32)

/-- The stand-in: the maximum of the pixel index array, plus one. -/
def pxStand : IVec S_ 32 :=
  addi (Host.reduce IntOp.maxsi A3 (constantI S_ 32 2147483648#32) reducesTo_S4x1000000_S_d0_1 h_S_) (constantI S_ 32 1#32)

/-- The pixel index array with every sentinel replaced by the stand-in. -/
def pxSub : IVec S4x1000000 32 :=
  select (cmpi .eq A3 (broadcastInDim S4x1000000 ![] bcast_S_S4x1000000 (constantI S_ 32 4294967295#32)))
    (broadcastInDim S4x1000000 ![] bcast_S_S4x1000000 (pxStand A3)) A3

/-- The table with its row and feature axes exchanged. -/
def pxTab : FVec Ideal S4x2x792 .f32 := transpose S4x2x792 [0, 2, 1] A0 transposes_S4x792x2_S4x2x792_0_2_1

/-- An index array clamped into the rows 0 … 791. -/
def pxClip : IVec S4x1000000 32 :=
  minsi (broadcastInDim S4x1000000 ![] bcast_S_S4x1000000 (id (constantI S_ 32 791#32)))
    (maxsi (broadcastInDim S4x1000000 ![] bcast_S_S4x1000000 (id (constantI S_ 32 0#32))) X)

/-- Repeated for the two features. -/
def pxBc : IVec S4x2x1000000 32 :=
  broadcastInDim S4x2x1000000 ![0, 1, 2] bcast_S4x1x1000000_S4x2x1000000_0_1_2
    (broadcastInDim S4x1x1000000 ![0, 2] bcast_S4x1000000_S4x1x1000000_0_2 (pxClip X))

/-- The wrap of negative indices. -/
def pxWrap : IVec S4x2x1000000 32 :=
  select (cmpi .slt Y (broadcastInDim S4x2x1000000 ![] bcast_S_S4x2x1000000 (constantI S_ 32 0#32)))
    (addi Y (broadcastInDim S4x2x1000000 ![] bcast_S_S4x2x1000000 (constantI S_ 32 792#32))) Y

/-- With a trailing unit axis: the start indices of the gather. -/
def pxIdx : IVec S4x2x1000000x1 32 :=
  fun i => shapeCast S4x2x1000000x1 (pxWrap Y) shapeCasts_S4x2x1000000_S4x2x1000000x1 i

/-- The test that every start index lies in 0 … 791. -/
def pxMask : IVec S4x2x1000000 1 :=
  Host.reduce IntOp.andi
    (andi (cmpi .sge (pxIdx Y) (broadcastInDim S4x2x1000000x1 ![] bcast_S_S4x2x1000000x1 (constantI S_ 32 0#32)))
      (cmpi .sle (pxIdx Y) (broadcastInDim S4x2x1000000x1 ![0, 1, 2, 3] bcast_S1x1x1x1_S4x2x1000000x1_0_1_2_3
        (broadcastInDim S1x1x1x1 ![3] bcast_S1_S1x1x1x1_3 (constantI S1 32 791#32)))))
    (constantI S_ 1 1#1) reducesTo_S4x2x1000000x1_S4x2x1000000_d3 h_S_

/-- One row per (level, feature, pixel), kept where the test holds. -/
def pxTake : FVec Ideal S4x2x1000000 .f32 :=
  select (pxMask Y)
    (Host.gather gather_S4x2x792_S4x2x1000000x1_S4x2x1000000_n_2_01_01_2_3_111 T (pxIdx Y))
    (broadcastInDim S4x2x1000000 ![] bcast_S_S4x2x1000000 (constant (F := Ideal) S_ .f32 0x7FC00000#32))

/-! ## The stages at an index -/

variable (l : Fin 4) (f : Fin 2) (b : Fin 1000000)

theorem pxStand_apply (j : S_.Idx) :
    pxStand A3 j = Cert.Spec.standIn A3 [0, 1] reducesTo_S4x1000000_S_d0_1 h_S_ := by
  rw [eq_ix0 j]; rfl

theorem pxSub_apply :
    pxSub A3 (ix2 l b) = Cert.Spec.pix A3 (Cert.Spec.standIn A3 [0, 1] reducesTo_S4x1000000_S_d0_1 h_S_) l b := by
  show Scalar.select (IntOp.cmpi .eq (A3 (ix2 l b)) Cert.Spec.sentinel) (pxStand A3 _) (A3 (ix2 l b)) = _
  rw [pxStand_apply]
  unfold Cert.Spec.pix Scalar.select
  by_cases hs : A3 (ix2 l b) = Cert.Spec.sentinel
  · rw [if_pos hs]; exact if_pos (IntOp.cmpi_eq.2 hs)
  · rw [if_neg hs]; exact if_neg (fun hc => hs (IntOp.cmpi_eq.1 hc))

theorem pxTab_apply (r : Fin 792) : pxTab A0 (ix3 l f r) = A0 (ix3 l r f) :=
  transpose_ix3_021_apply A0 transposes_S4x792x2_S4x2x792_0_2_1 l f r

theorem pxClip_apply : pxClip X (ix2 l b) = IntOp.minsi 791#32 (IntOp.maxsi 0#32 (X (ix2 l b))) := rfl

theorem pxClip_nonneg : 0 ≤ (pxClip X (ix2 l b)).toInt := by
  rw [pxClip_apply, Cert.LibGatherRow.toInt_clip]; omega
theorem pxClip_le : (pxClip X (ix2 l b)).toInt ≤ 791 := by
  rw [pxClip_apply, Cert.LibGatherRow.toInt_clip]; omega

theorem pxBc_apply : pxBc X (ix3 l f b) = pxClip X (ix2 l b) := by
  show pxClip X _ = pxClip X _
  congr 1
  funext a
  match a with
  | ⟨0, _⟩ => rfl
  | ⟨1, _⟩ => rfl

theorem pxWrap_apply : pxWrap (pxBc X) (ix3 l f b) = pxClip X (ix2 l b) := by
  show Scalar.select (IntOp.cmpi .slt (pxBc X (ix3 l f b)) 0#32) (IntOp.addi (pxBc X (ix3 l f b)) 792#32) (pxBc X (ix3 l f b)) = _
  rw [pxBc_apply]
  exact Cert.LibGatherRow.wrap_of_nonneg (pxClip_nonneg X l b)

theorem pxIdx_apply : pxIdx Y (ix4 l f b (0 : Fin 1)) = pxWrap Y (ix3 l f b) :=
  shapeCast_apply (pxWrap Y) shapeCasts_S4x2x1000000_S4x2x1000000x1 (ix4 l f b (0 : Fin 1)) (ix3 l f b) (by
    rw [Shape.rowMajor_val_three, Shape.rowMajor_val_four]
    show ((l.val * 2 + f.val) * 1000000 + b.val) = (((l.val * 2 + f.val) * 1000000 + b.val) * 1 + 0)
    omega)

theorem pxMask_apply : pxMask (pxBc X) (ix3 l f b) = 1#1 := by
  refine pxReduce_andi_one _ _ _ _ _ rfl (fun i => ?_)
  obtain ⟨l', f', b', z, rfl⟩ : ∃ (l' : Fin 4) (f' : Fin 2) (b' : Fin 1000000) (z : Fin 1), i = ix4 l' f' b' z :=
    ⟨i 0, i 1, i 2, i 3, eq_ix4 i⟩
  obtain rfl : z = 0 := Subsingleton.elim _ _
  show IntOp.andi (IntOp.cmpi .sge (pxIdx (pxBc X) (ix4 l' f' b' 0)) 0#32) (IntOp.cmpi .sle (pxIdx (pxBc X) (ix4 l' f' b' 0)) 791#32) = 1#1
  rw [pxIdx_apply, pxWrap_apply]
  exact Cert.LibGatherRow.inRange_of_range (pxClip_nonneg X _ _) (pxClip_le X _ _)

/-- The gathered rows at (l, f, b): the exchanged table at level l and feature f, in the row the index names. -/
theorem pxTake_apply : pxTake T (pxBc X) (ix3 l f b) = T (ix3 l f (Cert.Spec.rowOf (X (ix2 l b)))) := by
  unfold pxTake
  rw [select_apply, pxMask_apply, select_one]
  refine (Cert.LibGatherRow.gatherK_apply _ T (pxIdx (pxBc X)) l f b).trans ?_
  rw [pxIdx_apply, pxWrap_apply, pxClip_apply, Cert.LibGatherRow.rowOf_clip]

end Stages

/-! ## The host operations before the grid, in five stretches -/

/-- Running two lists of operations one after the other is running their concatenation. -/
theorem pxAfter_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A value moved to a buffer's own type and back is the value. -/
theorem px_ofBuf_toBuf {Val : EltTy → Type} {T : BufTy} (x : StableHlo.TRef sig T) (v : T.Contents Val) :
    x.ofBuf (x.toBuf v) = v := by
  obtain ⟨r, rfl, _, _⟩ := x; rfl

/-- At the two buffers read across stretches, moving to the value's type is the identity. -/
theorem px_ofBuf_v48 (u : S4x2x1000000.Idx → EReal) :
    (StableHlo.TRef.of main_v48 : StableHlo.TRef sig ⟨S4x2x1000000, .f32⟩).ofBuf (Val := Elt Ideal) u = u := rfl
theorem px_ofBuf_v12 (u : S4x1000000.Idx → BitVec 32) :
    (StableHlo.TRef.of main_v12 : StableHlo.TRef sig ⟨S4x1000000, .i32⟩).ofBuf (Val := Elt Ideal) u = u := rfl

/-- The test for the sentinel and the stand-in. -/
def pxOps1a : List (HloOp τ sig (Elt Ideal)) := Gen.hostOps0 ++ Gen.hostOps0_1 ++ Gen.hostOps0_2
/-- The substitution of the stand-in. -/
def pxOps1b : List (HloOp τ sig (Elt Ideal)) := Gen.hostOps0_3
/-- Everything up to the neighbours' rows: of it, the exchanged table. -/
def pxOps2 : List (HloOp τ sig (Elt Ideal)) :=
  Gen.hostOps0_4 ++ Gen.hostOps0_5 ++ Gen.hostOps0_6 ++ Gen.hostOps0_7 ++ Gen.hostOps0_8 ++ Gen.hostOps0_9 ++ Gen.hostOps0_10
    ++ Gen.hostOps0_11
/-- The clamp and the repetition for the two features. -/
def pxOps3a : List (HloOp τ sig (Elt Ideal)) := Gen.hostOps0_12 ++ Gen.hostOps0_13 ++ Gen.hostOps0_14
/-- The gather of the pixels' rows. -/
def pxOps3b : List (HloOp τ sig (Elt Ideal)) := Gen.hostOps0_15

theorem pxSplit (V : Valuation τ sig (Elt Ideal)) :
    StableHlo.after (List.flatten [Gen.hostOps0, Gen.hostOps0_1, Gen.hostOps0_2, Gen.hostOps0_3, Gen.hostOps0_4, Gen.hostOps0_5,
        Gen.hostOps0_6, Gen.hostOps0_7, Gen.hostOps0_8, Gen.hostOps0_9, Gen.hostOps0_10, Gen.hostOps0_11, Gen.hostOps0_12,
        Gen.hostOps0_13, Gen.hostOps0_14, Gen.hostOps0_15]) V
      = StableHlo.after pxOps3b (StableHlo.after pxOps3a (StableHlo.after pxOps2 (StableHlo.after pxOps1b
          (StableHlo.after pxOps1a V)))) := by
  have hL : List.flatten [Gen.hostOps0, Gen.hostOps0_1, Gen.hostOps0_2, Gen.hostOps0_3, Gen.hostOps0_4, Gen.hostOps0_5,
        Gen.hostOps0_6, Gen.hostOps0_7, Gen.hostOps0_8, Gen.hostOps0_9, Gen.hostOps0_10, Gen.hostOps0_11, Gen.hostOps0_12,
        Gen.hostOps0_13, Gen.hostOps0_14, Gen.hostOps0_15]
      = ((((pxOps1a ++ pxOps1b) ++ pxOps2) ++ pxOps3a) ++ pxOps3b : List (HloOp τ sig (Elt Ideal))) := by
    simp only [pxOps1a, pxOps1b, pxOps2, pxOps3a, pxOps3b, List.flatten_cons, List.flatten_nil, List.append_nil, List.append_assoc]
  rw [hL, pxAfter_append, pxAfter_append, pxAfter_append, pxAfter_append]

section Stretches
variable (W : Valuation τ sig (Elt Ideal))

theorem px1a_v9 : (StableHlo.after pxOps1a W (Proc.devRef .tc main_v9) : S4x1000000.Idx → BitVec 1)
    = cmpi .eq (W (Proc.devRef .tc main_arg3) : S4x1000000.Idx → BitVec 32)
        (broadcastInDim S4x1000000 ![] bcast_S_S4x1000000 (constantI S_ 32 4294967295#32)) := by
  simp only [pxOps1a, Gen.hostOps0, Gen.hostOps0_1, Gen.hostOps0_2, List.cons_append, List.nil_append]
  after_results_simp
theorem px1a_v11 : (StableHlo.after pxOps1a W (Proc.devRef .tc main_v11) : S_.Idx → BitVec 32)
    = pxStand (W (Proc.devRef .tc main_arg3)) := by
  simp only [pxOps1a, Gen.hostOps0, Gen.hostOps0_1, Gen.hostOps0_2, List.cons_append, List.nil_append]
  after_results_simp
  unfold pxStand
  rfl
theorem px1a_arg3 : StableHlo.after pxOps1a W (Proc.devRef .tc main_arg3) = W (Proc.devRef .tc main_arg3) := by
  simp only [pxOps1a, Gen.hostOps0, Gen.hostOps0_1, Gen.hostOps0_2, List.cons_append, List.nil_append]
  after_results_simp
theorem px1a_arg0 : StableHlo.after pxOps1a W (Proc.devRef .tc main_arg0) = W (Proc.devRef .tc main_arg0) := by
  simp only [pxOps1a, Gen.hostOps0, Gen.hostOps0_1, Gen.hostOps0_2, List.cons_append, List.nil_append]
  after_results_simp

theorem px1b_v12 :
    (StableHlo.TRef.of main_v12 : StableHlo.TRef sig ⟨S4x1000000, .i32⟩).ofBuf (StableHlo.after pxOps1b W (Proc.devRef .tc main_v12))
      = select (W (Proc.devRef .tc main_v9) : S4x1000000.Idx → BitVec 1)
          (broadcastInDim S4x1000000 ![] bcast_S_S4x1000000 (W (Proc.devRef .tc main_v11) : S_.Idx → BitVec 32))
          (W (Proc.devRef .tc main_arg3) : S4x1000000.Idx → BitVec 32) := by
  simp only [pxOps1b, Gen.hostOps0_3]
  after_results_simp
  simp only [px_ofBuf_toBuf]
  rfl
theorem px1b_arg0 : StableHlo.after pxOps1b W (Proc.devRef .tc main_arg0) = W (Proc.devRef .tc main_arg0) := by
  simp only [pxOps1b, Gen.hostOps0_3]
  after_results_simp

theorem px2_v38 : (StableHlo.after pxOps2 W (Proc.devRef .tc main_v38) : S4x2x792.Idx → EReal)
    = pxTab (W (Proc.devRef .tc main_arg0)) := by
  simp only [pxOps2, Gen.hostOps0_4, Gen.hostOps0_5, Gen.hostOps0_6, Gen.hostOps0_7, Gen.hostOps0_8, Gen.hostOps0_9, Gen.hostOps0_10,
    Gen.hostOps0_11, List.cons_append, List.nil_append]
  after_results_simp
  rfl
theorem px2_v12 : StableHlo.after pxOps2 W (Proc.devRef .tc main_v12) = W (Proc.devRef .tc main_v12) := by
  simp only [pxOps2, Gen.hostOps0_4, Gen.hostOps0_5, Gen.hostOps0_6, Gen.hostOps0_7, Gen.hostOps0_8, Gen.hostOps0_9, Gen.hostOps0_10,
    Gen.hostOps0_11, List.cons_append, List.nil_append]
  after_results_simp

theorem px3a_v47 : (StableHlo.after pxOps3a W (Proc.devRef .tc main_v47) : S4x2x1000000.Idx → BitVec 32)
    = pxBc ((StableHlo.TRef.of main_v12 : StableHlo.TRef sig ⟨S4x1000000, .i32⟩).ofBuf (W (Proc.devRef .tc main_v12))) := by
  simp only [pxOps3a, Gen.hostOps0_12, Gen.hostOps0_13, Gen.hostOps0_14, List.cons_append, List.nil_append]
  after_results_simp
  simp only [px_ofBuf_toBuf]
  rfl
theorem px3a_v38 : StableHlo.after pxOps3a W (Proc.devRef .tc main_v38) = W (Proc.devRef .tc main_v38) := by
  simp only [pxOps3a, Gen.hostOps0_12, Gen.hostOps0_13, Gen.hostOps0_14, List.cons_append, List.nil_append]
  after_results_simp

theorem px3b_v48 :
    (StableHlo.TRef.of main_v48 : StableHlo.TRef sig ⟨S4x2x1000000, .f32⟩).ofBuf (StableHlo.after pxOps3b W (Proc.devRef .tc main_v48))
      = pxTake (W (Proc.devRef .tc main_v38)) (W (Proc.devRef .tc main_v47)) := by
  simp only [pxOps3b, Gen.hostOps0_15]
  after_results_simp
  simp only [px_ofBuf_toBuf]
  rfl

end Stretches

/-! ## The prefix's result is the last stage -/

variable (m : (ℓ : Loc nD τ sig) → Buf (Elt Ideal) ℓ)

/-- The stand-in for a missing pixel index: the maximum of the pixel index argument, plus one. -/
def pmK (c : Dev nD) : BitVec 32 :=
  Cert.Spec.standIn (m ((c.tc : Thread nD τ).loc main_arg3) : S4x1000000.Idx → BitVec 32) [0, 1]
    reducesTo_S4x1000000_S_d0_1 h_S_

/-- What the host operations before the grid leave in the pixel-row array: the gathered rows of the exchanged table at
    the clamped, repeated, substituted pixel indices, over the table and the pixel index arguments as launched. -/
theorem v48_eq (c : Dev nD) :
    (Gen.V m c main_v48 : S4x2x1000000.Idx → EReal)
      = pxTake (pxTab (m ((c.tc : Thread nD τ).loc main_arg0) : S4x792x2.Idx → EReal))
          (pxBc (pxSub (m ((c.tc : Thread nD τ).loc main_arg3) : S4x1000000.Idx → BitVec 32))) := by
  dsimp only [Gen.V, Gen.V0]
  rw [pxSplit]
  refine (px_ofBuf_v48 _).symm.trans ?_
  rw [px3b_v48, px3a_v47, px3a_v38, px2_v38, px2_v12, px1b_v12, px1b_arg0, px1a_v9, px1a_v11, px1a_arg3, px1a_arg0]
  unfold pxSub
  rfl

/-- The pixel-row array at (level l, feature f, pixel b): the table at level l and feature f, in the row of the
    pixel's index, a missing one replaced by the stand-in. -/
theorem v48_at (c : Dev nD) (l : Fin 4) (f : Fin 2) (b : Fin 1000000) :
    (Gen.V m c main_v48 : S4x2x1000000.Idx → EReal) (ix3 l f b)
      = (m ((c.tc : Thread nD τ).loc main_arg0) : S4x792x2.Idx → EReal)
          (ix3 l (Cert.Spec.rowOf (Cert.Spec.pix (m ((c.tc : Thread nD τ).loc main_arg3) : S4x1000000.Idx → BitVec 32) (pmK m c) l b)) f) := by
  rw [v48_eq, pxTake_apply, pxTab_apply, pxSub_apply]
  rfl

end Cert.KernelIdeal.Hand

end
-- ==== Proof.RefStage.lean ====
/-
  THE REFERENCE'S RESULT BUFFER, AFTER ITS OPERATIONS IN ORDER, IS ITS LAST STAGE.

  The run of the reference states its result as the fold of its 109 operations over the launch contents, read at the
  result buffer. Read.lean's stages  val_<buffer>  name the same values as functions of the five arguments. The two are
  equal: an operation's result at its own buffer is its function of its operands' contents, and at any other buffer what
  was there. Opened all at once, the fold at the result buffer is a tree in which every value used more than once is
  repeated at each use (the index words feed the negative-index test, the wrap and the select, and through them both the
  bounds test and the gather; the distance feeds the infinity test, the minimum and the select), so the equation is
  proved at a chain of cut points instead: at each, the fold read at that buffer is opened, the subtrees that are the
  earlier cut points' folds are replaced by their stages, and what is left is a few operations deep.

  Cut points, in order: the two bounds tests and the two gathers (each alone), the two gathered rows with their fill;
  the distance, the distance with an infinite one replaced, the weight broadcast over the features; the keep mask and its
  broadcast; the weighted masked rows; their sum over the neighbours plus the pixel's row; the result.
-/
import proofs.«404629_j77764677862011_3_alg».proof.Proof.RefRead

noncomputable section

namespace Cert.ReferenceIdeal.RefStage

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- An operation's result read at a buffer — its function of its operands' contents at its own buffer, the earlier
    contents at any other —, for every operation of a literal list at once; at hypotheses as well as at the goal. -/
local macro "results_simp" loc:(Lean.Parser.Tactic.location)? : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', TRef.ofBuf, TRef.toBuf, cast_eq] $[$loc]?)

set_option maxRecDepth 8192 in
set_option maxHeartbeats 4000000 in
/-- The neighbour gather's bounds test. -/
theorem after_call2_v11 (m : (ℓ : Loc nD τ sig) → Buf (Elt F) ℓ) (c : Dev nD) :
    StableHlo.after (ops (F := F)) (launchContents m c) (Proc.devRef .tc main_call2_v11)
      = val_main_call2_v11 (F := F) (m ((c.tc : Thread nD τ).loc main_arg4)) := by
  results_simp
  rfl

set_option maxRecDepth 8192 in
set_option maxHeartbeats 4000000 in
/-- The neighbour gather. -/
theorem after_call2_v12 (m : (ℓ : Loc nD τ sig) → Buf (Elt F) ℓ) (c : Dev nD) :
    StableHlo.after (ops (F := F)) (launchContents m c) (Proc.devRef .tc main_call2_v12)
      = val_main_call2_v12 (F := F) (m ((c.tc : Thread nD τ).loc main_arg0)) (m ((c.tc : Thread nD τ).loc main_arg4)) := by
  results_simp
  rfl

set_option maxRecDepth 8192 in
set_option maxHeartbeats 4000000 in
/-- The neighbours' gathered rows, filled outside the bounds. -/
theorem after_v14 (m : (ℓ : Loc nD τ sig) → Buf (Elt F) ℓ) (c : Dev nD) :
    StableHlo.after (ops (F := F)) (launchContents m c) (Proc.devRef .tc main_v14)
      = val_main_v14 (F := F) (m ((c.tc : Thread nD τ).loc main_arg0)) (m ((c.tc : Thread nD τ).loc main_arg4)) := by
  have h0 := after_call2_v11 (F := F) m c
  have h1 := after_call2_v12 (F := F) m c
  results_simp at h0 h1 ⊢
  rw [h0, h1]
  rfl

set_option maxRecDepth 8192 in
set_option maxHeartbeats 4000000 in
/-- The pixel gather's bounds test. -/
theorem after_call3_v11 (m : (ℓ : Loc nD τ sig) → Buf (Elt F) ℓ) (c : Dev nD) :
    StableHlo.after (ops (F := F)) (launchContents m c) (Proc.devRef .tc main_call3_v11)
      = val_main_call3_v11 (F := F) (m ((c.tc : Thread nD τ).loc main_arg3)) := by
  results_simp
  rfl

set_option maxRecDepth 8192 in
set_option maxHeartbeats 4000000 in
/-- The pixel gather. -/
theorem after_call3_v12 (m : (ℓ : Loc nD τ sig) → Buf (Elt F) ℓ) (c : Dev nD) :
    StableHlo.after (ops (F := F)) (launchContents m c) (Proc.devRef .tc main_call3_v12)
      = val_main_call3_v12 (F := F) (m ((c.tc : Thread nD τ).loc main_arg0)) (m ((c.tc : Thread nD τ).loc main_arg3)) := by
  results_simp
  rfl

set_option maxRecDepth 8192 in
set_option maxHeartbeats 4000000 in
/-- The pixels' gathered rows, filled outside the bounds. -/
theorem after_v16 (m : (ℓ : Loc nD τ sig) → Buf (Elt F) ℓ) (c : Dev nD) :
    StableHlo.after (ops (F := F)) (launchContents m c) (Proc.devRef .tc main_v16)
      = val_main_v16 (F := F) (m ((c.tc : Thread nD τ).loc main_arg0)) (m ((c.tc : Thread nD τ).loc main_arg3)) := by
  have h0 := after_call3_v11 (F := F) m c
  have h1 := after_call3_v12 (F := F) m c
  results_simp at h0 h1 ⊢
  rw [h0, h1]
  rfl

set_option maxRecDepth 8192 in
set_option maxHeartbeats 4000000 in
/-- The distances. -/
theorem after_v33 (m : (ℓ : Loc nD τ sig) → Buf (Elt F) ℓ) (c : Dev nD) :
    StableHlo.after (ops (F := F)) (launchContents m c) (Proc.devRef .tc main_v33)
      = val_main_v33 (F := F) (m ((c.tc : Thread nD τ).loc main_arg1)) (m ((c.tc : Thread nD τ).loc main_arg2)) := by
  results_simp
  rfl

set_option maxRecDepth 8192 in
set_option maxHeartbeats 4000000 in
/-- The distances, an infinite one replaced by the minimum of all. -/
theorem after_v36 (m : (ℓ : Loc nD τ sig) → Buf (Elt F) ℓ) (c : Dev nD) :
    StableHlo.after (ops (F := F)) (launchContents m c) (Proc.devRef .tc main_v36)
      = val_main_v36 (F := F) (m ((c.tc : Thread nD τ).loc main_arg1)) (m ((c.tc : Thread nD τ).loc main_arg2)) := by
  have h0 := after_v33 (F := F) m c
  results_simp at h0 ⊢
  rw [h0]
  rfl

set_option maxRecDepth 8192 in
set_option maxHeartbeats 4000000 in
/-- The weights, broadcast over the features. -/
theorem after_v40 (m : (ℓ : Loc nD τ sig) → Buf (Elt F) ℓ) (c : Dev nD) :
    StableHlo.after (ops (F := F)) (launchContents m c) (Proc.devRef .tc main_v40)
      = val_main_v40 (F := F) (m ((c.tc : Thread nD τ).loc main_arg1)) (m ((c.tc : Thread nD τ).loc main_arg2)) := by
  have h0 := after_v36 (F := F) m c
  results_simp at h0 ⊢
  rw [h0]
  rfl

set_option maxRecDepth 8192 in
set_option maxHeartbeats 4000000 in
/-- The keep mask over the flat neighbour axis. -/
theorem after_v7 (m : (ℓ : Loc nD τ sig) → Buf (Elt F) ℓ) (c : Dev nD) :
    StableHlo.after (ops (F := F)) (launchContents m c) (Proc.devRef .tc main_v7)
      = val_main_v7 (F := F) (m ((c.tc : Thread nD τ).loc main_arg4)) := by
  results_simp
  rfl

set_option maxRecDepth 8192 in
set_option maxHeartbeats 4000000 in
/-- The keep mask over (l, n, b, f). -/
theorem after_v45 (m : (ℓ : Loc nD τ sig) → Buf (Elt F) ℓ) (c : Dev nD) :
    StableHlo.after (ops (F := F)) (launchContents m c) (Proc.devRef .tc main_v45)
      = val_main_v45 (F := F) (m ((c.tc : Thread nD τ).loc main_arg4)) := by
  have h0 := after_v7 (F := F) m c
  results_simp at h0 ⊢
  rw [h0]
  rfl

set_option maxRecDepth 8192 in
set_option maxHeartbeats 4000000 in
/-- The weighted, masked neighbour rows. -/
theorem after_v46 (m : (ℓ : Loc nD τ sig) → Buf (Elt F) ℓ) (c : Dev nD) :
    StableHlo.after (ops (F := F)) (launchContents m c) (Proc.devRef .tc main_v46)
      = val_main_v46 (F := F) (m ((c.tc : Thread nD τ).loc main_arg0)) (m ((c.tc : Thread nD τ).loc main_arg1)) (m ((c.tc : Thread nD τ).loc main_arg2)) (m ((c.tc : Thread nD τ).loc main_arg4)) := by
  have h0 := after_v14 (F := F) m c
  have h1 := after_v40 (F := F) m c
  have h2 := after_v45 (F := F) m c
  results_simp at h0 h1 h2 ⊢
  rw [h0, h1, h2]
  rfl

set_option maxRecDepth 8192 in
set_option maxHeartbeats 4000000 in
/-- Their sum over the neighbours plus the pixel's row. -/
theorem after_v48 (m : (ℓ : Loc nD τ sig) → Buf (Elt F) ℓ) (c : Dev nD) :
    StableHlo.after (ops (F := F)) (launchContents m c) (Proc.devRef .tc main_v48)
      = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h0 := after_v46 (F := F) m c
  have h1 := after_v16 (F := F) m c
  results_simp at h0 h1 ⊢
  rw [h0, h1]
  rfl

set_option maxRecDepth 8192 in
set_option maxHeartbeats 4000000 in
/-- The result. -/
theorem after_v51 (m : (ℓ : Loc nD τ sig) → Buf (Elt F) ℓ) (c : Dev nD) :
    StableHlo.after (ops (F := F)) (launchContents m c) (Proc.devRef .tc main_v51)
      = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h0 := after_v48 (F := F) m c
  results_simp at h0 ⊢
  rw [h0]
  rfl

end Cert.ReferenceIdeal.RefStage

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- The term the run names  res_main_v51  — the operations' fold read at the result buffer — is the last stage. -/
theorem val_main_v51_eq (m : (ℓ : Loc nD τ sig) → Buf (Elt F) ℓ) (c : Dev nD) :
    Cert.ReferenceIdeal.ValueP.res_main_v51 m c = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.ReferenceIdeal.ValueP.res_main_v51
  exact Cert.ReferenceIdeal.RefStage.after_v51 m c

end Cert.ReferenceIdeal.ReadP

end
-- ==== Proof.RefValue.lean ====
/-
  THE REFERENCE'S RESULT, READ AT AN INDEX, IS THE SPECIFICATION'S ENTRY.

  The reference flattens the neighbour axis (neighbour n of pixel b sits at position n·10⁶ + b), replaces the sentinel −1
  in each index array by the array's maximum plus one, gathers table rows by those indices (a negative index plus 792,
  then a bounds test that puts a NaN word where the index is outside the 792 rows), weighs each neighbour's row by the
  inverse of its planar distance to the pixel (an infinite distance replaced by the minimum of all distances), multiplies
  by a keep mask that is 0 on a missing neighbour, sums over the 8 neighbours from 0, adds the pixel's own row, and
  sends (level l, pixel b, feature f) to result position (b, f·4 + l) by a reshape, a transpose and a reshape.

  Read at result position (b, j), under the evident domain of the indices (a neighbour index is the sentinel or a row of
  the table; a pixel index, after the sentinel's substitution, is a row of the table), this is the specification's entry:
    * an index word inside the rows is not wrapped and passes the bounds test, so its gathered entry is the table at that
      row; the bounds test is an and-reduce over an axis of size one;
    * on a missing neighbour both sides multiply by keep = 0, and x · 0 = 0 for every extended real x, so the row the
      stand-in names does not matter;
    * the reference adds lon² + lat², the specification lat² + lon²; it multiplies (row · w) · keep, the specification
      row · (w · keep);
    * the minimum over the flat [4, 8000000] array is the minimum over (l, n, b) along the bijection
      (l, n·10⁶ + b) ↔ (l, n, b);
    * the sum over the 8 neighbours starts from the word of 0.0, which is 0.
-/
import proofs.«404629_j77764677862011_3_alg».proof.Proof.RefRead
import proofs.«404629_j77764677862011_3_alg».proof.Proof.RefStage
import proofs.«404629_j77764677862011_3_alg».proof.Proof.Spec
import proofs.«404629_j77764677862011_3_alg».proof.Proof.LibMinFold
import proofs.«404629_j77764677862011_3_alg».proof.Proof.LibGatherRow
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.ReferenceIdeal.ReadP
open Cert.Spec (sentinel rowOf flat)

/-! ## Words -/

/-- The equality test's bit is one exactly on equal words. -/
theorem cmpi_eq_one_iff {w : Nat} (a b : BitVec w) : IntOp.cmpi .eq a b = 1#1 ↔ a = b := by
  show BitVec.ofBool (a == b) = 1#1 ↔ a = b
  rw [← beq_iff_eq (a := a) (b := b)]
  cases (a == b) <;> decide

/-- The keep mask of one index word: the negated sentinel test, converted unsigned, is 0 on the sentinel and 1 off it. -/
theorem keep_word (v : BitVec 32) :
    (FloatOps.uitofp (F := Ideal) .f32 (~~~ IntOp.cmpi .eq v sentinel) : EReal) = if v = sentinel then 0 else 1 := by
  by_cases h : v = sentinel
  · rw [if_pos h, (cmpi_eq_one_iff v sentinel).mpr h]
    show (((~~~(1#1 : BitVec 1)).toNat : ℝ) : EReal) = 0
    have e : (~~~(1#1 : BitVec 1)).toNat = 0 := by decide
    rw [e]; simp
  · rw [if_neg h, eq_zero_of_ne_one (fun e => h ((cmpi_eq_one_iff v sentinel).mp e))]
    show (((~~~(0#1 : BitVec 1)).toNat : ℝ) : EReal) = 1
    have e : (~~~(0#1 : BitVec 1)).toNat = 1 := by decide
    rw [e]; simp

/-- A select on the sentinel test is the if on equality with the sentinel. -/
theorem select_sentinel (v a : BitVec 32) :
    Scalar.select (IntOp.cmpi .eq v sentinel) a v = if v = sentinel then a else v := by
  by_cases h : v = sentinel
  · rw [if_pos h, (cmpi_eq_one_iff v sentinel).mpr h, select_one]
  · rw [if_neg h, eq_zero_of_ne_one (fun e => h ((cmpi_eq_one_iff v sentinel).mp e)), select_zero]

/-- An index word in the table's rows is not wrapped by the negative-index step and passes the bounds test. -/
theorem wrap_inb (u : BitVec 32) (h0 : 0 ≤ u.toInt) (h1 : u.toInt ≤ 791) :
    Scalar.select (IntOp.cmpi .slt u 0#32) (IntOp.addi u 792#32) u = u
      ∧ IntOp.andi (IntOp.cmpi .sge u 0#32) (IntOp.cmpi .sle u 791#32) = 1#1 := by
  have z : (0#32 : BitVec 32).toInt = 0 := by decide
  have m : (791#32 : BitVec 32).toInt = 791 := by decide
  have a : u.slt 0#32 = false := by
    rw [Bool.eq_false_iff]; intro h; rw [BitVec.slt_iff_toInt_lt, z] at h; omega
  have b : (0#32 : BitVec 32).sle u = true := by rw [BitVec.sle_iff_toInt_le, z]; exact h0
  have c : u.sle 791#32 = true := by rw [BitVec.sle_iff_toInt_le, m]; exact h1
  refine ⟨?_, ?_⟩
  · simp only [IntOp.cmpi, a]; exact select_zero _ _
  · simp only [IntOp.cmpi, IntOp.andi, b, c]; decide

/-! ## Indices -/

theorem idx_v0_flat (l : Fin 4) (n : Fin 8) (b : Fin 1000000) : idx_main_v0 (ix2 l (flat n b)) = ix3 l n b := by
  have hl := l.isLt; have hn := n.isLt; have hb := b.isLt
  funext a
  match a with
  | ⟨0, _⟩ => exact Fin.ext (show (l.val * 8000000 + (n.val * 1000000 + b.val)) / 8000000 = l.val by omega)
  | ⟨1, _⟩ => exact Fin.ext (show (l.val * 8000000 + (n.val * 1000000 + b.val)) / 1000000 % 8 = n.val by omega)
  | ⟨2, _⟩ => exact Fin.ext (show (l.val * 8000000 + (n.val * 1000000 + b.val)) % 1000000 = b.val by omega)

/-- The sentinel test at flat position (l, n·10⁶ + b) tests the neighbour index (l, n, b). -/
theorem v2_flat (x4 : Cert.Spec.SNbrIdx.Idx → BitVec 32) (l : Fin 4) (n : Fin 8) (b : Fin 1000000) :
    val_main_v2 (F := Ideal) x4 (ix2 l (flat n b)) = IntOp.cmpi .eq (x4 (ix3 l n b)) sentinel := by
  rw [val_main_v2_apply, val_main_v0_apply, val_main_v1_apply, val_main_c_apply, idx_v0_flat]

/-! ## Layout indices, one operation at a time -/

section Idx
variable (l : Fin 4) (n : Fin 8) (b : Fin 1000000) (f : Fin 2) (p : Fin 8000000)

theorem idx_v21 : idx_main_v21 (ix2 l p) = ix3 l p (0 : Fin 1) := by
  have hl := l.isLt; have hp := p.isLt
  funext a
  match a with
  | ⟨0, _⟩ => exact Fin.ext (show (l.val * 8000000 + p.val) / 8000000 = l.val by omega)
  | ⟨1, _⟩ => exact Fin.ext (show (l.val * 8000000 + p.val) / 1 % 8000000 = p.val by omega)
  | ⟨2, _⟩ => rfl
theorem idx_v23 : idx_main_v23 (ix2 l p) = ix3 l p (0 : Fin 1) := idx_v21 l p
theorem idx_v27 : idx_main_v27 (ix2 l p) = ix3 l p (0 : Fin 1) := idx_v21 l p
theorem idx_v29 : idx_main_v29 (ix2 l p) = ix3 l p (0 : Fin 1) := idx_v21 l p

theorem idx_v20 : idx_main_v20 (ix3 l p (0 : Fin 1)) = ix3 l p (1 : Fin 2) := by
  funext a
  match a with
  | ⟨0, _⟩ => rfl
  | ⟨1, _⟩ => rfl
  | ⟨2, _⟩ => rfl
theorem idx_v22 : idx_main_v22 (ix3 l p (0 : Fin 1)) = ix3 l p (1 : Fin 2) := idx_v20 l p
theorem idx_v26 : idx_main_v26 (ix3 l p (0 : Fin 1)) = ix3 l p (0 : Fin 2) := by
  funext a
  match a with
  | ⟨0, _⟩ => rfl
  | ⟨1, _⟩ => rfl
  | ⟨2, _⟩ => rfl
theorem idx_v28 : idx_main_v28 (ix3 l p (0 : Fin 1)) = ix3 l p (0 : Fin 2) := idx_v26 l p

theorem idx_v19 : idx_main_v19 (ix3 l (flat n b) f) = ix4 l n b f := by
  have hl := l.isLt; have hn := n.isLt; have hb := b.isLt; have hf := f.isLt
  funext a
  match a with
  | ⟨0, _⟩ => exact Fin.ext (show ((l.val * 8000000 + (n.val * 1000000 + b.val)) * 2 + f.val) / 16000000 = l.val by omega)
  | ⟨1, _⟩ => exact Fin.ext (show ((l.val * 8000000 + (n.val * 1000000 + b.val)) * 2 + f.val) / 2000000 % 8 = n.val by omega)
  | ⟨2, _⟩ => exact Fin.ext (show ((l.val * 8000000 + (n.val * 1000000 + b.val)) * 2 + f.val) / 2 % 1000000 = b.val by omega)
  | ⟨3, _⟩ => exact Fin.ext (show ((l.val * 8000000 + (n.val * 1000000 + b.val)) * 2 + f.val) % 2 = f.val by omega)
theorem idx_v18 : idx_main_v18 (ix4 l n b f) = ix4 l (0 : Fin 1) b f := by
  funext a
  match a with
  | ⟨0, _⟩ => rfl
  | ⟨1, _⟩ => rfl
  | ⟨2, _⟩ => rfl
  | ⟨3, _⟩ => rfl
theorem idx_v17 : idx_main_v17 (ix4 l (0 : Fin 1) b f) = ix3 l b f := by
  funext a
  match a with
  | ⟨0, _⟩ => rfl
  | ⟨1, _⟩ => rfl
  | ⟨2, _⟩ => rfl

theorem idx_v40 : idx_main_v40 (ix3 l p f) = ix3 l p (0 : Fin 1) := by
  funext a
  match a with
  | ⟨0, _⟩ => rfl
  | ⟨1, _⟩ => rfl
  | ⟨2, _⟩ => rfl
theorem idx_v39 : idx_main_v39 (ix3 l p (0 : Fin 1)) = ix2 l p := by
  funext a
  match a with
  | ⟨0, _⟩ => rfl
  | ⟨1, _⟩ => rfl

theorem idx_v45 : idx_main_v45 (ix4 l n b f) = ix4 l n b (0 : Fin 1) := by
  funext a
  match a with
  | ⟨0, _⟩ => rfl
  | ⟨1, _⟩ => rfl
  | ⟨2, _⟩ => rfl
  | ⟨3, _⟩ => rfl
theorem idx_v44 : idx_main_v44 (ix4 l n b (0 : Fin 1)) = ix3 l n b := by
  funext a
  match a with
  | ⟨0, _⟩ => rfl
  | ⟨1, _⟩ => rfl
  | ⟨2, _⟩ => rfl
theorem idx_v43 : idx_main_v43 (ix3 l n b) = ix2 l (flat n b) := by
  have hl := l.isLt; have hn := n.isLt; have hb := b.isLt
  funext a
  match a with
  | ⟨0, _⟩ => exact Fin.ext (show ((l.val * 8 + n.val) * 1000000 + b.val) / 8000000 = l.val by omega)
  | ⟨1, _⟩ => exact Fin.ext (show ((l.val * 8 + n.val) * 1000000 + b.val) % 8000000 = n.val * 1000000 + b.val by omega)
theorem idx_v42 : idx_main_v42 (ix4 l n b f) = ix3 l (flat n b) f := by
  have hl := l.isLt; have hn := n.isLt; have hb := b.isLt; have hf := f.isLt
  funext a
  match a with
  | ⟨0, _⟩ => exact Fin.ext (show ((((l.val * 8 + n.val) * 1000000 + b.val) * 2 + f.val) / 16000000 = l.val) by omega)
  | ⟨1, _⟩ => exact Fin.ext (show ((((l.val * 8 + n.val) * 1000000 + b.val) * 2 + f.val) / 2 % 8000000 = n.val * 1000000 + b.val) by omega)
  | ⟨2, _⟩ => exact Fin.ext (show ((((l.val * 8 + n.val) * 1000000 + b.val) * 2 + f.val) % 2 = f.val) by omega)
theorem idx_v47 : idx_main_v47 (ix3 l b f) n = ix4 l n b f := by
  funext a
  match a with
  | ⟨0, _⟩ => rfl
  | ⟨1, _⟩ => rfl
  | ⟨2, _⟩ => rfl
  | ⟨3, _⟩ => rfl

end Idx

/-! ## The keep mask, the distance and the weight -/

/-- The reference's keep mask at (l, n, b, f) is the specification's. -/
theorem keep_read (x4 : Cert.Spec.SNbrIdx.Idx → BitVec 32) (l : Fin 4) (n : Fin 8) (b : Fin 1000000) (f : Fin 2) :
    val_main_v45 (F := Ideal) x4 (ix4 l n b f) = Cert.Spec.keep x4 l n b := by
  rw [val_main_v45_apply, idx_v45, val_main_v44_apply, idx_v44, val_main_v43_apply, idx_v43, val_main_v7_apply,
    val_main_v6_apply, v2_flat, keep_word]
  rfl

/-- The reference's distance at flat position (l, n·10⁶ + b): it adds lon² + lat², the specification lat² + lon². -/
theorem dist_read (x1 : Cert.Spec.SPixLL.Idx → EReal) (x2 : Cert.Spec.SNbrLL.Idx → EReal) (l : Fin 4) (n : Fin 8)
    (b : Fin 1000000) :
    val_main_v33 (F := Ideal) x1 x2 (ix2 l (flat n b)) = Cert.Spec.dist x1 x2 l n b := by
  rw [val_main_v33_apply, val_main_v32_apply, val_main_v25_apply, val_main_v31_apply, val_main_v24_apply, val_main_v30_apply,
    val_main_v21_apply, idx_v21, val_main_v20_apply, idx_v20,
    val_main_v23_apply, idx_v23, val_main_v22_apply, idx_v22, val_main_v19_apply, idx_v19, val_main_v18_apply, idx_v18,
    val_main_v17_apply, idx_v17,
    val_main_v27_apply, idx_v27, val_main_v26_apply, idx_v26,
    val_main_v29_apply, idx_v29, val_main_v28_apply, idx_v28, val_main_v19_apply, idx_v19, val_main_v18_apply, idx_v18,
    val_main_v17_apply, idx_v17]
  exact congrArg Ideal.sqrt (add_comm _ _)

/-- The reference's weight at (l, n·10⁶ + b, f), given its minimum of all distances. -/
theorem wgt_read (x1 : Cert.Spec.SPixLL.Idx → EReal) (x2 : Cert.Spec.SNbrLL.Idx → EReal)
    (hmin : ∀ j : S_.Idx, val_main_v35 (F := Ideal) x1 x2 j = Cert.Spec.dmin x1 x2)
    (l : Fin 4) (n : Fin 8) (b : Fin 1000000) (f : Fin 2) :
    val_main_v40 (F := Ideal) x1 x2 (ix3 l (flat n b) f) = Cert.Spec.wgt x1 x2 l n b := by
  rw [val_main_v40_apply, idx_v40, val_main_v39_apply, idx_v39, val_main_v38_apply, val_main_v37_apply, val_main_cst_5_apply,
    val_main_v36_apply, val_main_v34_apply, val_main_call4_v0_apply, val_main_call4_v1_apply, val_main_call4_cst_apply,
    val_main_call5_v0_apply, hmin, dist_read]
  rfl

/-! ## The bounds test of the gathers: an and-reduce over an axis of size one -/

/-- A left fold by and from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (by simp)
    have e : IntOp.andi 1#1 (f a) = 1#1 := by rw [ha]; decide
    rw [List.foldl_cons, e]
    exact foldl_andi_one f l fun n hn => h n (List.mem_cons_of_mem _ hn)

/-- An and-reduce from 1 is 1 at a result index all of whose operand elements are 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ fun i hi => hx i ?_
  exact of_decide_eq_true (List.mem_filter.1 hi).2

/-- The neighbour gather's bounds test at (l, p) is the one test at (l, p, 0). -/
theorem inbN_read (x4 : Cert.Spec.SNbrIdx.Idx → BitVec 32) (l : Fin 4) (p : Fin 8000000)
    (hb : val_main_call2_v10 (F := Ideal) x4 (ix3 l p (0 : Fin 1)) = 1#1) :
    val_main_call2_v11 (F := Ideal) x4 (ix2 l p) = 1#1 := by
  unfold val_main_call2_v11
  refine reduce_andi_one _ _ _ _ _ rfl fun i hi => ?_
  have e : i = ix3 l p (0 : Fin 1) := by
    funext a
    match a with
    | ⟨0, _⟩ =>
      exact Fin.ext ((Shape.ReducesTo.drop_apply_val_of_eq reducesTo_S4x8000000x1_S4x8000000_d2 i 0 0).symm.trans
        (congrArg (fun q : S4x8000000.Idx => (q 0 : ℕ)) hi))
    | ⟨1, _⟩ =>
      exact Fin.ext ((Shape.ReducesTo.drop_apply_val_of_eq reducesTo_S4x8000000x1_S4x8000000_d2 i 1 1).symm.trans
        (congrArg (fun q : S4x8000000.Idx => (q 1 : ℕ)) hi))
    | ⟨2, h2⟩ => exact Fin.ext (Nat.lt_one_iff.mp (i ⟨2, h2⟩).isLt)
  rw [e]; exact hb

/-- The pixel gather's bounds test at (l, b) is the one test at (l, b, 0). -/
theorem inbP_read (x3 : Cert.Spec.SPixIdx.Idx → BitVec 32) (l : Fin 4) (p : Fin 1000000)
    (hb : val_main_call3_v10 (F := Ideal) x3 (ix3 l p (0 : Fin 1)) = 1#1) :
    val_main_call3_v11 (F := Ideal) x3 (ix2 l p) = 1#1 := by
  unfold val_main_call3_v11
  refine reduce_andi_one _ _ _ _ _ rfl fun i hi => ?_
  have e : i = ix3 l p (0 : Fin 1) := by
    funext a
    match a with
    | ⟨0, _⟩ =>
      exact Fin.ext ((Shape.ReducesTo.drop_apply_val_of_eq reducesTo_S4x1000000x1_S4x1000000_d2 i 0 0).symm.trans
        (congrArg (fun q : S4x1000000.Idx => (q 0 : ℕ)) hi))
    | ⟨1, _⟩ =>
      exact Fin.ext ((Shape.ReducesTo.drop_apply_val_of_eq reducesTo_S4x1000000x1_S4x1000000_d2 i 1 1).symm.trans
        (congrArg (fun q : S4x1000000.Idx => (q 1 : ℕ)) hi))
    | ⟨2, h2⟩ => exact Fin.ext (Nat.lt_one_iff.mp (i ⟨2, h2⟩).isLt)
  rw [e]; exact hb

/-! ## More layout indices -/

section Idx2
variable (l : Fin 4) (f : Fin 2) (p : Fin 8000000) (q : Fin 1000000)

theorem idx_v13 : idx_main_v13 (ix3 l p (0 : Fin 1)) = ix2 l p := by
  funext a
  match a with
  | ⟨0, _⟩ => rfl
  | ⟨1, _⟩ => rfl
theorem idx_c2v13 : idx_main_call2_v13 (ix3 l p f) = ix2 l p := by
  funext a
  match a with
  | ⟨0, _⟩ => rfl
  | ⟨1, _⟩ => rfl
theorem idx_v15 : idx_main_v15 (ix3 l q (0 : Fin 1)) = ix2 l q := by
  funext a
  match a with
  | ⟨0, _⟩ => rfl
  | ⟨1, _⟩ => rfl
theorem idx_c3v13 : idx_main_call3_v13 (ix3 l q f) = ix2 l q := by
  funext a
  match a with
  | ⟨0, _⟩ => rfl
  | ⟨1, _⟩ => rfl

end Idx2

/-! ## The stand-ins for the sentinel -/

/-- The reference's neighbour stand-in (the maximum of the flattened neighbour indices plus one) is the specification's,
    over the flattened array. -/
theorem nm_read (x4 : Cert.Spec.SNbrIdx.Idx → BitVec 32) (j : S_.Idx) :
    val_main_v4 (F := Ideal) x4 j
      = Cert.Spec.standIn (shapeCast S4x8000000 x4 shapeCasts_S4x8x1000000_S4x8000000) [0, 1]
          reducesTo_S4x8000000_S_d0_1 h_S_ := by
  rw [eq_ix0 j]
  unfold val_main_v4 val_main_v3 val_main_v0 val_main_c_0 val_main_c_1 Cert.Spec.standIn
  rfl

/-- The reference's pixel stand-in is the specification's. -/
theorem pm_read (x3 : Cert.Spec.SPixIdx.Idx → BitVec 32) (j : S_.Idx) :
    val_main_v11 (F := Ideal) x3 j = Cert.Spec.standIn x3 [0, 1] reducesTo_S4x1000000_S_d0_1 h_S_ := by
  rw [eq_ix0 j]
  unfold val_main_v11 val_main_v10 val_main_c_3 val_main_c_4 Cert.Spec.standIn
  rfl

/-! ## The index words after the sentinel substitution -/

/-- The neighbour index word at flat position (l, n·10⁶ + b), the sentinel replaced by the stand-in. -/
theorem nbrword_read (x4 : Cert.Spec.SNbrIdx.Idx → BitVec 32) (nm : BitVec 32)
    (hnm : ∀ j : S_.Idx, val_main_v4 (F := Ideal) x4 j = nm) (l : Fin 4) (n : Fin 8) (b : Fin 1000000) :
    val_main_v5 (F := Ideal) x4 (ix2 l (flat n b)) = Cert.Spec.nbr x4 nm l n b := by
  rw [val_main_v5_apply, v2_flat, val_main_call0_v0_apply, hnm, val_main_v0_apply, idx_v0_flat, select_sentinel]
  rfl

/-- The pixel index word at (l, b), the sentinel replaced by the stand-in. -/
theorem pixword_read (x3 : Cert.Spec.SPixIdx.Idx → BitVec 32) (pm : BitVec 32)
    (hpm : ∀ j : S_.Idx, val_main_v11 (F := Ideal) x3 j = pm) (l : Fin 4) (b : Fin 1000000) :
    val_main_v12 (F := Ideal) x3 (ix2 l b) = Cert.Spec.pix x3 pm l b := by
  rw [val_main_v12_apply, val_main_v9_apply, val_main_v8_apply, val_main_c_2_apply, val_main_call1_v0_apply, hpm,
    select_sentinel]
  rfl

/-! ## The gathered rows -/

/-- A neighbour's gathered table entry, for an index word inside the table's rows: the table at the word's row. -/
theorem rowN_read (x0 : Cert.Spec.STable.Idx → EReal) (x4 : Cert.Spec.SNbrIdx.Idx → BitVec 32) (nm : BitVec 32)
    (hnm : ∀ j : S_.Idx, val_main_v4 (F := Ideal) x4 j = nm)
    (hg : ∀ (idx : IVec S4x8000000x1 32) (l : Fin 4) (p : Fin 8000000) (f : Fin 2),
      Host.gather gather_S4x792x2_S4x8000000x1_S4x8000000x2_2_1_0_0_1_2_112 x0 idx (ix3 l p f)
        = x0 (ix3 l (rowOf (idx (ix3 l p (0 : Fin 1)))) f))
    (l : Fin 4) (n : Fin 8) (b : Fin 1000000) (f : Fin 2)
    (h0 : 0 ≤ (Cert.Spec.nbr x4 nm l n b).toInt) (h1 : (Cert.Spec.nbr x4 nm l n b).toInt ≤ 791) :
    val_main_v14 (F := Ideal) x0 x4 (ix3 l (flat n b) f) = x0 (ix3 l (rowOf (Cert.Spec.nbr x4 nm l n b)) f) := by
  have h13 : val_main_v13 (F := Ideal) x4 (ix3 l (flat n b) (0 : Fin 1)) = Cert.Spec.nbr x4 nm l n b := by
    rw [val_main_v13_apply, idx_v13, nbrword_read x4 nm hnm]
  have h4 : val_main_call2_v4 (F := Ideal) x4 (ix3 l (flat n b) (0 : Fin 1)) = Cert.Spec.nbr x4 nm l n b := by
    rw [val_main_call2_v4_apply, val_main_call2_v1_apply, val_main_call2_v3_apply, h13, val_main_call2_v0_apply,
      val_main_call2_c_apply, val_main_call2_v2_apply, val_main_call2_c_0_apply]
    exact (wrap_inb _ h0 h1).1
  have h10 : val_main_call2_v10 (F := Ideal) x4 (ix3 l (flat n b) (0 : Fin 1)) = 1#1 := by
    rw [val_main_call2_v10_apply, val_main_call2_v6_apply, val_main_call2_v9_apply, h4, val_main_call2_v5_apply,
      val_main_call2_c_2_apply, val_main_call2_v8_apply, val_main_call2_v7_apply, val_main_call2_c_1_apply]
    exact (wrap_inb _ h0 h1).2
  rw [val_main_v14_apply, val_main_call2_v13_apply, idx_c2v13, inbN_read x4 l _ h10, select_one]
  unfold val_main_call2_v12
  rw [hg, h4]

/-- The pixel's gathered table entry, for an index word inside the table's rows. -/
theorem rowP_read (x0 : Cert.Spec.STable.Idx → EReal) (x3 : Cert.Spec.SPixIdx.Idx → BitVec 32) (pm : BitVec 32)
    (hpm : ∀ j : S_.Idx, val_main_v11 (F := Ideal) x3 j = pm)
    (hg : ∀ (idx : IVec S4x1000000x1 32) (l : Fin 4) (p : Fin 1000000) (f : Fin 2),
      Host.gather gather_S4x792x2_S4x1000000x1_S4x1000000x2_2_1_0_0_1_2_112 x0 idx (ix3 l p f)
        = x0 (ix3 l (rowOf (idx (ix3 l p (0 : Fin 1)))) f))
    (l : Fin 4) (b : Fin 1000000) (f : Fin 2)
    (h0 : 0 ≤ (Cert.Spec.pix x3 pm l b).toInt) (h1 : (Cert.Spec.pix x3 pm l b).toInt ≤ 791) :
    val_main_v16 (F := Ideal) x0 x3 (ix3 l b f) = x0 (ix3 l (rowOf (Cert.Spec.pix x3 pm l b)) f) := by
  have h15 : val_main_v15 (F := Ideal) x3 (ix3 l b (0 : Fin 1)) = Cert.Spec.pix x3 pm l b := by
    rw [val_main_v15_apply, idx_v15, pixword_read x3 pm hpm]
  have h4 : val_main_call3_v4 (F := Ideal) x3 (ix3 l b (0 : Fin 1)) = Cert.Spec.pix x3 pm l b := by
    rw [val_main_call3_v4_apply, val_main_call3_v1_apply, val_main_call3_v3_apply, h15, val_main_call3_v0_apply,
      val_main_call3_c_apply, val_main_call3_v2_apply, val_main_call3_c_0_apply]
    exact (wrap_inb _ h0 h1).1
  have h10 : val_main_call3_v10 (F := Ideal) x3 (ix3 l b (0 : Fin 1)) = 1#1 := by
    rw [val_main_call3_v10_apply, val_main_call3_v6_apply, val_main_call3_v9_apply, h4, val_main_call3_v5_apply,
      val_main_call3_c_2_apply, val_main_call3_v8_apply, val_main_call3_v7_apply, val_main_call3_c_1_apply]
    exact (wrap_inb _ h0 h1).2
  rw [val_main_v16_apply, val_main_call3_v13_apply, idx_c3v13, inbP_read x3 l _ h10, select_one]
  unfold val_main_call3_v12
  rw [hg, h4]

/-! ## The result -/

/-- The final reshape, transpose and reshape send result position (b, j) to (level j mod 4, b, feature j / 4). -/
theorem idx_tail (b : Fin 1000000) (j : Fin 8) :
    idx_main_v49 (idx_main_v50 (idx_main_v51 (ix2 b j))) = ix3 (Cert.Spec.lvl j) b (Cert.Spec.feat j) := by
  have hb := b.isLt; have hj := j.isLt
  have e1 : (b.val * 8 + j.val) / 4 = 2 * b.val + j.val / 4 := by omega
  have e2 : (b.val * 8 + j.val) % 4 = j.val % 4 := by omega
  funext a
  match a with
  | ⟨0, _⟩ =>
    refine Fin.ext (show (((b.val * 8 + j.val) % 4) * 2000000 + (b.val * 8 + j.val) / 4) / 2000000 = j.val % 4 from ?_)
    rw [e1, e2]; omega
  | ⟨1, _⟩ =>
    refine Fin.ext (show (((b.val * 8 + j.val) % 4) * 2000000 + (b.val * 8 + j.val) / 4) / 2 % 1000000 = b.val from ?_)
    have e3 : (j.val % 4 * 2000000 + (2 * b.val + j.val / 4)) / 2 = j.val % 4 * 1000000 + b.val := by omega
    rw [e1, e2, e3]; omega
  | ⟨2, _⟩ =>
    refine Fin.ext (show (((b.val * 8 + j.val) % 4) * 2000000 + (b.val * 8 + j.val) / 4) % 2 = j.val / 4 from ?_)
    rw [e1, e2]; omega

/-- One neighbour's term: the reference multiplies (row · weight) · keep, the specification row · (weight · keep); on a
    missing neighbour both are zero, whatever row the stand-in names. -/
theorem term_read (x0 : Cert.Spec.STable.Idx → EReal) (x1 : Cert.Spec.SPixLL.Idx → EReal) (x2 : Cert.Spec.SNbrLL.Idx → EReal)
    (x4 : Cert.Spec.SNbrIdx.Idx → BitVec 32)
    (hgN : ∀ (idx : IVec S4x8000000x1 32) (l : Fin 4) (p : Fin 8000000) (f : Fin 2),
      Host.gather gather_S4x792x2_S4x8000000x1_S4x8000000x2_2_1_0_0_1_2_112 x0 idx (ix3 l p f)
        = x0 (ix3 l (rowOf (idx (ix3 l p (0 : Fin 1)))) f))
    (hmin : ∀ j : S_.Idx, val_main_v35 (F := Ideal) x1 x2 j = Cert.Spec.dmin x1 x2)
    (hN : ∀ (l : Fin 4) (n : Fin 8) (b : Fin 1000000), x4 (ix3 l n b) ≠ sentinel →
      0 ≤ (x4 (ix3 l n b)).toInt ∧ (x4 (ix3 l n b)).toInt ≤ 791)
    (l : Fin 4) (f : Fin 2) (b : Fin 1000000) (k : Fin 8) :
    val_main_v46 (F := Ideal) x0 x1 x2 x4 (idx_main_v47 (ix3 l b f) k)
      = Cert.Spec.term x0 x1 x2 x4
          (Cert.Spec.standIn (shapeCast S4x8000000 x4 shapeCasts_S4x8x1000000_S4x8000000) [0, 1]
            reducesTo_S4x8000000_S_d0_1 h_S_) l f k b := by
  rw [idx_v47, val_main_v46_apply, val_main_v42_apply, idx_v42, val_main_v41_apply, keep_read, wgt_read x1 x2 hmin]
  show (val_main_v14 (F := Ideal) x0 x4 _ * _) * _ = _
  unfold Cert.Spec.term
  by_cases hv : x4 (ix3 l k b) = sentinel
  · have hk : Cert.Spec.keep x4 l k b = 0 := by unfold Cert.Spec.keep; rw [if_pos hv]
    rw [hk, mul_zero, mul_zero, mul_zero]
  · have hu : ∀ nm, Cert.Spec.nbr x4 nm l k b = x4 (ix3 l k b) := by
      intro nm; unfold Cert.Spec.nbr; rw [if_neg hv]
    rw [rowN_read x0 x4 _ (nm_read x4) hgN _ _ _ _ (by rw [hu]; exact (hN _ _ _ hv).1) (by rw [hu]; exact (hN _ _ _ hv).2),
      mul_assoc]

/-- The reference's result over any five argument arrays, read at (b, j), is the specification's entry, given the two
    gathers read at an index, the minimum of all distances, and the index words inside the table's rows. -/
theorem ref_value (x0 : Cert.Spec.STable.Idx → EReal) (x1 : Cert.Spec.SPixLL.Idx → EReal) (x2 : Cert.Spec.SNbrLL.Idx → EReal)
    (x3 : Cert.Spec.SPixIdx.Idx → BitVec 32) (x4 : Cert.Spec.SNbrIdx.Idx → BitVec 32)
    (hgN : ∀ (idx : IVec S4x8000000x1 32) (l : Fin 4) (p : Fin 8000000) (f : Fin 2),
      Host.gather gather_S4x792x2_S4x8000000x1_S4x8000000x2_2_1_0_0_1_2_112 x0 idx (ix3 l p f)
        = x0 (ix3 l (rowOf (idx (ix3 l p (0 : Fin 1)))) f))
    (hgP : ∀ (idx : IVec S4x1000000x1 32) (l : Fin 4) (p : Fin 1000000) (f : Fin 2),
      Host.gather gather_S4x792x2_S4x1000000x1_S4x1000000x2_2_1_0_0_1_2_112 x0 idx (ix3 l p f)
        = x0 (ix3 l (rowOf (idx (ix3 l p (0 : Fin 1)))) f))
    (hmin : ∀ j : S_.Idx, val_main_v35 (F := Ideal) x1 x2 j = Cert.Spec.dmin x1 x2)
    (hN : ∀ (l : Fin 4) (n : Fin 8) (b : Fin 1000000), x4 (ix3 l n b) ≠ sentinel →
      0 ≤ (x4 (ix3 l n b)).toInt ∧ (x4 (ix3 l n b)).toInt ≤ 791)
    (hP : ∀ (l : Fin 4) (b : Fin 1000000),
      0 ≤ (Cert.Spec.pix x3 (Cert.Spec.standIn x3 [0, 1] reducesTo_S4x1000000_S_d0_1 h_S_) l b).toInt
        ∧ (Cert.Spec.pix x3 (Cert.Spec.standIn x3 [0, 1] reducesTo_S4x1000000_S_d0_1 h_S_) l b).toInt ≤ 791)
    (b : Fin 1000000) (j : Fin 8) :
    val_main_v51 (F := Ideal) x0 x1 x2 x3 x4 (ix2 b j)
      = Cert.Spec.out x0 x1 x2 x3 x4
          (Cert.Spec.standIn (shapeCast S4x8000000 x4 shapeCasts_S4x8x1000000_S4x8000000) [0, 1]
            reducesTo_S4x8000000_S_d0_1 h_S_)
          (Cert.Spec.standIn x3 [0, 1] reducesTo_S4x1000000_S_d0_1 h_S_) b j := by
  rw [val_main_v51_apply, val_main_v50_apply, val_main_v49_apply, idx_tail, val_main_v48_apply, val_main_v47_apply,
    val_main_cst_6_apply, rowP_read x0 x3 _ (pm_read x3) hgP _ _ _ (hP _ _).1 (hP _ _).2,
    Finset.sum_congr rfl fun k _ => term_read x0 x1 x2 x4 hgN hmin hN (Cert.Spec.lvl j) (Cert.Spec.feat j) b k]
  show (Ideal.ofBits .f32 0x00000000#32 + _) + _ = _
  rw [Ideal.ofBits_zero_f32, zero_add]
  rfl

/-! ## The minimum of all distances -/

/-- The reference's minimum over the flat [4, 8000000] distances is the specification's over (l, n, b). -/
theorem dmin_read (x1 : Cert.Spec.SPixLL.Idx → EReal) (x2 : Cert.Spec.SNbrLL.Idx → EReal) (j : S_.Idx) :
    val_main_v35 (F := Ideal) x1 x2 j = Cert.Spec.dmin x1 x2 := by
  rw [eq_ix0 j]
  unfold val_main_v35
  exact Cert.LibMinFold.reduce_min_flat_dmin x1 x2 (val_main_v33 (F := Ideal) x1 x2) _ reducesTo_S4x8000000_S_d0_1 h_S_
    (dist_read x1 x2) rfl

/-! ## The reference's result at a launch's contents -/

/-- The neighbour stand-in of a launch's contents: the maximum of the flattened neighbour indices plus one. -/
def nmR (m' : (ℓ : Loc nD τ sig) → Buf (Elt Ideal) ℓ) (c : Dev nD) : BitVec 32 :=
  Cert.Spec.standIn
    (shapeCast S4x8000000 (m' ((c.tc : Thread nD τ).loc main_arg4) : Cert.Spec.SNbrIdx.Idx → BitVec 32)
      shapeCasts_S4x8x1000000_S4x8000000)
    [0, 1] reducesTo_S4x8000000_S_d0_1 h_S_

/-- The pixel stand-in of a launch's contents: the maximum of the pixel indices plus one. -/
def pmR (m' : (ℓ : Loc nD τ sig) → Buf (Elt Ideal) ℓ) (c : Dev nD) : BitVec 32 :=
  Cert.Spec.standIn (m' ((c.tc : Thread nD τ).loc main_arg3) : Cert.Spec.SPixIdx.Idx → BitVec 32) [0, 1]
    reducesTo_S4x1000000_S_d0_1 h_S_

/-- THE REFERENCE'S RESULT read at (b, j) is the specification's entry, for neighbour indices that are the sentinel or
    inside the table's rows and pixel indices (after the sentinel's substitution) inside the table's rows. -/
theorem ref_result (m' : (ℓ : Loc nD τ sig) → Buf (Elt Ideal) ℓ) (c : Dev nD)
    (hN : ∀ (l : Fin 4) (n : Fin 8) (b : Fin 1000000),
      (m' ((c.tc : Thread nD τ).loc main_arg4) : Cert.Spec.SNbrIdx.Idx → BitVec 32) (ix3 l n b) ≠ Cert.Spec.sentinel →
        0 ≤ ((m' ((c.tc : Thread nD τ).loc main_arg4) : Cert.Spec.SNbrIdx.Idx → BitVec 32) (ix3 l n b)).toInt
          ∧ ((m' ((c.tc : Thread nD τ).loc main_arg4) : Cert.Spec.SNbrIdx.Idx → BitVec 32) (ix3 l n b)).toInt ≤ 791)
    (hP : ∀ (l : Fin 4) (b : Fin 1000000),
      0 ≤ (Cert.Spec.pix (m' ((c.tc : Thread nD τ).loc main_arg3) : Cert.Spec.SPixIdx.Idx → BitVec 32) (pmR m' c) l b).toInt
        ∧ (Cert.Spec.pix (m' ((c.tc : Thread nD τ).loc main_arg3) : Cert.Spec.SPixIdx.Idx → BitVec 32) (pmR m' c) l b).toInt
            ≤ 791)
    (b : Fin 1000000) (j : Fin 8) :
    (Cert.ReferenceIdeal.ValueP.res_main_v51 m' c : S1000000x8.Idx → EReal) (ix2 b j)
      = Cert.Spec.out (m' ((c.tc : Thread nD τ).loc main_arg0) : Cert.Spec.STable.Idx → EReal)
          (m' ((c.tc : Thread nD τ).loc main_arg1) : Cert.Spec.SPixLL.Idx → EReal)
          (m' ((c.tc : Thread nD τ).loc main_arg2) : Cert.Spec.SNbrLL.Idx → EReal)
          (m' ((c.tc : Thread nD τ).loc main_arg3) : Cert.Spec.SPixIdx.Idx → BitVec 32)
          (m' ((c.tc : Thread nD τ).loc main_arg4) : Cert.Spec.SNbrIdx.Idx → BitVec 32) (nmR m' c) (pmR m' c) b j := by
  rw [val_main_v51_eq]
  exact ref_value _ _ _ _ _ (fun idx l p f => Cert.LibGatherRow.gatherR_apply _ _ idx l p f)
    (fun idx l p f => Cert.LibGatherRow.gatherR_apply _ _ idx l p f) (dmin_read _ _) hN hP b j

end Cert.ReferenceIdeal.RefValue

end
-- ==== Proof.PreFacts.lean ====
/-
  The integer part of the precondition, decoded. The printed predicate is a conjunction of six "all entries satisfy"
  tests; four of them speak of the two index arrays: every neighbour index lies in [-1, 791], and every pixel index,
  after the sentinel -1 has been replaced by (maximum of the array) + 1, lies in [0, 791]. Here those four are read back
  as inequalities between signed integers at one entry, and the replaced pixel index is identified with the
  specification's `pix`.
-/
import proofs.«404629_j77764677862011_3_alg».proof.Defs
import proofs.«404629_j77764677862011_3_alg».proof.Proof.Gen.Pre_finite_inputs
import proofs.«404629_j77764677862011_3_alg».proof.Proof.Gen.KernelIdeal
import proofs.«404629_j77764677862011_3_alg».proof.Proof.Spec
import Idealize.ShloMosaic.Lib.ReduceAll
import Idealize.ShloMosaic.Lib.StableHlo.Predicate

noncomputable section

namespace Cert.Proof.PreFacts

open Idealize.ShloMosaic Idealize.ShloMosaic.ValueIdx Idealize.SL.Sem
open Cert.Pre_finite_inputs (S_ S4x792x2 S4x1000000x2 S4x8000000x2 S4x1000000 S4x8x1000000)
open Cert.Pre_finite_inputs.Facts

/-- The scalar shape has one index. -/
instance : Subsingleton S_.Idx := ⟨fun _ _ => funext fun d => d.elim0⟩

/-- The stand-in for a missing pixel index: the maximum of the pixel index array plus one. -/
def pmPre (a3 : Cert.Spec.SPixIdx.Idx → BitVec 32) : BitVec 32 :=
  Cert.Spec.standIn a3 [0, 1] Cert.Pre_finite_inputs.Facts.reducesTo_S4x1000000_S_d0_1 Cert.Pre_finite_inputs.Facts.h_S_

/-- The pixel index array with every sentinel replaced by the stand-in, as the precondition computes it. -/
def pixSub (a3 : IVec S4x1000000 32) : IVec S4x1000000 32 :=
  select (cmpi .eq a3 (broadcastInDim S4x1000000 ![] bcast_S_S4x1000000 (constantI S_ 32 4294967295#32)))
    (broadcastInDim S4x1000000 ![] bcast_S_S4x1000000
      (addi (Host.reduce IntOp.maxsi a3 (constantI S_ 32 2147483648#32) reducesTo_S4x1000000_S_d0_1 h_S_) (constantI S_ 32 1#32)))
    a3

/-- At entry (l, b) the replaced array is the specification's pixel index. -/
theorem pixSub_apply (a3 : IVec S4x1000000 32) (l : Fin 4) (b : Fin 1000000) :
    pixSub a3 (ix2 l b) = Cert.Spec.pix a3 (pmPre a3) l b := by
  have hpm : ∀ j : S_.Idx,
      addi (Host.reduce IntOp.maxsi a3 (constantI S_ 32 2147483648#32) reducesTo_S4x1000000_S_d0_1 h_S_) (constantI S_ 32 1#32) j
        = pmPre a3 := fun j => by rw [eq_ix0 j]; rfl
  show Scalar.select (IntOp.cmpi .eq (a3 (ix2 l b)) Cert.Spec.sentinel) (addi _ _ _) (a3 (ix2 l b)) = _
  rw [hpm]
  unfold Cert.Spec.pix Scalar.select
  by_cases hs : a3 (ix2 l b) = Cert.Spec.sentinel
  · rw [if_pos hs]; exact if_pos (IntOp.cmpi_eq.2 hs)
  · rw [if_neg hs]; exact if_neg (fun hc => hs (IntOp.cmpi_eq.1 hc))

/-- The four integer conjuncts of the precondition, each at every entry. -/
theorem decode (a0 : FVec Ideal S4x792x2 .f32) (a1 : FVec Ideal S4x1000000x2 .f32) (a2 : FVec Ideal S4x8000000x2 .f32)
    (a3 : IVec S4x1000000 32) (a4 : IVec S4x8x1000000 32)
    (h : Cert.Pre_finite_inputs.fn (F := Ideal) a0 a1 a2 a3 a4 = fun _ => 1#1) :
    (∀ i, -1 ≤ (a4 i).toInt) ∧ (∀ i, (a4 i).toInt ≤ 791)
      ∧ (∀ i, 0 ≤ (pixSub a3 i).toInt) ∧ (∀ i, (pixSub a3 i).toInt ≤ 791) := by
  have h0 := congrFun h ix0
  dsimp only [Cert.Pre_finite_inputs.fn, Cert.Pre_finite_inputs.fn_part1, Cert.Pre_finite_inputs.fn_part2] at h0
  obtain ⟨h1, e34⟩ := IntOp.andi_eq_one.1 h0
  obtain ⟨h2, e30⟩ := IntOp.andi_eq_one.1 h1
  obtain ⟨h3, e26⟩ := IntOp.andi_eq_one.1 h2
  obtain ⟨-, e22⟩ := IntOp.andi_eq_one.1 h3
  have c1 : (4294967295#32 : BitVec 32).toInt = -1 := by decide
  have c2 : (791#32 : BitVec 32).toInt = 791 := by decide
  have c3 : (0#32 : BitVec 32).toInt = 0 := by decide
  refine ⟨fun i => ?_, fun i => ?_, fun i => ?_, fun i => ?_⟩
  · have t : (4294967295#32 : BitVec 32).toInt ≤ (a4 i).toInt := IntOp.cmpi_sge.1 (Host.reduce_andi_all _ _ _ _ ix0 e22 i)
    omega
  · have t : (a4 i).toInt ≤ (791#32 : BitVec 32).toInt := IntOp.cmpi_sle.1 (Host.reduce_andi_all _ _ _ _ ix0 e26 i)
    omega
  · have t : (0#32 : BitVec 32).toInt ≤ (pixSub a3 i).toInt := IntOp.cmpi_sge.1 (Host.reduce_andi_all _ _ _ _ ix0 e30 i)
    omega
  · have t : (pixSub a3 i).toInt ≤ (791#32 : BitVec 32).toInt := IntOp.cmpi_sle.1 (Host.reduce_andi_all _ _ _ _ ix0 e34 i)
    omega

/-- A word at least -1 read signed, other than the word of -1, is nonnegative. -/
theorem nonneg_of_ne_sentinel {x : BitVec 32} (h1 : -1 ≤ x.toInt) (hs : x ≠ Cert.Spec.sentinel) : 0 ≤ x.toInt := by
  by_contra hn
  have e : (Cert.Spec.sentinel).toInt = -1 := by decide
  exact hs (BitVec.toInt_inj.1 (by rw [e]; omega))

/-- A present neighbour index is a row of the table. -/
theorem nbr_range (m : (ℓ : Loc Cert.KernelIdeal.nD Cert.KernelIdeal.τ Cert.KernelIdeal.sig) → Buf (Elt Ideal) ℓ)
    (h : Cert.Pre_KernelIdeal m) (c : Dev Cert.KernelIdeal.nD) (l : Fin 4) (n : Fin 8) (b : Fin 1000000) :
    (m ((c.tc : Thread Cert.KernelIdeal.nD Cert.KernelIdeal.τ).loc Cert.KernelIdeal.main_arg4) : S4x8x1000000.Idx → BitVec 32) (ix3 l n b) ≠ Cert.Spec.sentinel →
      0 ≤ ((m ((c.tc : Thread Cert.KernelIdeal.nD Cert.KernelIdeal.τ).loc Cert.KernelIdeal.main_arg4) : S4x8x1000000.Idx → BitVec 32) (ix3 l n b)).toInt
        ∧ ((m ((c.tc : Thread Cert.KernelIdeal.nD Cert.KernelIdeal.τ).loc Cert.KernelIdeal.main_arg4) : S4x8x1000000.Idx → BitVec 32) (ix3 l n b)).toInt ≤ 791 := by
  intro hs
  obtain ⟨d1, d2, -, -⟩ := decode _ _ _ _ _ (h c)
  exact ⟨nonneg_of_ne_sentinel (d1 _) hs, d2 _⟩

/-- The pixel index, a missing one replaced by the stand-in, is a row of the table. -/
theorem pix_range (m : (ℓ : Loc Cert.KernelIdeal.nD Cert.KernelIdeal.τ Cert.KernelIdeal.sig) → Buf (Elt Ideal) ℓ)
    (h : Cert.Pre_KernelIdeal m) (c : Dev Cert.KernelIdeal.nD) (l : Fin 4) (b : Fin 1000000) :
    0 ≤ (Cert.Spec.pix (m ((c.tc : Thread Cert.KernelIdeal.nD Cert.KernelIdeal.τ).loc Cert.KernelIdeal.main_arg3) : S4x1000000.Idx → BitVec 32)
          (pmPre (m ((c.tc : Thread Cert.KernelIdeal.nD Cert.KernelIdeal.τ).loc Cert.KernelIdeal.main_arg3) : S4x1000000.Idx → BitVec 32)) l b).toInt
      ∧ (Cert.Spec.pix (m ((c.tc : Thread Cert.KernelIdeal.nD Cert.KernelIdeal.τ).loc Cert.KernelIdeal.main_arg3) : S4x1000000.Idx → BitVec 32)
          (pmPre (m ((c.tc : Thread Cert.KernelIdeal.nD Cert.KernelIdeal.τ).loc Cert.KernelIdeal.main_arg3) : S4x1000000.Idx → BitVec 32)) l b).toInt ≤ 791 := by
  obtain ⟨-, -, d3, d4⟩ := decode _ _ _ _ _ (h c)
  rw [← pixSub_apply]
  exact ⟨d3 _, d4 _⟩

end Cert.Proof.PreFacts

end
-- ==== Proof.lean ====
/-
  The certificate of the multi-level table lookup with inverse-distance neighbour interpolation.

  For every pixel `b`, level `l` and feature `f` both programs compute
      (∑ n < 8, table[l, row(nbr l n b), f] · (w l n b · keep l n b)) + table[l, row(pix l b), f]
  (`Cert.Spec.out`): the kernel gathers the table rows and forms the weights on the host, reduces the eight
  neighbours on the sublane axis inside its one pallas_call (31 blocks of 32768 pixels, the last one cut at the
  array's end) and transposes; the reference does everything on the host over a flattened neighbour axis. The two
  differ in the order of two additions and in the association of one product, which the extended reals do not see,
  and in how they treat an index outside the table (the kernel clips, the reference wraps and fills): the
  precondition keeps every index the reference gathers with inside the table's 792 rows, a missing neighbour
  (sentinel -1) being multiplied by 0 on both sides.

  The word-level kernel's frame says nothing of values (the sublane sum has no reading at bit patterns over the
  unnamed words past the array's end): it is proved over relational proof data. The idealized kernel's run names its
  result; the reference's run is read back operation by operation.
-/
import proofs.«404629_j77764677862011_3_alg».proof.Defs
import proofs.«404629_j77764677862011_3_alg».proof.Proof.Gen.Kernel
import proofs.«404629_j77764677862011_3_alg».proof.Proof.Gen.KernelIdeal
import proofs.«404629_j77764677862011_3_alg».proof.Proof.Gen.ReferenceIdeal
import proofs.«404629_j77764677862011_3_alg».proof.Proof.Gen.Pre_finite_inputs
import proofs.«404629_j77764677862011_3_alg».proof.Proof.Spec
import proofs.«404629_j77764677862011_3_alg».proof.Proof.KernelFrame
import proofs.«404629_j77764677862011_3_alg».proof.Proof.KIRun
import proofs.«404629_j77764677862011_3_alg».proof.Proof.KIValue
import proofs.«404629_j77764677862011_3_alg».proof.Proof.KIHost
import proofs.«404629_j77764677862011_3_alg».proof.Proof.KIHostNbr
import proofs.«404629_j77764677862011_3_alg».proof.Proof.KIHostPix
import proofs.«404629_j77764677862011_3_alg».proof.Proof.RefValue
import proofs.«404629_j77764677862011_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

open Cert.KernelIdeal Cert.KernelIdeal.Gen Cert.KernelIdeal.Hand in
/-- The idealized kernel's run with its result named: the array the host tail writes, and the five arguments
    unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v50)
            = Pipeline.afterTail₀ cfgs (dats m) 0 (V0 m) [hostOps1] c main_v50
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c =>
    ⟨(h c).2 main_v50 (Pipeline.mem_restRefs_of main_v50 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

open Cert.KernelIdeal Cert.KernelIdeal.Gen Cert.KernelIdeal.Hand in
/-- The kernel's result entry `(b, j)` is the specification's, of the kernel's own argument arrays: the region's
    sublane sum over the three gathered and weighted arrays, each read back at its index. No condition on the
    indices: the kernel clips each into the table before it gathers. -/
theorem kernel_entry (m : (ℓ : Loc Cert.KernelIdeal.nD Cert.KernelIdeal.τ Cert.KernelIdeal.sig) → Buf (Elt Ideal) ℓ)
    (c : Dev Cert.KernelIdeal.nD) (b : Fin 1000000) (j : Fin 8) :
    (Pipeline.afterTail₀ cfgs (dats m) 0 (V0 m) [hostOps1] c main_v50 : S1000000x8.Idx → EReal) (ix2 b j)
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (nmK m c) (pmK m c) b j := by
  rw [kernel_result m c b j]
  unfold Cert.Spec.out Cert.Spec.term arr44 arr37 arr48
  simp only [v44_at m c, v37_at m c, v48_at m c]

/-- `preserves`: the idealization rewrote nothing. -/
theorem preserves : Cert.preserves_Kernel_KernelIdeal := trivial

/-- Both idealized programs, from memories agreeing on the arguments, end with the specification's array: the
    kernel for every input, the reference where the precondition keeps the indices it gathers with inside the
    table (a missing neighbour's row is multiplied by zero on both sides). -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Gen.V0 m)
      [Cert.KernelIdeal.Gen.hostOps1] c Cert.KernelIdeal.main_v50, kernel_run m ρ, ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4⟩ := hagree c
  funext i
  obtain ⟨b, j, rfl⟩ : ∃ (b : Fin 1000000) (j : Fin 8), i = ix2 b j := ⟨i 0, i 1, eq_ix2 i⟩
  have hN : ∀ (l : Fin 4) (n : Fin 8) (b : Fin 1000000),
      (m' ((c.tc : Thread Cert.ReferenceIdeal.nD Cert.ReferenceIdeal.τ).loc Cert.ReferenceIdeal.main_arg4) : Cert.Spec.SNbrIdx.Idx → BitVec 32) (ix3 l n b) ≠ Cert.Spec.sentinel →
        0 ≤ ((m' ((c.tc : Thread Cert.ReferenceIdeal.nD Cert.ReferenceIdeal.τ).loc Cert.ReferenceIdeal.main_arg4) : Cert.Spec.SNbrIdx.Idx → BitVec 32) (ix3 l n b)).toInt
        ∧ ((m' ((c.tc : Thread Cert.ReferenceIdeal.nD Cert.ReferenceIdeal.τ).loc Cert.ReferenceIdeal.main_arg4) : Cert.Spec.SNbrIdx.Idx → BitVec 32) (ix3 l n b)).toInt ≤ 791 := by
    intro l n b; rw [h4]; exact Cert.Proof.PreFacts.nbr_range m hpre c l n b
  have hP : ∀ (l : Fin 4) (b : Fin 1000000),
      0 ≤ (Cert.Spec.pix (m' ((c.tc : Thread Cert.ReferenceIdeal.nD Cert.ReferenceIdeal.τ).loc Cert.ReferenceIdeal.main_arg3)) (Cert.ReferenceIdeal.RefValue.pmR m' c) l b).toInt
      ∧ (Cert.Spec.pix (m' ((c.tc : Thread Cert.ReferenceIdeal.nD Cert.ReferenceIdeal.τ).loc Cert.ReferenceIdeal.main_arg3)) (Cert.ReferenceIdeal.RefValue.pmR m' c) l b).toInt ≤ 791 := by
    intro l b; unfold Cert.ReferenceIdeal.RefValue.pmR; rw [h3]; exact Cert.Proof.PreFacts.pix_range m hpre c l b
  refine (Cert.ReferenceIdeal.RefValue.ref_result m' c hN hP b j).trans ?_
  refine Eq.trans ?_ (kernel_entry m c b j).symm
  unfold Cert.ReferenceIdeal.RefValue.nmR Cert.ReferenceIdeal.RefValue.pmR Cert.KernelIdeal.Hand.nmK Cert.KernelIdeal.Hand.pmK
  rw [h0, h1, h2, h3, h4]

theorem claim : Cert.Claim :=
  ⟨Cert.Kernel.Gen.facts, Cert.KernelIdeal.Gen.facts, Cert.ReferenceIdeal.Gen.facts, Cert.Pre_finite_inputs.Gen.facts,
    Cert.Proof.KernelFrame.frame, Cert.KernelIdeal.Hand.frame, frame_ri, preserves, algebraic⟩

end Cert.Proof

end
